-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S20x1024 : Shape := ⟨2, ![20, 1024]⟩
abbrev S50257x1024 : Shape := ⟨2, ![50257, 1024]⟩
abbrev S20x2048 : Shape := ⟨2, ![20, 2048]⟩
abbrev S20 : Shape := ⟨1, ![20]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S20x1024 : S_.BroadcastsInDim S20x1024 (![] : Fin 0 → Fin S20x1024.rank)
  reducesTo_S20x1024_S_d0_1 : S20x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S20x2048 : S_.BroadcastsInDim S20x2048 (![] : Fin 0 → Fin S20x2048.rank)
  reducesTo_S20x2048_S_d0_1 : S20x2048.ReducesTo [0, 1] S_
  bcast_S_S20 : S_.BroadcastsInDim S20 (![] : Fin 0 → Fin S20.rank)
  reducesTo_S20_S_d0 : S20.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S20 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S20x2048 1) : IVec S_ 1 :=
  let main_c_5 : IVec S_ 1 := constantI S_ 1 1#1
  let main_v17 : IVec S_ 1 := (fun x v => Host.reduce IntOp.andi x v reducesTo_S20x2048_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S20x1024 .f32) (main_arg3 : FVec F S50257x1024 .f32) (main_arg4 : FVec F S20x2048 .f32) (main_arg5 : FVec F S20 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S20x1024 .f32 := Host.absf main_arg2
  let main_cst_0 : FVec F S_ .f32 := constant S_ .f32 0x7F800000#32
  let main_v5 : FVec F S20x1024 .f32 := broadcastInDim S20x1024 ![] bcast_S_S20x1024 main_cst_0
  let main_v6 : IVec S20x1024 1 := cmpf .olt main_v4 main_v5
  let main_c_1 : IVec S_ 1 := constantI S_ 1 1#1
  let main_v7 : IVec S_ 1 := (fun x v => Host.reduce IntOp.andi x v reducesTo_S20x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S20x2048 .f32 := Host.absf main_arg4
  let main_cst_4 : FVec F S_ .f32 := constant S_ .f32 0x7F800000#32
  let main_v15 : FVec F S20x2048 .f32 := broadcastInDim S20x2048 ![] bcast_S_S20x2048 main_cst_4
  let main_v16 : IVec S20x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S20x1024 : Shape := ⟨2, ![20, 1024]⟩
abbrev S50257x1024 : Shape := ⟨2, ![50257, 1024]⟩
abbrev S20x2048 : Shape := ⟨2, ![20, 2048]⟩
abbrev S20 : Shape := ⟨1, ![20]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x20 : Shape := ⟨2, ![1, 20]⟩
abbrev S1x3072 : Shape := ⟨2, ![1, 3072]⟩
abbrev S1x50257 : Shape := ⟨2, ![1, 50257]⟩
abbrev S1024x1024 : Shape := ⟨2, ![1024, 1024]⟩
abbrev S3584x1024 : Shape := ⟨2, ![3584, 1024]⟩
abbrev S1x3584 : Shape := ⟨2, ![1, 3584]⟩

abbrev nBuf : Space → Nat
  | .hbm => 95
  | .vmem => 29
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S20x1024, .f32⟩
  | .hbm, ⟨3, _⟩ => ⟨S50257x1024, .f32⟩
  | .hbm, ⟨4, _⟩ => ⟨S20x2048, .f32⟩
  | .hbm, ⟨5, _⟩ => ⟨S20, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x20, .f32⟩
  | .hbm, ⟨38, _⟩ => ⟨S1x1024, .f32⟩
  | .hbm, ⟨39, _⟩ => ⟨S1x3072, .f32⟩
  | .hbm, ⟨40, _⟩ => ⟨S1x3072, .f32⟩
  | .hbm, ⟨41, _⟩ => ⟨S1x50257, .f32⟩
  | .hbm, ⟨42, _⟩ => ⟨S1x1024, .f32⟩
  | .hbm, ⟨43, _⟩ => ⟨S1x3072, .f32⟩
  | .hbm, ⟨44, _⟩ => ⟨S1x3072, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x50257, .f32⟩
  | .hbm, ⟨79, _⟩ => ⟨S_, .f32⟩
  | .hbm, ⟨80, _⟩ => ⟨S1, .f32⟩
  | .hbm, ⟨81, _⟩ => ⟨S_, .f32⟩
  | .hbm, ⟨82, _⟩ => ⟨S1, .f32⟩
  | .hbm, ⟨83, _⟩ => ⟨S1, .f32⟩
  | .hbm, ⟨84, _⟩ => ⟨S1x1, .f32⟩
  | .hbm, ⟨85, _⟩ => ⟨S1x50257, .f32⟩
  | .hbm, ⟨86, _⟩ => ⟨S1x50257, .f32⟩
  | .hbm, ⟨87, _⟩ => ⟨S1x50257, .f32⟩
  | .hbm, ⟨88, _⟩ => ⟨S_, .f32⟩
  | .hbm, ⟨89, _⟩ => ⟨S1, .f32⟩
  | .hbm, ⟨90, _⟩ => ⟨S1x1, .f32⟩
  | .hbm, ⟨91, _⟩ => ⟨S1x1, .f32⟩
  | .hbm, ⟨92, _⟩ => ⟨S1x50257, .f32⟩
  | .hbm, ⟨93, _⟩ => ⟨S1x50257, .f32⟩
  | .hbm, ⟨94, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S20x1024, .f32⟩
  | .local _ .vmem, ⟨3, _⟩ => ⟨S20x2048, .f32⟩
  | .local _ .vmem, ⟨4, _⟩ => ⟨S1x20, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S3584x1024, .f32⟩
  | .local _ .vmem, ⟨24, _⟩ => ⟨S3584x1024, .f32⟩
  | .local _ .vmem, ⟨25, _⟩ => ⟨S1x3584, .f32⟩
  | .local _ .vmem, ⟨26, _⟩ => ⟨S1x3584, .f32⟩
  | .local _ .vmem, ⟨27, _⟩ => ⟨S1x3584, .f32⟩
  | .local _ .vmem, ⟨28, _⟩ => ⟨S1x3584, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8_0 : Ref sig .tc := ⟨.hbm, 43, rfl⟩
abbrev main_v8_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_cst_0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_v25 : Ref sig .tc := ⟨.hbm, 64, rfl⟩
abbrev main_v26 : Ref sig .tc := ⟨.hbm, 65, rfl⟩
abbrev main_cst_2 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_3 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call1_cst : Ref sig .tc := ⟨.hbm, 79, rfl⟩
abbrev main_call1_v0 : Ref sig .tc := ⟨.hbm, 80, rfl⟩
abbrev main_call1_cst_0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_cst_1 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_v38 : Ref sig .tc := ⟨.hbm, 93, rfl⟩
abbrev main_v39 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3584x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3584 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3584 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1x1024 : S1x1x1024.ShapeCasts S1x1024
  shapeCasts_S20_S1x20 : S20.ShapeCasts S1x20
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S20x2048_S20x1024_0_0 : ∀ a, (![0, 0] : Fin 2 → Nat) a + S20x1024.size a ≤ S20x2048.size a
  h_S20x1024 : 0 < S20x1024.numel
  inb_S20x2048_S20x1024_0_1024 : ∀ a, (![0, 1024] : Fin 2 → Nat) a + S20x1024.size a ≤ S20x2048.size a
  inb_S1x20_S1x20_0_0 : ∀ a, (![0, 0] : Fin 2 → Nat) a + S1x20.size a ≤ S1x20.size a
  h_S1x20 : 0 < S1x20.numel
  shapeCasts_S1x20_S1x20 : S1x20.ShapeCasts S1x20
  reduces_S1x20_S1 : S1x20.Reduces [1] S1
  shapeCasts_S1_S1x1 : S1.ShapeCasts S1x1
  broadcasts_S1x1_S1x20 : S1x1.Broadcasts S1x20
  inb_S20x1024_S20x1024_0_0 : ∀ a, (![0, 0] : Fin 2 → Nat) a + S20x1024.size a ≤ S20x1024.size a
  inb_S1024x2048_S1024x1024_0_0 : ∀ a, (![0, 0] : Fin 2 → Nat) a + S1024x1024.size a ≤ S1024x2048.size a
  h_S1024x1024 : 0 < S1024x1024.numel
  inb_S1024x2048_S1024x1024_0_1024 : ∀ a, (![0, 1024] : Fin 2 → Nat) a + S1024x1024.size a ≤ S1024x2048.size a
  inb_S1024x1024_S1024x1024_0_0 : ∀ a, (![0, 0] : Fin 2 → Nat) a + S1024x1024.size a ≤ S1024x1024.size a
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  inb_S3584x1024_S3584x1024_0_0 : ∀ a, (![0, 0] : Fin 2 → Nat) a + S3584x1024.size a ≤ S3584x1024.size a
  h_S3584x1024 : 0 < S3584x1024.numel
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  reducesTo_S1x50257_S1_d1 : S1x50257.ReducesTo [1] S1
  bcast_S1x1_S1x50257_0_1 : S1x1.BroadcastsInDim S1x50257 (![0, 1] : Fin 2 → Fin S1x50257.rank)
  shapeCasts_S1x1024_S1x1x1024 : S1x1024.ShapeCasts S1x1x1024
  gather_S50257x1024_S1x1_S1x1024_1_0_n_n_0_1_11024_wf : GatherDims.WF S50257x1024 S1x1 S1x1024 [1] [0] [] [0] [] 1 ![1, 1024]
  dot_S1x1024_S20x1024_S1x20_1_1_0_0_n_n_wf : DotDims.WF S1x1024 S20x1024 S1x20 [1] [1] [0] [0] [] []
  dot_S1x20_S20x1024_S1x1024_1_0_0_1_n_n_wf : DotDims.WF S1x20 S20x1024 S1x1024 [1] [0] [0] [1] [] []
  dot_S1x1024_S1024x1024_S1x1024_1_1_0_0_n_n_wf : DotDims.WF S1x1024 S1024x1024 S1x1024 [1] [1] [0] [0] [] []
  dot_S1x1024_S3584x1024_S1x3584_1_1_0_0_n_n_wf : DotDims.WF S1x1024 S3584x1024 S1x3584 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x1024.size a ≤ S20x1024.size a
  hwx0_2 : ∀ i : grid0.Coords, EltTy.bits .f32 = 32 ∨ (Rect.block (s := S20x1024) S20x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x2048.size a ≤ S20x2048.size a
  hwx0_3 : ∀ i : grid0.Coords, EltTy.bits .f32 = 32 ∨ (Rect.block (s := S20x2048) S20x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S3072x1024.size a
  hwx1_2 : ∀ i : grid1.Coords, EltTy.bits .f32 = 32 ∨ (Rect.block (s := S3072x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S3072x1024.size a
  hwx1_3 : ∀ i : grid1.Coords, EltTy.bits .f32 = 32 ∨ (Rect.block (s := S3072x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x3072.size a
  hwx1_4 : ∀ i : grid1.Coords, EltTy.bits .f32 = 32 ∨ (Rect.block (s := S1x3072) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x3072.size a
  hwx1_5 : ∀ i : grid1.Coords, EltTy.bits .f32 = 32 ∨ (Rect.block (s := S1x3072) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x3072.size a
  hwx1_6 : ∀ i : grid1.Coords, EltTy.bits .f32 = 32 ∨ (Rect.block (s := S1x3072) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x3072.size a
  hwx1_7 : ∀ i : grid1.Coords, EltTy.bits .f32 = 32 ∨ (Rect.block (s := S1x3072) S1x1024.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3584x1024.size a < S50257x1024.size a
  hwx2_1 : ∀ i : grid2.Coords, EltTy.bits .f32 = 32 ∨ (Rect.unit (s := S50257x1024) (fun a => cc2_transform_1 i a * S3584x1024.size a) (fun a => (Pipeline.Clip.of (cc2_transform_1 i a) (S3584x1024.size a) (S50257x1024.size a)).extent (S3584x1024.size a)) fun a => Pipeline.Clip.inb (Pipeline.Clip.ok_of (hstart2_1 i a))).WholeWords (EltTy.packing .f32)
  hwxs2_1 : ∀ i : grid2.Coords, EltTy.bits .f32 = 32 ∨ (Rect.unit (s := S3584x1024) (fun _ => 0) (fun a => (Pipeline.Clip.of (cc2_transform_1 i a) (S3584x1024.size a) (S50257x1024.size a)).extent (S3584x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x3584.size a < S1x50257.size a
  hwx2_2 : ∀ i : grid2.Coords, EltTy.bits .f32 = 32 ∨ (Rect.unit (s := S1x50257) (fun a => cc2_transform_2 i a * S1x3584.size a) (fun a => (Pipeline.Clip.of (cc2_transform_2 i a) (S1x3584.size a) (S1x50257.size a)).extent (S1x3584.size a)) fun a => Pipeline.Clip.inb (Pipeline.Clip.ok_of (hstart2_2 i a))).WholeWords (EltTy.packing .f32)
  hwxs2_2 : ∀ i : grid2.Coords, EltTy.bits .f32 = 32 ∨ (Rect.unit (s := S1x3584) (fun _ => 0) (fun a => (Pipeline.Clip.of (cc2_transform_2 i a) (S1x3584.size a) (S1x50257.size a)).extent (S1x3584.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x3584.size a < S1x50257.size a
  hwx2_3 : ∀ i : grid2.Coords, EltTy.bits .f32 = 32 ∨ (Rect.unit (s := S1x50257) (fun a => cc2_transform_3 i a * S1x3584.size a) (fun a => (Pipeline.Clip.of (cc2_transform_3 i a) (S1x3584.size a) (S1x50257.size a)).extent (S1x3584.size a)) fun a => Pipeline.Clip.inb (Pipeline.Clip.ok_of (hstart2_3 i a))).WholeWords (EltTy.packing .f32)
  hwxs2_3 : ∀ i : grid2.Coords, EltTy.bits .f32 = 32 ∨ (Rect.unit (s := S1x3584) (fun _ => 0) (fun a => (Pipeline.Clip.of (cc2_transform_3 i a) (S1x3584.size a) (S1x50257.size a)).extent (S1x3584.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S20x1024_S1x20_1_1_0_0_n_n : DotDims S1x1024 S20x1024 S1x20 where
  lhsContracting := [1]
  rhsContracting := [1]
  lhsNonContracting := [0]
  rhsNonContracting := [0]
  lhsBatch := []
  rhsBatch := []
  wf := dot_S1x1024_S20x1024_S1x20_1_1_0_0_n_n_wf
def dot_S1x20_S20x1024_S1x1024_1_0_0_1_n_n : DotDims S1x20 S20x1024 S1x1024 where
  lhsContracting := [1]
  rhsContracting := [0]
  lhsNonContracting := [0]
  rhsNonContracting := [1]
  lhsBatch := []
  rhsBatch := []
  wf := dot_S1x20_S20x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3584x1024_S1x3584_1_1_0_0_n_n : DotDims S1x1024 S3584x1024 S1x3584 where
  lhsContracting := [1]
  rhsContracting := [1]
  lhsNonContracting := [0]
  rhsNonContracting := [0]
  lhsBatch := []
  rhsBatch := []
  wf := dot_S1x1024_S3584x1024_S1x3584_1_1_0_0_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S20x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_0) S1x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_1) S1x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S3584x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v6) S1x3584.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v37) S1x3584.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S20x1024 : Shape := ⟨2, ![20, 1024]⟩
abbrev S50257x1024 : Shape := ⟨2, ![50257, 1024]⟩
abbrev S20x2048 : Shape := ⟨2, ![20, 2048]⟩
abbrev S20 : Shape := ⟨1, ![20]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x20 : Shape := ⟨2, ![2048, 20]⟩
abbrev S1x20 : Shape := ⟨2, ![1, 20]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 117
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S20x1024, .f32⟩
  | .hbm, ⟨3, _⟩ => ⟨S50257x1024, .f32⟩
  | .hbm, ⟨4, _⟩ => ⟨S20x2048, .f32⟩
  | .hbm, ⟨5, _⟩ => ⟨S20, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1x1024, .f32⟩
  | .hbm, ⟨24, _⟩ => ⟨S1x1024, .f32⟩
  | .hbm, ⟨25, _⟩ => ⟨S1x1024, .f32⟩
  | .hbm, ⟨26, _⟩ => ⟨S1x2048, .f32⟩
  | .hbm, ⟨27, _⟩ => ⟨S2048x20, .f32⟩
  | .hbm, ⟨28, _⟩ => ⟨S1x20, .f32⟩
  | .hbm, ⟨29, _⟩ => ⟨S1x20, .f32⟩
  | .hbm, ⟨30, _⟩ => ⟨S1x20, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x20, .f32⟩
  | .hbm, ⟨38, _⟩ => ⟨S1x20, .f32⟩
  | .hbm, ⟨39, _⟩ => ⟨S1x20, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x20, .f32⟩
  | .hbm, ⟨44, _⟩ => ⟨S1x20, .f32⟩
  | .hbm, ⟨45, _⟩ => ⟨S1x1024, .f32⟩
  | .hbm, ⟨46, _⟩ => ⟨S1x1024, .f32⟩
  | .hbm, ⟨47, _⟩ => ⟨S1x2048, .f32⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1024x50257, .f32⟩
  | .hbm, ⟨98, _⟩ => ⟨S1x50257, .f32⟩
  | .hbm, ⟨99, _⟩ => ⟨S1x50257, .f32⟩
  | .hbm, ⟨100, _⟩ => ⟨S1x50257, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S1, .f32⟩
  | .hbm, ⟨106, _⟩ => ⟨S1x1, .f32⟩
  | .hbm, ⟨107, _⟩ => ⟨S1x50257, .f32⟩
  | .hbm, ⟨108, _⟩ => ⟨S1x50257, .f32⟩
  | .hbm, ⟨109, _⟩ => ⟨S1x50257, .f32⟩
  | .hbm, ⟨110, _⟩ => ⟨S_, .f32⟩
  | .hbm, ⟨111, _⟩ => ⟨S1, .f32⟩
  | .hbm, ⟨112, _⟩ => ⟨S1x1, .f32⟩
  | .hbm, ⟨113, _⟩ => ⟨S1x1, .f32⟩
  | .hbm, ⟨114, _⟩ => ⟨S1x50257, .f32⟩
  | .hbm, ⟨115, _⟩ => ⟨S1x50257, .f32⟩
  | .hbm, ⟨116, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_cst_6 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call1_cst : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_cst_1 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1024_S1x1x1024 : S1x1024.ShapeCasts S1x1x1024
  shapeCasts_S1x1x1024_S1x1024 : S1x1x1024.ShapeCasts S1x1024
  concatenates_S1x1024_S1x1024_S1x2048_d1 : Shape.Concatenates [S1x1024, S1x1024] S1x2048 1
  transposes_S20x2048_S2048x20_1_0 : S20x2048.Transposes [1, 0] S2048x20
  bcast_S20_S1x20_1 : S20.BroadcastsInDim S1x20 (![1] : Fin 1 → Fin S1x20.rank)
  reducesTo_S1x20_S1_d1 : S1x20.ReducesTo [1] S1
  h_S_ : 0 < S_.numel
  bcast_S1x1_S1x20_0_1 : S1x1.BroadcastsInDim S1x20 (![0, 1] : Fin 2 → Fin S1x20.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  gather_S50257x1024_S1x1_S1x1024_1_0_n_n_0_1_11024_wf : GatherDims.WF S50257x1024 S1x1 S1x1024 [1] [0] [] [0] [] 1 ![1, 1024]
  dot_S1x2048_S2048x20_S1x20_1_0_0_1_n_n_wf : DotDims.WF S1x2048 S2048x20 S1x20 [1] [0] [0] [1] [] []
  dot_S1x20_S20x1024_S1x1024_1_0_0_1_n_n_wf : DotDims.WF S1x20 S20x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x20_S1x20_1_0_0_1_n_n : DotDims S1x2048 S2048x20 S1x20 where
  lhsContracting := [1]
  rhsContracting := [0]
  lhsNonContracting := [0]
  rhsNonContracting := [1]
  lhsBatch := []
  rhsBatch := []
  wf := dot_S1x2048_S2048x20_S1x20_1_0_0_1_n_n_wf
def dot_S1x20_S20x1024_S1x1024_1_0_0_1_n_n : DotDims S1x20 S20x1024 S1x1024 where
  lhsContracting := [1]
  rhsContracting := [0]
  lhsNonContracting := [0]
  rhsNonContracting := [1]
  lhsBatch := []
  rhsBatch := []
  wf := dot_S1x20_S20x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KR0Defs.lean ====
/-
  The first launch (attention and combine, one grid point): its proof data at a parameter V, the buffer contents
  the launch is entered from. Every operand is one whole block; the body reads seven of them and stores the GRU's
  input row, so after the body the result's staging buffer holds the body's one payload of the seven blocks
  (the two 2048-wide weights read as their left and right halves).
-/
import proofs.«408449_j11519102288461_3_alg».proof.Proof.Gen.Kernel.Launch
import proofs.«408449_j11519102288461_3_alg».proof.Proof.Gen.Kernel.Skeleton
import proofs.«408449_j11519102288461_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes through: whole 1 × 1024, 20 × 1024 and 1 × 20 buffers, and the left and
    right halves of the 20 × 2048 and 1024 × 2048 weights. -/
abbrev rRow : Rect S1x1024 := Rect.unit (s := S1x1024) ![0, 0] S1x1024.size inb_S1x1024_S1x1024_0_0
abbrev rEnc : Rect S20x1024 := Rect.unit (s := S20x1024) ![0, 0] S20x1024.size inb_S20x1024_S20x1024_0_0
abbrev rAttnL : Rect S20x2048 := Rect.unit (s := S20x2048) ![0, 0] S20x1024.size inb_S20x2048_S20x1024_0_0
abbrev rAttnR : Rect S20x2048 := Rect.unit (s := S20x2048) ![0, 1024] S20x1024.size inb_S20x2048_S20x1024_0_1024
abbrev rBias : Rect S1x20 := Rect.unit (s := S1x20) ![0, 0] S1x20.size inb_S1x20_S1x20_0_0
abbrev rCombL : Rect S1024x2048 := Rect.unit (s := S1024x2048) ![0, 0] S1024x1024.size inb_S1024x2048_S1024x1024_0_0
abbrev rCombR : Rect S1024x2048 := Rect.unit (s := S1024x2048) ![0, 1024] S1024x1024.size inb_S1024x2048_S1024x1024_0_1024

/-- The GRU input row the body stores, as its payload of the seven input blocks: x0 the embedding, x1 the hidden
    state, x2 the encoder outputs, x3 the attention weight, x4 its bias, x5 the combining weight, x6 its bias. -/
def pay0 (x0 x1 : Vec F S1x1024 .f32) (x2 : Vec F S20x1024 .f32) (x3 : Vec F S20x2048 .f32) (x4 : Vec F S1x20 .f32)
    (x5 : Vec F S1024x2048 .f32) (x6 : Vec F S1x1024 .f32) : Vec F S1x1024 .f32 :=
  k0_pay1 (k0_pay2 (View.ld x0 rRow))
    (k0_pay3 (View.ld x0 rRow) (View.ld x1 rRow) (View.ld x3 rAttnL) (View.ld x3 rAttnR) (View.ld x4 rBias) (View.ld x2 rEnc))
    (k0_pay4 (View.ld x5 rCombL)) (k0_pay5 (View.ld x5 rCombR)) (constant S1x1024 .f32 0x00000000#32) (View.ld x6 rRow)

/-- The result's staging buffer after the body: its one whole-buffer store. -/
def out0_7 (x0 x1 : Vec F S1x1024 .f32) (x2 : Vec F S20x1024 .f32) (x3 : Vec F S20x2048 .f32) (x4 : Vec F S1x20 .f32)
    (x5 : Vec F S1024x2048 .f32) (x6 : Vec F S1x1024 .f32) : Vec F S1x1024 .f32 :=
  View.canon [⟨rRow, pay0 x0 x1 x2 x3 x4 x5 x6⟩]

/-- The proof data of the first launch on core c: the arrays as the launch finds them; after the body each input's
    buffer at its block and the result's at the stored row; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

end Cert.Kernel.Hand

end
-- ==== Proof.KR1Defs.lean ====
/-
  The second launch (the GRU's gate pre-activations, one grid point per gate): its proof data at a parameter V, the
  buffer contents the launch is entered from. The GRU input row and the hidden state are whole blocks fetched once;
  at gate g the body reads rows 1024·g … 1024·g + 1023 of the two weights and columns 1024·g … of the two biases
  and stores the two results' columns 1024·g …: two payloads, one per result.
-/
import proofs.«408449_j11519102288461_3_alg».proof.Proof.Gen.Kernel.Launch
import proofs.«408449_j11519102288461_3_alg».proof.Proof.Gen.Kernel.Skeleton
import proofs.«408449_j11519102288461_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes through: a whole 1 × 1024 buffer and a whole 1024 × 1024 buffer. -/
abbrev r1Row : Rect S1x1024 := Rect.unit (s := S1x1024) ![0, 0] S1x1024.size inb_S1x1024_S1x1024_0_0
abbrev r1Sq : Rect S1024x1024 := Rect.unit (s := S1024x1024) ![0, 0] S1024x1024.size inb_S1024x1024_S1024x1024_0_0

/-- The first result's staging buffer after the body: the input row against the gate's block of w_ih, plus the
    gate's block of b_ih. -/
def out1_6 (x0 : Vec F S1x1024 .f32) (x2 : Vec F S1024x1024 .f32) (x4 : Vec F S1x1024 .f32) : Vec F S1x1024 .f32 :=
  View.canon [⟨r1Row, k1_pay1 (View.ld x0 r1Row) (View.ld x2 r1Sq) (View.ld x4 r1Row)⟩]

/-- The second result's: the hidden state against the gate's block of w_hh, plus the gate's block of b_hh. -/
def out1_7 (x1 : Vec F S1x1024 .f32) (x3 : Vec F S1024x1024 .f32) (x5 : Vec F S1x1024 .f32) : Vec F S1x1024 .f32 :=
  View.canon [⟨r1Row, k1_pay2 (View.ld x1 r1Row) (View.ld x3 r1Sq) (View.ld x5 r1Row)⟩]

/-- The proof data of the second launch on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 4 t) := by
  dsimp only [dat1]
theorem after1_7 (c : Dev nD) (t : Fin cfg1.N) : (dat1 V c).after 7 t = out1_7 (iblk1 V c 1 t) (iblk1 V c 3 t) (iblk1 V c 5 t) := by
  dsimp only [dat1]

end Cert.Kernel.Hand

end
-- ==== Proof.KR2Defs.lean ====
/-
  The third launch (the vocabulary scores, fifteen grid points of 3584 words): its proof data at a parameter V, the
  buffer contents the launch is entered from. 15 · 3584 = 53760 exceeds the vocabulary's 50257 words, so at the last
  point the blocks of the weight, of the bias and of the result hang over their arrays' ends: only their first 81
  rows (columns) are moved, and the rest of each staging buffer holds words nothing names. The proof data state
  each such buffer on its moved part and fill the rest with zeros; a result column depends only on its own row of
  the weight and its own bias entry, so the moved part of the result does not see the fill.
-/
import proofs.«408449_j11519102288461_3_alg».proof.Proof.Gen.Kernel.Launch
import proofs.«408449_j11519102288461_3_alg».proof.Proof.Gen.Kernel.Skeleton
import proofs.«408449_j11519102288461_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, the part of it inside the array, read off the array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight's block at point t filled out to the staging buffer's 3584 rows with zeros. -/
def wfull2 (c : Dev nD) (t : Fin cfg2.N) : S3584x1024.Idx → Elt F .f32 :=
  win2_1.fill (grid2.coords t) (fun _ => Scalar.ofBits .f32 0#32) (iblk2 V c 1 t)
/-- The bias's block at point t filled out to 3584 columns with zeros. -/
def bfull2 (c : Dev nD) (t : Fin cfg2.N) : S1x3584.Idx → Elt F .f32 :=
  win2_2.fill (grid2.coords t) (fun _ => Scalar.ofBits .f32 0#32) (iblk2 V c 2 t)

/-- The rectangles the body reads and writes through: the three whole staging buffers. -/
abbrev r2Row : Rect S1x1024 := Rect.unit (s := S1x1024) ![0, 0] S1x1024.size inb_S1x1024_S1x1024_0_0
abbrev r2W : Rect S3584x1024 := Rect.unit (s := S3584x1024) ![0, 0] S3584x1024.size inb_S3584x1024_S3584x1024_0_0
abbrev r2B : Rect S1x3584 := Rect.unit (s := S1x3584) ![0, 0] S1x3584.size inb_S1x3584_S1x3584_0_0

/-- The result's staging buffer after the body, from what the three input buffers hold: the new hidden state
    against the 3584 rows of the weight's buffer, plus the bias's buffer. -/
def out2_3 (x0 : Vec F S1x1024 .f32) (x1 : Vec F S3584x1024 .f32) (x2 : Vec F S1x3584 .f32) : Vec F S1x3584 .f32 :=
  View.canon [⟨r2B, k2_pay1 (View.ld x0 r2Row) (View.ld x1 r2W) (View.ld x2 r2B)⟩]

/-- The proof data of the third launch on core c: the hidden state's buffer at its whole block; the weight's and the
    bias's at their blocks filled out with zeros; the result's at the body's payload of those. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wfull2 V c t
    | ⟨2, _⟩ => bfull2 V c t
    | ⟨3, _⟩ => out2_3 (iblk2 V c 0 t) (wfull2 V c t) (bfull2 V c t)
  Φ _ := Pipeline.ΦA spec2 c
  q _ := fullShare
  owed _ := 0

/-- The windows whose staging contents a frame need not name: the result's. -/
abbrev fgt2 : Fin cfg2.W → Bool := fun | ⟨3, _⟩ => true | _ => false

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wfull2 V c t := by dsimp only [dat2]
theorem after2_2 (c : Dev nD) (t : Fin cfg2.N) : (dat2 V c).after 2 t = bfull2 V c t := by dsimp only [dat2]
theorem after2_3 (c : Dev nD) (t : Fin cfg2.N) : (dat2 V c).after 3 t = out2_3 (iblk2 V c 0 t) (wfull2 V c t) (bfull2 V c t) := by
  dsimp only [dat2]

/-- Column q of the score row reads the weight only along its row q: the property of the matrix product the result's
    moved part rests on. It holds where the product is a sum; it is not stated of an instance whose product is an
    uninterpreted word of the whole right operand. -/
def ColLocal (F : FTy → Type) [FloatOps F] : Prop :=
  ∀ (x : FVec F S1x1024 .bf16) (w w' : FVec F S3584x1024 .bf16) (acc : FVec F S1x3584 .f32) (q : Fin 3584),
    (∀ k : Fin 1024, w (ValueIdx.ix2 q k) = w' (ValueIdx.ix2 q k)) →
      matmul dot_S1x1024_S3584x1024_S1x3584_1_1_0_0_n_n none x w acc (ValueIdx.ix2 0 q)
        = matmul dot_S1x1024_S3584x1024_S1x3584_1_1_0_0_n_n none x w' acc (ValueIdx.ix2 0 q)

end Cert.Kernel.Hand

end
-- ==== Proof.KFold.lean ====
/-
  The buffer contents at each boundary of the program, as a fold from the launch memory: a stretch of host operations
  applies them in order; a launch leaves its windows' arrays at what its write-backs leave (the inputs as entered, each
  result's blocks written in point order) and every other buffer as entered.
-/
import proofs.«408449_j11519102288461_3_alg».proof.Proof.KR0Defs
import proofs.«408449_j11519102288461_3_alg».proof.Proof.KR1Defs
import proofs.«408449_j11519102288461_3_alg».proof.Proof.KR2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the embedding lookup's operations. -/
abbrev W1 : Dev nD → Valuation τ sig (Elt F) := fun c => StableHlo.after hostOps0 (W0 m c)
/-- After the six reshapes: what the first launch is entered from. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- At the first launch's exit. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
/-- At the second launch's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the GRU's elementwise operations: what the third launch is entered from. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the third launch's exit, where its result can be named. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the log-softmax's operations. -/
abbrev W7 : Dev nD → Valuation τ sig (Elt F) := fun c => StableHlo.after hostOps3 (W6 m c)
/-- After the last reshape: the program's end. -/
abbrev W8 : Dev nD → Valuation τ sig (Elt F) := fun c => StableHlo.after hostOps3_1 (W7 m c)

end Cert.Kernel.Hand

end
-- ==== Proof.KR0Body.lean ====
/-
  The first launch's body meets its obligation: run on staging buffers holding the seven input blocks it leaves them
  as they were and the result's buffer at the stored row.
-/
import proofs.«408449_j11519102288461_3_alg».proof.Proof.KR0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks

Each of the seven inputs is an uncut window that is never idle, and the body leaves its block in place. So whatever the
buffer held before, at the point it holds what a fetch puts there, and for an uncut window that is the block itself.
The statement is about any proof data whose array is the entry contents and whose body keeps the block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl)
      (fun t => by rw [hafter]; unfold Dat.blockOf iblk0; rw [hA]; try rfl) t d).trans
    (by unfold Dat.fetched Dat.blockOf iblk0; rw [hA]; try rfl)

/-- The same at the first launch's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The one store covers the result's buffer -/

/-- The stored rectangle is the whole 1 × 1024 buffer, so every index lies in it. -/
theorem cover0_7 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

/-! ## The body's triple -/

set_option maxHeartbeats 1000000 in
/-- On whole staging buffers, the seven inputs' holding x0 … x6 and the result's holding anything, the body runs to
    its continuation with the inputs' buffers unchanged and the result's holding the stored row: the loads read the
    named rectangles of x0 … x6, the load of the result's buffer is not used, and the single store, covering the
    buffer, leaves exactly its payload there. -/
theorem sound_kernel0 (c : Dev nD) (E : Set ℕ) (i : grid0.Coords)
    (arg1 : Memref sig .tc .vmem S1x1024 .f32) (harg1 : arg1.IsWhole)
    (arg2 : Memref sig .tc .vmem S1x1024 .f32) (harg2 : arg2.IsWhole)
    (arg3 : Memref sig .tc .vmem S20x1024 .f32) (harg3 : arg3.IsWhole)
    (arg4 : Memref sig .tc .vmem S20x2048 .f32) (harg4 : arg4.IsWhole)
    (arg5 : Memref sig .tc .vmem S1x20 .f32) (harg5 : arg5.IsWhole)
    (arg6 : Memref sig .tc .vmem S1024x2048 .f32) (harg6 : arg6.IsWhole)
    (arg7 : Memref sig .tc .vmem S1x1024 .f32) (harg7 : arg7.IsWhole)
    (arg8 : Memref sig .tc .vmem S1x1024 .f32) (harg8 : arg8.IsWhole)
    (x0 x1 : Vec F S1x1024 .f32) (x2 : Vec F S20x1024 .f32) (x3 : Vec F S20x2048 .f32) (x4 : Vec F S1x20 .f32)
    (x5 : Vec F S1024x2048 .f32) (x6 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E
          (cc0__attn_combine_kernel i arg1 harg1 arg2 harg2 arg3 harg3 arg4 harg4 arg5 harg5 arg6 harg6 arg7 harg7 arg8 harg8) K := by
  simp only [cc0__attn_combine_kernel_eq_skeleton]; unfold cc0__attn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation at a point -/

/-- What the body is entered with at point t: the invariant, what the core owes, and each window's current buffer at
    its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at a point: the inputs' buffers hold their blocks, so the triple applies with x0 … x6 the blocks; the
    invariant and what the core owes are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Body.lean ====
/-
  The second launch's body meets its obligation at each of its three points.

  The body reads six staging buffers whole (the input row, the hidden state, a gate's block of each weight and of
  each bias) and overwrites two whole (the two results). So three things are shown. First, each input buffer holds
  its window's block at every point: where the pipeline fetched it there this is the fetch, and where it did not
  (the input row and the hidden state after the first point) the block index has not moved and the body left the
  buffer as it found it. Second, run on buffers with those contents, the body leaves each result buffer at the one
  piece it stores, whatever was there before (it loads each result buffer once before storing it and discards the
  value). Third, these two facts assemble into the obligation, the invariant passing through untouched.
-/
import proofs.«408449_j11519102288461_3_alg».proof.Proof.KR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its window's block -/
/-- The input row's buffer holds the row at every point. It is fetched at the first point only; later its block
    index is the same constant, and the body leaves the buffer as found, so it still holds the row. Stated for any
    proof data over the launch's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden state's buffer, likewise: fetched once, constant block index, left in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The buffer of w_ih's block of the gate: fetched at every point, so it holds the point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The buffer of w_hh's block of the gate, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The buffer of b_ih's block of the gate, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The buffer of b_hh's block of the gate, likewise. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The same of this launch's proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The stores cover the result buffers -/

/-- A result buffer is one row of 1024, and the body's one store to it is through the whole-row rectangle: the
    single piece tiles the buffer, hence covers every index. One statement serves both results. -/
theorem cover1Row (p0 : Vec F S1x1024 .f32) (y : S1x1024.Idx) :
    ∃ pc ∈ ([⟨r1Row, p0⟩] : List (View.Piece (Elt F) S1x1024 .f32)), y ∈ pc.1.set :=
  View.cover_of_tiled [⟨r1Row, p0⟩] S1x1024.size (by rfl) y

/-! ## The body's triple -/

set_option maxHeartbeats 1000000 in
/-- The body on whole buffers: the six inputs' at read contents x0 … x5, the two results' at anything. It runs to the
    continuation with the inputs' buffers as they were, the first result's at the one piece
    pay1(x0, x2, x4) and the second's at pay2(x1, x3, x5). The two loads of the result buffers read
    whatever is there; nothing depends on the values. After each store the buffer reads back as the
    piece stored, because the piece covers it. -/
theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (x0 : Vec F S1x1024 .f32) (x1 : Vec F S1x1024 .f32) (x2 : Vec F S1024x1024 .f32) (x3 : Vec F S1024x1024 .f32) (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x2 x4) ∗ owns (c : Thread nD τ) arg8 fullShare (out1_7 x1 x3 x5)) -∗ K ⟨⟩))
      ⊢ wp frame (wpE (defs₀ (F := F)) Variants.none c none) E (cc1__gru_gate_kernel i arg1 harg1 arg2 harg2 arg3 harg3 arg4 harg4 arg5 harg5 arg6 harg6 arg7 harg7 arg8 harg8) K := by
  simp only [cc1__gru_gate_kernel_eq_skeleton]; unfold cc1__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1Row _)
  iexists _; isplitr
  swap; · iexact H7
  ipureintro
  exact View.read_writes_eq_canon _ _ _ (cover1Row _)

/-! ## The obligation at a generic point -/

/-- What the body is entered with at point t: the invariant, what is owed, and each window's current buffer at what
    the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same invariant and debt, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. The input buffers hold their blocks, so the triple applies with x_w the block of window
    w; the invariant and the debt do not depend on the point and are handed through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation, at every point: the library's statement ranges over the eight windows as a product, which is
    written out and is then the statement above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2Body.lean ====
/-
  The third launch's body meets its obligation at each of its fifteen points, in two forms: with the result's
  staging contents left unnamed (at any instance), and with them named on their moved part where the matrix product
  reads the weight row by row.

  The body loads the three input buffers whole and stores the payload whole: the product of the hidden state with the
  3584 rows of the weight's buffer, plus the bias's buffer. At the last point only 81 rows of the weight's buffer and 81
  entries of the bias's are moved, and the rest hold words nothing names; column q of the payload reads row q of the one
  and entry q of the other, so on the result's 81 moved columns the payload is the same whatever fills the rest.
-/
import proofs.«408449_j11519102288461_3_alg».proof.Proof.KR2Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store tiles the result's buffer, so it covers it. -/
theorem cover2_3 (p0 : Vec F S1x3584 .f32) (y : S1x3584.Idx) :
    ∃ pc ∈ ([⟨r2B, p0⟩] : List (View.Piece (Elt F) S1x3584 .f32)), y ∈ pc.1.set :=
  View.cover_of_tiled [⟨r2B, p0⟩] S1x3584.size (by rfl) y

set_option maxHeartbeats 1000000 in
/-- The body on whole staging memrefs, the three inputs' at contents x0 x1 x2 and the result's at anything, runs to the
    continuation holding the inputs' as they were and the result's at out2_3 of them: three whole loads, a dead load of
    the result's buffer, and one whole store of the payload. -/
theorem sound_kernel2 (c : Dev nD) (E : Set ℕ) (i : grid2.Coords)
    (arg1 : Memref sig .tc .vmem S1x1024 .f32) (harg1 : arg1.IsWhole)
    (arg2 : Memref sig .tc .vmem S3584x1024 .f32) (harg2 : arg2.IsWhole)
    (arg3 : Memref sig .tc .vmem S1x3584 .f32) (harg3 : arg3.IsWhole)
    (arg4 : Memref sig .tc .vmem S1x3584 .f32) (harg4 : arg4.IsWhole)
    (x0 : Vec F S1x1024 .f32) (x1 : Vec F S3584x1024 .f32) (x2 : Vec F S1x3584 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (out2_3 x0 x1 x2)) -∗ K ⟨⟩))
      ⊢ wp frame (wpE (defs₀ (F := F)) Variants.none c none) E
          (cc2__vocab_kernel i arg1 harg1 arg2 harg2 arg3 harg3 arg4 harg4) K := by
  simp only [cc2__vocab_kernel_eq_skeleton]; unfold cc2__vocab_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Through the whole-buffer rectangles a load reads the contents and the one store leaves its payload: the result's
    buffer after the body is the payload of the three inputs' contents. -/
theorem out2_3_eq (x0 : Vec F S1x1024 .f32) (x1 : Vec F S3584x1024 .f32) (x2 : Vec F S1x3584 .f32) :
    out2_3 x0 x1 x2 = k2_pay1 x0 x1 x2 := by
  have hz : (![0, 0] : Fin 2 → Nat) = fun _ => 0 := funext fun a => by fin_cases a <;> rfl
  unfold out2_3
  rw [View.canon_unit_zero hz]
  simp only [View.ld_unit_zero (S := S1x1024) hz, View.ld_unit_zero (S := S3584x1024) hz, View.ld_unit_zero (S := S1x3584) hz]

/-- The payload at column q: the product's entry there plus the bias's. It reads the weight's buffer only along row q
    (where the product does) and the bias's only at q. -/
theorem k2_pay1_congr (hloc : ColLocal F) (x0 : Vec F S1x1024 .f32) (W W' : Vec F S3584x1024 .f32) (B B' : Vec F S1x3584 .f32)
    (q : Fin 3584) (hW : ∀ k : Fin 1024, W (ValueIdx.ix2 q k) = W' (ValueIdx.ix2 q k))
    (hB : B (ValueIdx.ix2 0 q) = B' (ValueIdx.ix2 0 q)) :
    k2_pay1 x0 W B (ValueIdx.ix2 0 q) = k2_pay1 x0 W' B' (ValueIdx.ix2 0 q) := by
  unfold k2_pay1
  simp only [shapeCast_self]
  unfold addf
  show FloatOps.addf _ (B (ValueIdx.ix2 0 q)) = FloatOps.addf _ (B' (ValueIdx.ix2 0 q))
  rw [hB]
  refine congrArg (FloatOps.addf · (B' (ValueIdx.ix2 0 q))) ?_
  exact hloc _ _ _ _ q fun k => congrArg (FloatOps.truncf .bf16 bitsLt_bf16_f32) (hW k)

/-- The cuts of the three clipped windows agree over the grid: the weight's block is cut in its rows exactly as the
    bias's and the result's are in their columns, and nothing else is cut. -/
theorem xsize_facts2 : ∀ t : Fin cfg2.N,
    win2_1.xsize (grid2.coords t) 0 = win2_3.xsize (grid2.coords t) 1 ∧ win2_1.xsize (grid2.coords t) 1 = 1024
      ∧ win2_2.xsize (grid2.coords t) 0 = win2_3.xsize (grid2.coords t) 0
      ∧ win2_2.xsize (grid2.coords t) 1 = win2_3.xsize (grid2.coords t) 1 :=
  (by decide +kernel : ∀ t : Fin grid2.N,
    win2_1.xsize (grid2.coords t) 0 = win2_3.xsize (grid2.coords t) 1 ∧ win2_1.xsize (grid2.coords t) 1 = 1024
      ∧ win2_2.xsize (grid2.coords t) 0 = win2_3.xsize (grid2.coords t) 0
      ∧ win2_2.xsize (grid2.coords t) 1 = win2_3.xsize (grid2.coords t) 1)

/-- The hidden state's buffer holds its whole block at every point, fetched there (the first) or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight's and the bias's buffers are fetched at every point: each holds its block on the part moved and d
    elsewhere. -/
theorem before2_1 (c : Dev nD) (t : Fin cfg2.N) (d) :
    (dat2 V c).before 1 t d = win2_1.fill (grid2.coords t) d (iblk2 V c 1 t) := by
  unfold Dat.before; rw [if_pos (fetch2_1 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl

/-- At an index the transfer moves, the filled buffer holds the block, whatever fills the rest. -/
theorem fill_eq_of_moved {α : Type} {G : Pipeline.Grid} (w : Window sig G) (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- The moved part of the result does not see what fills the weight's and the bias's buffers past their moved parts:
    a moved column q of the result reads row q of the weight's buffer, which is moved because the weight's rows are cut
    as the result's columns are, and entry q of the bias's, moved likewise. -/
theorem cut_out2_3_congr (hloc : ColLocal F) (t : Fin cfg2.N) (x0 : Vec F S1x1024 .f32)
    (d1 d1' : S3584x1024.Idx → Elt F .f32) (g1 : (win2_1.xblock (grid2.coords t)).Idx → Elt F .f32)
    (d2 d2' : S1x3584.Idx → Elt F .f32) (g2 : (win2_2.xblock (grid2.coords t)).Idx → Elt F .f32) :
    win2_3.cut (grid2.coords t) (out2_3 x0 (win2_1.fill (grid2.coords t) d1 g1) (win2_2.fill (grid2.coords t) d2 g2))
      = win2_3.cut (grid2.coords t) (out2_3 x0 (win2_1.fill (grid2.coords t) d1' g1) (win2_2.fill (grid2.coords t) d2' g2)) := by
  funext j
  obtain ⟨h10, h11, h20, h21⟩ := xsize_facts2 t
  show out2_3 x0 _ _ (win2_3.xinj (grid2.coords t) j) = out2_3 x0 _ _ (win2_3.xinj (grid2.coords t) j)
  rw [out2_3_eq, out2_3_eq]
  have hq : (j 1).val < 3584 := Nat.lt_of_lt_of_le (j 1).isLt (win2_3.xsize_le _ 1)
  have e : win2_3.xinj (grid2.coords t) j = ValueIdx.ix2 (0 : Fin 1) (⟨(j 1).val, hq⟩ : Fin 3584) := by
    funext a
    match a with
    | ⟨0, _⟩ => exact Fin.ext (Nat.lt_one_iff.mp (win2_3.xinj (grid2.coords t) j 0).isLt)
    | ⟨1, _⟩ => rfl
  rw [e]
  refine k2_pay1_congr hloc x0 _ _ _ _ _ (fun k => ?_) ?_
  · refine fill_eq_of_moved win2_1 _ _ _ _ ((win2_1.moved_iff _ _).mpr fun a => ?_)
    match a with
    | ⟨0, _⟩ => show (j 1).val < win2_1.xsize (grid2.coords t) 0; rw [h10]; exact (j 1).isLt
    | ⟨1, _⟩ => show k.val < win2_1.xsize (grid2.coords t) 1; rw [h11]; exact k.isLt
  · refine fill_eq_of_moved win2_2 _ _ _ _ ((win2_2.moved_iff _ _).mpr fun a => ?_)
    match a with
    | ⟨0, _⟩ => show 0 < win2_2.xsize (grid2.coords t) 0; rw [h20]; exact Nat.lt_of_le_of_lt (Nat.zero_le _) (j 0).isLt
    | ⟨1, _⟩ => show (j 1).val < win2_2.xsize (grid2.coords t) 1; rw [h21]; exact (j 1).isLt

/-- The windows the frame forgets: the result's only. -/
theorem fgt2_0 : fgt2 (0 : Fin cfg2.W) = false := rfl
theorem fgt2_1 : fgt2 (1 : Fin cfg2.W) = false := rfl
theorem fgt2_2 : fgt2 (2 : Fin cfg2.W) = false := rfl
theorem fgt2_3 : fgt2 (3 : Fin cfg2.W) = true := rfl

/-- The obligation with the result window's contents not named. -/
theorem body_obligation2F (c : Dev nD) :
    BodyObligationLoose (dat2 (F := F) V c) (defs₀ (F := F)) Variants.none () Set.univ fgt2 := fun t => by
  rw [bigSep_W2, bigSep_W2]
  simp only [fgt2_0, fgt2_1, fgt2_2, fgt2_3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%X3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · rw [after2_0]; iexact H0
  isplitl [H1]
  · iexists d1
    rw [after2_1]
    change _ ⊢ owns (c : Thread nD τ) (win2_1.stage (cfg2.slots t 1)) fullShare (win2_1.fill (grid2.coords t) d1
      (win2_1.cut (grid2.coords t) (win2_1.fill (grid2.coords t) (fun _ => Scalar.ofBits .f32 0#32) (iblk2 V c 1 t))))
    rewrite [win2_1.cut_fill]; exact .rfl
  isplitl [H2]
  · iexists d2
    rw [after2_2]
    change _ ⊢ owns (c : Thread nD τ) (win2_2.stage (cfg2.slots t 2)) fullShare (win2_2.fill (grid2.coords t) d2
      (win2_2.cut (grid2.coords t) (win2_2.fill (grid2.coords t) (fun _ => Scalar.ofBits .f32 0#32) (iblk2 V c 2 t))))
    rewrite [win2_2.cut_fill]; exact .rfl
  iexists _; iexact H3

/-- The obligation with every window named, where a score column reads only its own row of the weight: the result's
    buffer is handed back as what the body wrote, which on its moved part is the payload of the zero-filled buffers. -/
theorem body_obligation2 (hloc : ColLocal F) (c : Dev nD) :
    BodyObligationLoose (dat2 (F := F) V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after2_0]; iexact H0
  isplitl [H1]
  · iexists d1
    rw [after2_1]
    change _ ⊢ owns (c : Thread nD τ) (win2_1.stage (cfg2.slots t 1)) fullShare (win2_1.fill (grid2.coords t) d1
      (win2_1.cut (grid2.coords t) (win2_1.fill (grid2.coords t) (fun _ => Scalar.ofBits .f32 0#32) (iblk2 V c 1 t))))
    rewrite [win2_1.cut_fill]; exact .rfl
  isplitl [H2]
  · iexists d2
    rw [after2_2]
    change _ ⊢ owns (c : Thread nD τ) (win2_2.stage (cfg2.slots t 2)) fullShare (win2_2.fill (grid2.coords t) d2
      (win2_2.cut (grid2.coords t) (win2_2.fill (grid2.coords t) (fun _ => Scalar.ofBits .f32 0#32) (iblk2 V c 2 t))))
    rewrite [win2_2.cut_fill]; exact .rfl
  iexists out2_3 (iblk2 V c 0 t) (win2_1.fill (grid2.coords t) d1 (iblk2 V c 1 t)) (win2_2.fill (grid2.coords t) d2 (iblk2 V c 2 t))
  rw [after2_3]
  have hcut := cut_out2_3_congr hloc t (iblk2 V c 0 t) d1 (fun _ => Scalar.ofBits .f32 0#32) (iblk2 V c 1 t)
    d2 (fun _ => Scalar.ofBits .f32 0#32) (iblk2 V c 2 t)
  change _ ⊢ owns (c : Thread nD τ) (win2_3.stage (cfg2.slots t 3)) fullShare (win2_3.fill (grid2.coords t)
    (out2_3 (iblk2 V c 0 t) (win2_1.fill (grid2.coords t) d1 (iblk2 V c 1 t)) (win2_2.fill (grid2.coords t) d2 (iblk2 V c 2 t)))
    (win2_3.cut (grid2.coords t) (out2_3 (iblk2 V c 0 t)
      (win2_1.fill (grid2.coords t) (fun _ => Scalar.ofBits .f32 0#32) (iblk2 V c 1 t))
      (win2_2.fill (grid2.coords t) (fun _ => Scalar.ofBits .f32 0#32) (iblk2 V c 2 t)))))
  exact Entails.of_eq (congrArg (owns (c : Thread nD τ) (win2_3.stage (cfg2.slots t 3)) fullShare)
    (win2_3.fill_congr_cut (grid2.coords t) hcut).symm)

end Cert.Kernel.Hand

end
-- ==== Proof.R0Defs.lean ====
/-
  The first launch (attention and combine, one grid point): its proof data at a parameter V, the buffer contents
  the launch is entered from. Every operand is one whole block; the body reads seven of them and stores the GRU's
  input row, so after the body the result's staging buffer holds the body's one payload of the seven blocks
  (the two 2048-wide weights read as their left and right halves).
-/
import proofs.«408449_j11519102288461_3_alg».proof.Proof.Gen.KernelIdeal.Launch
import proofs.«408449_j11519102288461_3_alg».proof.Proof.Gen.KernelIdeal.Skeleton
import proofs.«408449_j11519102288461_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes through: whole 1 × 1024, 20 × 1024 and 1 × 20 buffers, and the left and
    right halves of the 20 × 2048 and 1024 × 2048 weights. -/
abbrev rRow : Rect S1x1024 := Rect.unit (s := S1x1024) ![0, 0] S1x1024.size inb_S1x1024_S1x1024_0_0
abbrev rEnc : Rect S20x1024 := Rect.unit (s := S20x1024) ![0, 0] S20x1024.size inb_S20x1024_S20x1024_0_0
abbrev rAttnL : Rect S20x2048 := Rect.unit (s := S20x2048) ![0, 0] S20x1024.size inb_S20x2048_S20x1024_0_0
abbrev rAttnR : Rect S20x2048 := Rect.unit (s := S20x2048) ![0, 1024] S20x1024.size inb_S20x2048_S20x1024_0_1024
abbrev rBias : Rect S1x20 := Rect.unit (s := S1x20) ![0, 0] S1x20.size inb_S1x20_S1x20_0_0
abbrev rCombL : Rect S1024x2048 := Rect.unit (s := S1024x2048) ![0, 0] S1024x1024.size inb_S1024x2048_S1024x1024_0_0
abbrev rCombR : Rect S1024x2048 := Rect.unit (s := S1024x2048) ![0, 1024] S1024x1024.size inb_S1024x2048_S1024x1024_0_1024

/-- The GRU input row the body stores, as its payload of the seven input blocks: x0 the embedding, x1 the hidden
    state, x2 the encoder outputs, x3 the attention weight, x4 its bias, x5 the combining weight, x6 its bias. -/
def pay0 (x0 x1 : Vec F S1x1024 .f32) (x2 : Vec F S20x1024 .f32) (x3 : Vec F S20x2048 .f32) (x4 : Vec F S1x20 .f32)
    (x5 : Vec F S1024x2048 .f32) (x6 : Vec F S1x1024 .f32) : Vec F S1x1024 .f32 :=
  k0_pay1 (k0_pay2 (View.ld x0 rRow))
    (k0_pay3 (View.ld x0 rRow) (View.ld x1 rRow) (View.ld x3 rAttnL) (View.ld x3 rAttnR) (View.ld x4 rBias) (View.ld x2 rEnc))
    (k0_pay4 (View.ld x5 rCombL)) (k0_pay5 (View.ld x5 rCombR)) (constant S1x1024 .f32 0x00000000#32) (View.ld x6 rRow)

/-- The result's staging buffer after the body: its one whole-buffer store. -/
def out0_7 (x0 x1 : Vec F S1x1024 .f32) (x2 : Vec F S20x1024 .f32) (x3 : Vec F S20x2048 .f32) (x4 : Vec F S1x20 .f32)
    (x5 : Vec F S1024x2048 .f32) (x6 : Vec F S1x1024 .f32) : Vec F S1x1024 .f32 :=
  View.canon [⟨rRow, pay0 x0 x1 x2 x3 x4 x5 x6⟩]

/-- The proof data of the first launch on core c: the arrays as the launch finds them; after the body each input's
    buffer at its block and the result's at the stored row; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

end Cert.KernelIdeal.Hand

end
-- ==== Proof.R1Defs.lean ====
/-
  The second launch (the GRU's gate pre-activations, one grid point per gate): its proof data at a parameter V, the
  buffer contents the launch is entered from. The GRU input row and the hidden state are whole blocks fetched once;
  at gate g the body reads rows 1024·g … 1024·g + 1023 of the two weights and columns 1024·g … of the two biases
  and stores the two results' columns 1024·g …: two payloads, one per result.
-/
import proofs.«408449_j11519102288461_3_alg».proof.Proof.Gen.KernelIdeal.Launch
import proofs.«408449_j11519102288461_3_alg».proof.Proof.Gen.KernelIdeal.Skeleton
import proofs.«408449_j11519102288461_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes through: a whole 1 × 1024 buffer and a whole 1024 × 1024 buffer. -/
abbrev r1Row : Rect S1x1024 := Rect.unit (s := S1x1024) ![0, 0] S1x1024.size inb_S1x1024_S1x1024_0_0
abbrev r1Sq : Rect S1024x1024 := Rect.unit (s := S1024x1024) ![0, 0] S1024x1024.size inb_S1024x1024_S1024x1024_0_0

/-- The first result's staging buffer after the body: the input row against the gate's block of w_ih, plus the
    gate's block of b_ih. -/
def out1_6 (x0 : Vec F S1x1024 .f32) (x2 : Vec F S1024x1024 .f32) (x4 : Vec F S1x1024 .f32) : Vec F S1x1024 .f32 :=
  View.canon [⟨r1Row, k1_pay1 (View.ld x0 r1Row) (View.ld x2 r1Sq) (View.ld x4 r1Row)⟩]

/-- The second result's: the hidden state against the gate's block of w_hh, plus the gate's block of b_hh. -/
def out1_7 (x1 : Vec F S1x1024 .f32) (x3 : Vec F S1024x1024 .f32) (x5 : Vec F S1x1024 .f32) : Vec F S1x1024 .f32 :=
  View.canon [⟨r1Row, k1_pay2 (View.ld x1 r1Row) (View.ld x3 r1Sq) (View.ld x5 r1Row)⟩]

/-- The proof data of the second launch on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 4 t) := by
  dsimp only [dat1]
theorem after1_7 (c : Dev nD) (t : Fin cfg1.N) : (dat1 V c).after 7 t = out1_7 (iblk1 V c 1 t) (iblk1 V c 3 t) (iblk1 V c 5 t) := by
  dsimp only [dat1]

end Cert.KernelIdeal.Hand

end
-- ==== Proof.R2Defs.lean ====
/-
  The third launch (the vocabulary scores, fifteen grid points of 3584 words): its proof data at a parameter V, the
  buffer contents the launch is entered from. 15 · 3584 = 53760 exceeds the vocabulary's 50257 words, so at the last
  point the blocks of the weight, of the bias and of the result hang over their arrays' ends: only their first 81
  rows (columns) are moved, and the rest of each staging buffer holds words nothing names. The proof data state
  each such buffer on its moved part and fill the rest with zeros; a result column depends only on its own row of
  the weight and its own bias entry, so the moved part of the result does not see the fill.
-/
import proofs.«408449_j11519102288461_3_alg».proof.Proof.Gen.KernelIdeal.Launch
import proofs.«408449_j11519102288461_3_alg».proof.Proof.Gen.KernelIdeal.Skeleton
import proofs.«408449_j11519102288461_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, the part of it inside the array, read off the array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight's block at point t filled out to the staging buffer's 3584 rows with zeros. -/
def wfull2 (c : Dev nD) (t : Fin cfg2.N) : S3584x1024.Idx → Elt F .f32 :=
  win2_1.fill (grid2.coords t) (fun _ => Scalar.ofBits .f32 0#32) (iblk2 V c 1 t)
/-- The bias's block at point t filled out to 3584 columns with zeros. -/
def bfull2 (c : Dev nD) (t : Fin cfg2.N) : S1x3584.Idx → Elt F .f32 :=
  win2_2.fill (grid2.coords t) (fun _ => Scalar.ofBits .f32 0#32) (iblk2 V c 2 t)

/-- The rectangles the body reads and writes through: the three whole staging buffers. -/
abbrev r2Row : Rect S1x1024 := Rect.unit (s := S1x1024) ![0, 0] S1x1024.size inb_S1x1024_S1x1024_0_0
abbrev r2W : Rect S3584x1024 := Rect.unit (s := S3584x1024) ![0, 0] S3584x1024.size inb_S3584x1024_S3584x1024_0_0
abbrev r2B : Rect S1x3584 := Rect.unit (s := S1x3584) ![0, 0] S1x3584.size inb_S1x3584_S1x3584_0_0

/-- The result's staging buffer after the body, from what the three input buffers hold: the new hidden state
    against the 3584 rows of the weight's buffer, plus the bias's buffer. -/
def out2_3 (x0 : Vec F S1x1024 .f32) (x1 : Vec F S3584x1024 .f32) (x2 : Vec F S1x3584 .f32) : Vec F S1x3584 .f32 :=
  View.canon [⟨r2B, k2_pay1 (View.ld x0 r2Row) (View.ld x1 r2W) (View.ld x2 r2B)⟩]

/-- The proof data of the third launch on core c: the hidden state's buffer at its whole block; the weight's and the
    bias's at their blocks filled out with zeros; the result's at the body's payload of those. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wfull2 V c t
    | ⟨2, _⟩ => bfull2 V c t
    | ⟨3, _⟩ => out2_3 (iblk2 V c 0 t) (wfull2 V c t) (bfull2 V c t)
  Φ _ := Pipeline.ΦA spec2 c
  q _ := fullShare
  owed _ := 0

/-- The windows whose staging contents a frame need not name: the result's. -/
abbrev fgt2 : Fin cfg2.W → Bool := fun | ⟨3, _⟩ => true | _ => false

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wfull2 V c t := by dsimp only [dat2]
theorem after2_2 (c : Dev nD) (t : Fin cfg2.N) : (dat2 V c).after 2 t = bfull2 V c t := by dsimp only [dat2]
theorem after2_3 (c : Dev nD) (t : Fin cfg2.N) : (dat2 V c).after 3 t = out2_3 (iblk2 V c 0 t) (wfull2 V c t) (bfull2 V c t) := by
  dsimp only [dat2]

/-- Column q of the score row reads the weight only along its row q: the property of the matrix product the result's
    moved part rests on. It holds where the product is a sum; it is not stated of an instance whose product is an
    uninterpreted word of the whole right operand. -/
def ColLocal (F : FTy → Type) [FloatOps F] : Prop :=
  ∀ (x : FVec F S1x1024 .bf16) (w w' : FVec F S3584x1024 .bf16) (acc : FVec F S1x3584 .f32) (q : Fin 3584),
    (∀ k : Fin 1024, w (ValueIdx.ix2 q k) = w' (ValueIdx.ix2 q k)) →
      matmul dot_S1x1024_S3584x1024_S1x3584_1_1_0_0_n_n none x w acc (ValueIdx.ix2 0 q)
        = matmul dot_S1x1024_S3584x1024_S1x3584_1_1_0_0_n_n none x w' acc (ValueIdx.ix2 0 q)

end Cert.KernelIdeal.Hand

end
-- ==== Proof.Fold.lean ====
/-
  The buffer contents at each boundary of the program, as a fold from the launch memory: a stretch of host operations
  applies them in order; a launch leaves its windows' arrays at what its write-backs leave (the inputs as entered, each
  result's blocks written in point order) and every other buffer as entered.
-/
import proofs.«408449_j11519102288461_3_alg».proof.Proof.R0Defs
import proofs.«408449_j11519102288461_3_alg».proof.Proof.R1Defs
import proofs.«408449_j11519102288461_3_alg».proof.Proof.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the embedding lookup's operations. -/
abbrev W1 : Dev nD → Valuation τ sig (Elt F) := fun c => StableHlo.after hostOps0 (W0 m c)
/-- After the six reshapes: what the first launch is entered from. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
/-- At the first launch's exit. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
/-- At the second launch's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the GRU's elementwise operations: what the third launch is entered from. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the third launch's exit, where its result can be named. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the log-softmax's operations. -/
abbrev W7 : Dev nD → Valuation τ sig (Elt F) := fun c => StableHlo.after hostOps3 (W6 m c)
/-- After the last reshape: the program's end. -/
abbrev W8 : Dev nD → Valuation τ sig (Elt F) := fun c => StableHlo.after hostOps3_1 (W7 m c)

end Cert.KernelIdeal.Hand

end
-- ==== Proof.R0Body.lean ====
/-
  The first launch's body meets its obligation: run on staging buffers holding the seven input blocks it leaves them
  as they were and the result's buffer at the stored row.
-/
import proofs.«408449_j11519102288461_3_alg».proof.Proof.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks

Each of the seven inputs is an uncut window that is never idle, and the body leaves its block in place. So whatever the
buffer held before, at the point it holds what a fetch puts there, and for an uncut window that is the block itself.
The statement is about any proof data whose array is the entry contents and whose body keeps the block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl)
      (fun t => by rw [hafter]; unfold Dat.blockOf iblk0; rw [hA]; try rfl) t d).trans
    (by unfold Dat.fetched Dat.blockOf iblk0; rw [hA]; try rfl)

/-- The same at the first launch's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The one store covers the result's buffer -/

/-- The stored rectangle is the whole 1 × 1024 buffer, so every index lies in it. -/
theorem cover0_7 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

/-! ## The body's triple -/

set_option maxHeartbeats 1000000 in
/-- On whole staging buffers, the seven inputs' holding x0 … x6 and the result's holding anything, the body runs to
    its continuation with the inputs' buffers unchanged and the result's holding the stored row: the loads read the
    named rectangles of x0 … x6, the load of the result's buffer is not used, and the single store, covering the
    buffer, leaves exactly its payload there. -/
theorem sound_kernel0 (c : Dev nD) (E : Set ℕ) (i : grid0.Coords)
    (arg1 : Memref sig .tc .vmem S1x1024 .f32) (harg1 : arg1.IsWhole)
    (arg2 : Memref sig .tc .vmem S1x1024 .f32) (harg2 : arg2.IsWhole)
    (arg3 : Memref sig .tc .vmem S20x1024 .f32) (harg3 : arg3.IsWhole)
    (arg4 : Memref sig .tc .vmem S20x2048 .f32) (harg4 : arg4.IsWhole)
    (arg5 : Memref sig .tc .vmem S1x20 .f32) (harg5 : arg5.IsWhole)
    (arg6 : Memref sig .tc .vmem S1024x2048 .f32) (harg6 : arg6.IsWhole)
    (arg7 : Memref sig .tc .vmem S1x1024 .f32) (harg7 : arg7.IsWhole)
    (arg8 : Memref sig .tc .vmem S1x1024 .f32) (harg8 : arg8.IsWhole)
    (x0 x1 : Vec F S1x1024 .f32) (x2 : Vec F S20x1024 .f32) (x3 : Vec F S20x2048 .f32) (x4 : Vec F S1x20 .f32)
    (x5 : Vec F S1024x2048 .f32) (x6 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E
          (cc0__attn_combine_kernel i arg1 harg1 arg2 harg2 arg3 harg3 arg4 harg4 arg5 harg5 arg6 harg6 arg7 harg7 arg8 harg8) K := by
  simp only [cc0__attn_combine_kernel_eq_skeleton]; unfold cc0__attn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation at a point -/

/-- What the body is entered with at point t: the invariant, what the core owes, and each window's current buffer at
    its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same, each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at a point: the inputs' buffers hold their blocks, so the triple applies with x0 … x6 the blocks; the
    invariant and what the core owes are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Body.lean ====
/-
  The second launch's body meets its obligation at each of its three points.

  The body reads six staging buffers whole (the input row, the hidden state, a gate's block of each weight and of
  each bias) and overwrites two whole (the two results). So three things are shown. First, each input buffer holds
  its window's block at every point: where the pipeline fetched it there this is the fetch, and where it did not
  (the input row and the hidden state after the first point) the block index has not moved and the body left the
  buffer as it found it. Second, run on buffers with those contents, the body leaves each result buffer at the one
  piece it stores, whatever was there before (it loads each result buffer once before storing it and discards the
  value). Third, these two facts assemble into the obligation, the invariant passing through untouched.
-/
import proofs.«408449_j11519102288461_3_alg».proof.Proof.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its window's block -/
/-- The input row's buffer holds the row at every point. It is fetched at the first point only; later its block
    index is the same constant, and the body leaves the buffer as found, so it still holds the row. Stated for any
    proof data over the launch's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden state's buffer, likewise: fetched once, constant block index, left in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The buffer of w_ih's block of the gate: fetched at every point, so it holds the point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The buffer of w_hh's block of the gate, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The buffer of b_ih's block of the gate, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The buffer of b_hh's block of the gate, likewise. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The same of this launch's proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The stores cover the result buffers -/

/-- A result buffer is one row of 1024, and the body's one store to it is through the whole-row rectangle: the
    single piece tiles the buffer, hence covers every index. One statement serves both results. -/
theorem cover1Row (p0 : Vec F S1x1024 .f32) (y : S1x1024.Idx) :
    ∃ pc ∈ ([⟨r1Row, p0⟩] : List (View.Piece (Elt F) S1x1024 .f32)), y ∈ pc.1.set :=
  View.cover_of_tiled [⟨r1Row, p0⟩] S1x1024.size (by rfl) y

/-! ## The body's triple -/

set_option maxHeartbeats 1000000 in
/-- The body on whole buffers: the six inputs' at read contents x0 … x5, the two results' at anything. It runs to the
    continuation with the inputs' buffers as they were, the first result's at the one piece
    pay1(x0, x2, x4) and the second's at pay2(x1, x3, x5). The two loads of the result buffers read
    whatever is there; nothing depends on the values. After each store the buffer reads back as the
    piece stored, because the piece covers it. -/
theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole)
    (x0 : Vec F S1x1024 .f32) (x1 : Vec F S1x1024 .f32) (x2 : Vec F S1024x1024 .f32) (x3 : Vec F S1024x1024 .f32) (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x2 x4) ∗ owns (c : Thread nD τ) arg8 fullShare (out1_7 x1 x3 x5)) -∗ K ⟨⟩))
      ⊢ wp frame (wpE (defs₀ (F := F)) Variants.none c none) E (cc1__gru_gate_kernel i arg1 harg1 arg2 harg2 arg3 harg3 arg4 harg4 arg5 harg5 arg6 harg6 arg7 harg7 arg8 harg8) K := by
  simp only [cc1__gru_gate_kernel_eq_skeleton]; unfold cc1__gru_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1Row _)
  iexists _; isplitr
  swap; · iexact H7
  ipureintro
  exact View.read_writes_eq_canon _ _ _ (cover1Row _)

/-! ## The obligation at a generic point -/

/-- What the body is entered with at point t: the invariant, what is owed, and each window's current buffer at what
    the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same invariant and debt, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. The input buffers hold their blocks, so the triple applies with x_w the block of window
    w; the invariant and the debt do not depend on the point and are handed through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation, at every point: the library's statement ranges over the eight windows as a product, which is
    written out and is then the statement above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2Body.lean ====
/-
  The third launch's body meets its obligation at each of its fifteen points, in two forms: with the result's
  staging contents left unnamed (at any instance), and with them named on their moved part where the matrix product
  reads the weight row by row.

  The body loads the three input buffers whole and stores the payload whole: the product of the hidden state with the
  3584 rows of the weight's buffer, plus the bias's buffer. At the last point only 81 rows of the weight's buffer and 81
  entries of the bias's are moved, and the rest hold words nothing names; column q of the payload reads row q of the one
  and entry q of the other, so on the result's 81 moved columns the payload is the same whatever fills the rest.
-/
import proofs.«408449_j11519102288461_3_alg».proof.Proof.R2Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store tiles the result's buffer, so it covers it. -/
theorem cover2_3 (p0 : Vec F S1x3584 .f32) (y : S1x3584.Idx) :
    ∃ pc ∈ ([⟨r2B, p0⟩] : List (View.Piece (Elt F) S1x3584 .f32)), y ∈ pc.1.set :=
  View.cover_of_tiled [⟨r2B, p0⟩] S1x3584.size (by rfl) y

set_option maxHeartbeats 1000000 in
/-- The body on whole staging memrefs, the three inputs' at contents x0 x1 x2 and the result's at anything, runs to the
    continuation holding the inputs' as they were and the result's at out2_3 of them: three whole loads, a dead load of
    the result's buffer, and one whole store of the payload. -/
theorem sound_kernel2 (c : Dev nD) (E : Set ℕ) (i : grid2.Coords)
    (arg1 : Memref sig .tc .vmem S1x1024 .f32) (harg1 : arg1.IsWhole)
    (arg2 : Memref sig .tc .vmem S3584x1024 .f32) (harg2 : arg2.IsWhole)
    (arg3 : Memref sig .tc .vmem S1x3584 .f32) (harg3 : arg3.IsWhole)
    (arg4 : Memref sig .tc .vmem S1x3584 .f32) (harg4 : arg4.IsWhole)
    (x0 : Vec F S1x1024 .f32) (x1 : Vec F S3584x1024 .f32) (x2 : Vec F S1x3584 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (out2_3 x0 x1 x2)) -∗ K ⟨⟩))
      ⊢ wp frame (wpE (defs₀ (F := F)) Variants.none c none) E
          (cc2__vocab_kernel i arg1 harg1 arg2 harg2 arg3 harg3 arg4 harg4) K := by
  simp only [cc2__vocab_kernel_eq_skeleton]; unfold cc2__vocab_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Through the whole-buffer rectangles a load reads the contents and the one store leaves its payload: the result's
    buffer after the body is the payload of the three inputs' contents. -/
theorem out2_3_eq (x0 : Vec F S1x1024 .f32) (x1 : Vec F S3584x1024 .f32) (x2 : Vec F S1x3584 .f32) :
    out2_3 x0 x1 x2 = k2_pay1 x0 x1 x2 := by
  have hz : (![0, 0] : Fin 2 → Nat) = fun _ => 0 := funext fun a => by fin_cases a <;> rfl
  unfold out2_3
  rw [View.canon_unit_zero hz]
  simp only [View.ld_unit_zero (S := S1x1024) hz, View.ld_unit_zero (S := S3584x1024) hz, View.ld_unit_zero (S := S1x3584) hz]

/-- The payload at column q: the product's entry there plus the bias's. It reads the weight's buffer only along row q
    (where the product does) and the bias's only at q. -/
theorem k2_pay1_congr (hloc : ColLocal F) (x0 : Vec F S1x1024 .f32) (W W' : Vec F S3584x1024 .f32) (B B' : Vec F S1x3584 .f32)
    (q : Fin 3584) (hW : ∀ k : Fin 1024, W (ValueIdx.ix2 q k) = W' (ValueIdx.ix2 q k))
    (hB : B (ValueIdx.ix2 0 q) = B' (ValueIdx.ix2 0 q)) :
    k2_pay1 x0 W B (ValueIdx.ix2 0 q) = k2_pay1 x0 W' B' (ValueIdx.ix2 0 q) := by
  unfold k2_pay1
  simp only [shapeCast_self]
  unfold addf
  show FloatOps.addf _ (B (ValueIdx.ix2 0 q)) = FloatOps.addf _ (B' (ValueIdx.ix2 0 q))
  rw [hB]
  refine congrArg (FloatOps.addf · (B' (ValueIdx.ix2 0 q))) ?_
  exact hloc _ _ _ _ q fun k => congrArg (FloatOps.truncf .bf16 bitsLt_bf16_f32) (hW k)

/-- The cuts of the three clipped windows agree over the grid: the weight's block is cut in its rows exactly as the
    bias's and the result's are in their columns, and nothing else is cut. -/
theorem xsize_facts2 : ∀ t : Fin cfg2.N,
    win2_1.xsize (grid2.coords t) 0 = win2_3.xsize (grid2.coords t) 1 ∧ win2_1.xsize (grid2.coords t) 1 = 1024
      ∧ win2_2.xsize (grid2.coords t) 0 = win2_3.xsize (grid2.coords t) 0
      ∧ win2_2.xsize (grid2.coords t) 1 = win2_3.xsize (grid2.coords t) 1 :=
  (by decide +kernel : ∀ t : Fin grid2.N,
    win2_1.xsize (grid2.coords t) 0 = win2_3.xsize (grid2.coords t) 1 ∧ win2_1.xsize (grid2.coords t) 1 = 1024
      ∧ win2_2.xsize (grid2.coords t) 0 = win2_3.xsize (grid2.coords t) 0
      ∧ win2_2.xsize (grid2.coords t) 1 = win2_3.xsize (grid2.coords t) 1)

/-- The hidden state's buffer holds its whole block at every point, fetched there (the first) or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight's and the bias's buffers are fetched at every point: each holds its block on the part moved and d
    elsewhere. -/
theorem before2_1 (c : Dev nD) (t : Fin cfg2.N) (d) :
    (dat2 V c).before 1 t d = win2_1.fill (grid2.coords t) d (iblk2 V c 1 t) := by
  unfold Dat.before; rw [if_pos (fetch2_1 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl

/-- At an index the transfer moves, the filled buffer holds the block, whatever fills the rest. -/
theorem fill_eq_of_moved {α : Type} {G : Pipeline.Grid} (w : Window sig G) (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- The moved part of the result does not see what fills the weight's and the bias's buffers past their moved parts:
    a moved column q of the result reads row q of the weight's buffer, which is moved because the weight's rows are cut
    as the result's columns are, and entry q of the bias's, moved likewise. -/
theorem cut_out2_3_congr (hloc : ColLocal F) (t : Fin cfg2.N) (x0 : Vec F S1x1024 .f32)
    (d1 d1' : S3584x1024.Idx → Elt F .f32) (g1 : (win2_1.xblock (grid2.coords t)).Idx → Elt F .f32)
    (d2 d2' : S1x3584.Idx → Elt F .f32) (g2 : (win2_2.xblock (grid2.coords t)).Idx → Elt F .f32) :
    win2_3.cut (grid2.coords t) (out2_3 x0 (win2_1.fill (grid2.coords t) d1 g1) (win2_2.fill (grid2.coords t) d2 g2))
      = win2_3.cut (grid2.coords t) (out2_3 x0 (win2_1.fill (grid2.coords t) d1' g1) (win2_2.fill (grid2.coords t) d2' g2)) := by
  funext j
  obtain ⟨h10, h11, h20, h21⟩ := xsize_facts2 t
  show out2_3 x0 _ _ (win2_3.xinj (grid2.coords t) j) = out2_3 x0 _ _ (win2_3.xinj (grid2.coords t) j)
  rw [out2_3_eq, out2_3_eq]
  have hq : (j 1).val < 3584 := Nat.lt_of_lt_of_le (j 1).isLt (win2_3.xsize_le _ 1)
  have e : win2_3.xinj (grid2.coords t) j = ValueIdx.ix2 (0 : Fin 1) (⟨(j 1).val, hq⟩ : Fin 3584) := by
    funext a
    match a with
    | ⟨0, _⟩ => exact Fin.ext (Nat.lt_one_iff.mp (win2_3.xinj (grid2.coords t) j 0).isLt)
    | ⟨1, _⟩ => rfl
  rw [e]
  refine k2_pay1_congr hloc x0 _ _ _ _ _ (fun k => ?_) ?_
  · refine fill_eq_of_moved win2_1 _ _ _ _ ((win2_1.moved_iff _ _).mpr fun a => ?_)
    match a with
    | ⟨0, _⟩ => show (j 1).val < win2_1.xsize (grid2.coords t) 0; rw [h10]; exact (j 1).isLt
    | ⟨1, _⟩ => show k.val < win2_1.xsize (grid2.coords t) 1; rw [h11]; exact k.isLt
  · refine fill_eq_of_moved win2_2 _ _ _ _ ((win2_2.moved_iff _ _).mpr fun a => ?_)
    match a with
    | ⟨0, _⟩ => show 0 < win2_2.xsize (grid2.coords t) 0; rw [h20]; exact Nat.lt_of_le_of_lt (Nat.zero_le _) (j 0).isLt
    | ⟨1, _⟩ => show (j 1).val < win2_2.xsize (grid2.coords t) 1; rw [h21]; exact (j 1).isLt

/-- The windows the frame forgets: the result's only. -/
theorem fgt2_0 : fgt2 (0 : Fin cfg2.W) = false := rfl
theorem fgt2_1 : fgt2 (1 : Fin cfg2.W) = false := rfl
theorem fgt2_2 : fgt2 (2 : Fin cfg2.W) = false := rfl
theorem fgt2_3 : fgt2 (3 : Fin cfg2.W) = true := rfl

/-- The obligation with the result window's contents not named. -/
theorem body_obligation2F (c : Dev nD) :
    BodyObligationLoose (dat2 (F := F) V c) (defs₀ (F := F)) Variants.none () Set.univ fgt2 := fun t => by
  rw [bigSep_W2, bigSep_W2]
  simp only [fgt2_0, fgt2_1, fgt2_2, fgt2_3]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%X3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · rw [after2_0]; iexact H0
  isplitl [H1]
  · iexists d1
    rw [after2_1]
    change _ ⊢ owns (c : Thread nD τ) (win2_1.stage (cfg2.slots t 1)) fullShare (win2_1.fill (grid2.coords t) d1
      (win2_1.cut (grid2.coords t) (win2_1.fill (grid2.coords t) (fun _ => Scalar.ofBits .f32 0#32) (iblk2 V c 1 t))))
    rewrite [win2_1.cut_fill]; exact .rfl
  isplitl [H2]
  · iexists d2
    rw [after2_2]
    change _ ⊢ owns (c : Thread nD τ) (win2_2.stage (cfg2.slots t 2)) fullShare (win2_2.fill (grid2.coords t) d2
      (win2_2.cut (grid2.coords t) (win2_2.fill (grid2.coords t) (fun _ => Scalar.ofBits .f32 0#32) (iblk2 V c 2 t))))
    rewrite [win2_2.cut_fill]; exact .rfl
  iexists _; iexact H3

/-- The obligation with every window named, where a score column reads only its own row of the weight: the result's
    buffer is handed back as what the body wrote, which on its moved part is the payload of the zero-filled buffers. -/
theorem body_obligation2 (hloc : ColLocal F) (c : Dev nD) :
    BodyObligationLoose (dat2 (F := F) V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after2_0]; iexact H0
  isplitl [H1]
  · iexists d1
    rw [after2_1]
    change _ ⊢ owns (c : Thread nD τ) (win2_1.stage (cfg2.slots t 1)) fullShare (win2_1.fill (grid2.coords t) d1
      (win2_1.cut (grid2.coords t) (win2_1.fill (grid2.coords t) (fun _ => Scalar.ofBits .f32 0#32) (iblk2 V c 1 t))))
    rewrite [win2_1.cut_fill]; exact .rfl
  isplitl [H2]
  · iexists d2
    rw [after2_2]
    change _ ⊢ owns (c : Thread nD τ) (win2_2.stage (cfg2.slots t 2)) fullShare (win2_2.fill (grid2.coords t) d2
      (win2_2.cut (grid2.coords t) (win2_2.fill (grid2.coords t) (fun _ => Scalar.ofBits .f32 0#32) (iblk2 V c 2 t))))
    rewrite [win2_2.cut_fill]; exact .rfl
  iexists out2_3 (iblk2 V c 0 t) (win2_1.fill (grid2.coords t) d1 (iblk2 V c 1 t)) (win2_2.fill (grid2.coords t) d2 (iblk2 V c 2 t))
  rw [after2_3]
  have hcut := cut_out2_3_congr hloc t (iblk2 V c 0 t) d1 (fun _ => Scalar.ofBits .f32 0#32) (iblk2 V c 1 t)
    d2 (fun _ => Scalar.ofBits .f32 0#32) (iblk2 V c 2 t)
  change _ ⊢ owns (c : Thread nD τ) (win2_3.stage (cfg2.slots t 3)) fullShare (win2_3.fill (grid2.coords t)
    (out2_3 (iblk2 V c 0 t) (win2_1.fill (grid2.coords t) d1 (iblk2 V c 1 t)) (win2_2.fill (grid2.coords t) d2 (iblk2 V c 2 t)))
    (win2_3.cut (grid2.coords t) (out2_3 (iblk2 V c 0 t)
      (win2_1.fill (grid2.coords t) (fun _ => Scalar.ofBits .f32 0#32) (iblk2 V c 1 t))
      (win2_2.fill (grid2.coords t) (fun _ => Scalar.ofBits .f32 0#32) (iblk2 V c 2 t)))))
  exact Entails.of_eq (congrArg (owns (c : Thread nD τ) (win2_3.stage (cfg2.slots t 3)) fullShare)
    (win2_3.fill_congr_cut (grid2.coords t) hcut).symm)

end Cert.KernelIdeal.Hand

end
-- ==== Proof.ColLocalIdeal.lean ====
/-
  Over the extended reals a matrix product into a zero-or-any accumulator is, at each element, the accumulator plus a
  sum over the contracted axis: column q of the score row reads the weight only along its row q.
-/
import proofs.«408449_j11519102288461_3_alg».proof.Proof.R2Defs
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The weight's index that element (0, q) of the product reads, at any contraction position, lies on row q: axis 0 of
    the weight is its one non-contracting axis, and reads the result's axis 1. -/
theorem rhsIdx_row (q : Fin 3584) (kk : dot_S1x1024_S3584x1024_S1x3584_1_1_0_0_n_n.contr.Idx) :
    dot_S1x1024_S3584x1024_S1x3584_1_1_0_0_n_n.rhsIdx (ValueIdx.ix2 0 q) kk 0 = q := by
  rfl

/-- An index of the weight on row q is (q, its column). -/
theorem eq_ix2_of_row (i : S3584x1024.Idx) (q : Fin 3584) (hi : i 0 = q) : i = ValueIdx.ix2 q (i 1) := by
  subst hi; exact ValueIdx.eq_ix2 i

/-- Two weights that agree along row q agree at every index on that row. -/
theorem agree_on_row {α : Type} (w w' : S3584x1024.Idx → α) (q : Fin 3584)
    (h : ∀ k : Fin 1024, w (ValueIdx.ix2 q k) = w' (ValueIdx.ix2 q k)) (i : S3584x1024.Idx) (hi : i 0 = q) : w i = w' i :=
  (congrArg w (eq_ix2_of_row i q hi)).trans ((h (i 1)).trans (congrArg w' (eq_ix2_of_row i q hi)).symm)

/-- The product at (0, q) is the accumulator there plus the sum over the contracted axis of the hidden state's entries
    times the weight's entries on row q: two weights that agree along that row give the same sum, term by term. -/
theorem colLocal_ideal : ColLocal Ideal := by
  intro x w w' acc q h
  show FloatOps.matmul dot_S1x1024_S3584x1024_S1x3584_1_1_0_0_n_n none x w acc (ValueIdx.ix2 0 q)
    = FloatOps.matmul dot_S1x1024_S3584x1024_S1x3584_1_1_0_0_n_n none x w' acc (ValueIdx.ix2 0 q)
  rw [Ideal.matmul_apply, Ideal.matmul_apply]
  refine congrArg (acc (ValueIdx.ix2 0 q) + ·) (Finset.sum_congr rfl fun kk _ => ?_)
  exact congrArg (x (dot_S1x1024_S3584x1024_S1x3584_1_1_0_0_n_n.lhsIdx (ValueIdx.ix2 0 q) kk) * ·)
    (agree_on_row w w' q h _ (rhsIdx_row q kk))

end Cert.KernelIdeal.Hand

end
-- ==== Proof.Glue.lean ====
/-
  The host operations both programs share, as functions of the arrays going in: the embedding lookup (the word index
  wrapped from the end if negative, then one row gathered), the GRU cell's elementwise step from the two gate
  pre-activations and the previous hidden state (r and z the logistic function of the summed first and second thirds,
  n the hyperbolic tangent of the third thirds with the recurrent part gated by r, the new state (1 − z)·n + z·h), and
  the log-softmax of the score row (the row less its maximum, less the logarithm of the sum of the exponentials).
  Each is the composition of the printed operations, at any instance of the float operations.
-/
import proofs.«408449_j11519102288461_3_alg».proof.KernelIdeal
import proofs.«408449_j11519102288461_3_alg».proof.Proof.Gen.KernelIdeal

noncomputable section

namespace Cert.KernelIdeal.Glue

open Cert.KernelIdeal Cert.KernelIdeal.Facts₀ Cert.KernelIdeal.Facts Idealize.ShloMosaic

variable {F : FTy → Type} [FloatOps F]

/-- The row of the table at the word index, the index first wrapped from the end if negative. -/
def embRow (idx : (⟨S1, .i32⟩ : BufTy).Contents (Elt F)) (emb : (⟨S50257x1024, .f32⟩ : BufTy).Contents (Elt F)) :
    (⟨S1x1024, .f32⟩ : BufTy).Contents (Elt F) :=
  Host.gather gather_S50257x1024_S1x1_S1x1024_1_0_n_n_0_1_11024 emb
    (broadcastInDim S1x1 ![0] bcast_S1_S1x1_0
      (select (cmpi .slt idx (broadcastInDim S1 ![] bcast_S_S1 (constantI S_ 32 0#32)))
        (addi idx (broadcastInDim S1 ![] bcast_S_S1 (constantI S_ 32 50257#32))) idx))

/-- The GRU cell's elementwise step. -/
def gru (gi gh : (⟨S1x3072, .f32⟩ : BufTy).Contents (Elt F)) (h : (⟨S1x1024, .f32⟩ : BufTy).Contents (Elt F)) :
    (⟨S1x1024, .f32⟩ : BufTy).Contents (Elt F) :=
  addf
    (mulf
      (subf (broadcastInDim S1x1024 ![] bcast_S_S1x1024 (constant S_ .f32 0x3F800000#32))
        (Host.divf (broadcastInDim S1x1024 ![] bcast_S_S1x1024 (constant S_ .f32 0x3F800000#32))
          (addf (broadcastInDim S1x1024 ![] bcast_S_S1x1024 (constant S_ .f32 0x3F800000#32))
            (Host.exp (Host.negf (addf (extractStridedSlice S1x1024 ![0, 1024] gi slices_S1x3072_S1x1024_0_1024)
              (extractStridedSlice S1x1024 ![0, 1024] gh slices_S1x3072_S1x1024_0_1024)))))))
      (Host.tanh (addf (extractStridedSlice S1x1024 ![0, 2048] gi slices_S1x3072_S1x1024_0_2048)
        (mulf
          (Host.divf (broadcastInDim S1x1024 ![] bcast_S_S1x1024 (constant S_ .f32 0x3F800000#32))
            (addf (broadcastInDim S1x1024 ![] bcast_S_S1x1024 (constant S_ .f32 0x3F800000#32))
              (Host.exp (Host.negf (addf (extractStridedSlice S1x1024 ![0, 0] gi slices_S1x3072_S1x1024_0_0)
                (extractStridedSlice S1x1024 ![0, 0] gh slices_S1x3072_S1x1024_0_0))))))
          (extractStridedSlice S1x1024 ![0, 2048] gh slices_S1x3072_S1x1024_0_2048)))))
    (mulf
      (Host.divf (broadcastInDim S1x1024 ![] bcast_S_S1x1024 (constant S_ .f32 0x3F800000#32))
        (addf (broadcastInDim S1x1024 ![] bcast_S_S1x1024 (constant S_ .f32 0x3F800000#32))
          (Host.exp (Host.negf (addf (extractStridedSlice S1x1024 ![0, 1024] gi slices_S1x3072_S1x1024_0_1024)
            (extractStridedSlice S1x1024 ![0, 1024] gh slices_S1x3072_S1x1024_0_1024))))))
      h)

/-- The score row less its maximum (the maximum taken against −∞ once more, as printed). -/
def shifted (x : (⟨S1x50257, .f32⟩ : BufTy).Contents (Elt F)) : (⟨S1x50257, .f32⟩ : BufTy).Contents (Elt F) :=
  subf x
    (broadcastInDim S1x50257 ![0, 1] bcast_S1x1_S1x50257_0_1
      (broadcastInDim S1x1 ![0] bcast_S1_S1x1_0
        (maximumf (broadcastInDim S1 ![] bcast_S_S1 (constant S_ .f32 0xFF800000#32))
          (Host.reduce FloatOps.maximumf x (constant S_ .f32 0xFF800000#32) reducesTo_S1x50257_S1_d1 h_S_))))

/-- The log-softmax of the score row. -/
def logSoftmax (x : (⟨S1x50257, .f32⟩ : BufTy).Contents (Elt F)) : (⟨S1x50257, .f32⟩ : BufTy).Contents (Elt F) :=
  subf (shifted x)
    (broadcastInDim S1x50257 ![0, 1] bcast_S1x1_S1x50257_0_1
      (Host.log
        (broadcastInDim S1x1 ![0] bcast_S1_S1x1_0
          (Host.reduceAdd (Host.exp (shifted x)) (constant S_ .f32 0x00000000#32) reducesTo_S1x50257_S1_d1 h_S_))))

end Cert.KernelIdeal.Glue

end
-- ==== Proof.HostK.lean ====
/-
  What the program's host operations leave, read off the fold of buffer contents: the six reshapes before the first
  launch; the GRU cell's elementwise step between the second and third launches as one function of the two gate
  pre-activations and the hidden state; the log-softmax of the score row and the last reshape after the third launch.
  A buffer no operation of a stretch writes passes through the stretch unchanged, and a launch changes only its
  results' arrays.
-/
import proofs.«408449_j11519102288461_3_alg».proof.Proof.Fold
import proofs.«408449_j11519102288461_3_alg».proof.Proof.Glue
import proofs.«408449_j11519102288461_3_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## Buffers a stretch or a launch leaves alone -/

theorem W1_keep (c : Dev nD) (r : Ref sig .tc) (h : r ∉ hostOps0_W) : W1 m c r = W0 m c r := by
  exact StableHlo.after_of_writes_sub hostOps0 _ hostOps0_writes h
theorem W2_keep (c : Dev nD) (r : Ref sig .tc) (h : r ∉ hostOps0_1_W) : W2 m c r = W1 m c r := by
  exact StableHlo.after_of_writes_sub hostOps0_1 _ hostOps0_1_writes h
theorem W5_keep (c : Dev nD) (r : Ref sig .tc) (h : r ∉ hostOps2_W) : W5 m c r = W4 m c r := by
  exact StableHlo.after_of_writes_sub hostOps2 _ hostOps2_writes h
theorem W7_keep (c : Dev nD) (r : Ref sig .tc) (h : r ∉ hostOps3_W) : W7 m c r = W6 m c r := by
  exact StableHlo.after_of_writes_sub hostOps3 _ hostOps3_writes h
theorem W8_keep (c : Dev nD) (r : Ref sig .tc) (h : r ∉ hostOps3_1_W) : W8 m c r = W7 m c r := by
  exact StableHlo.after_of_writes_sub hostOps3_1 _ hostOps3_1_writes h

/-! ## The reshapes before the first launch -/

theorem W2_main_v1 (c : Dev nD) :
    (W2 m c main_v1 : (⟨S1x1024, .f32⟩ : BufTy).Contents (Elt F))
      = shapeCast S1x1024 (m ((c : Thread nD τ).loc main_arg1)) shapeCasts_S1x1x1024_S1x1024 := by
  show StableHlo.after hostOps0_1 _ (Proc.devRef .tc main_v1) = _
  after_results
  rfl
theorem W2_main_v2 (c : Dev nD) :
    (W2 m c main_v2 : (⟨S1x20, .f32⟩ : BufTy).Contents (Elt F))
      = shapeCast S1x20 (m ((c : Thread nD τ).loc main_arg5)) shapeCasts_S20_S1x20 := by
  show StableHlo.after hostOps0_1 _ (Proc.devRef .tc main_v2) = _
  after_results
  rfl
theorem W2_main_v3 (c : Dev nD) :
    (W2 m c main_v3 : (⟨S1x1024, .f32⟩ : BufTy).Contents (Elt F))
      = shapeCast S1x1024 (m ((c : Thread nD τ).loc main_arg7)) shapeCasts_S1024_S1x1024 := by
  show StableHlo.after hostOps0_1 _ (Proc.devRef .tc main_v3) = _
  after_results
  rfl
theorem W2_main_v4 (c : Dev nD) :
    (W2 m c main_v4 : (⟨S1x3072, .f32⟩ : BufTy).Contents (Elt F))
      = shapeCast S1x3072 (m ((c : Thread nD τ).loc main_arg10)) shapeCasts_S3072_S1x3072 := by
  show StableHlo.after hostOps0_1 _ (Proc.devRef .tc main_v4) = _
  after_results
  rfl
theorem W2_main_v5 (c : Dev nD) :
    (W2 m c main_v5 : (⟨S1x3072, .f32⟩ : BufTy).Contents (Elt F))
      = shapeCast S1x3072 (m ((c : Thread nD τ).loc main_arg11)) shapeCasts_S3072_S1x3072 := by
  show StableHlo.after hostOps0_1 _ (Proc.devRef .tc main_v5) = _
  after_results
  rfl
theorem W2_main_v6 (c : Dev nD) :
    (W2 m c main_v6 : (⟨S1x50257, .f32⟩ : BufTy).Contents (Elt F))
      = shapeCast S1x50257 (m ((c : Thread nD τ).loc main_arg13)) shapeCasts_S50257_S1x50257 := by
  show StableHlo.after hostOps0_1 _ (Proc.devRef .tc main_v6) = _
  after_results
  rfl

/-! ## The embedding lookup, before the range test's verdict is known -/

set_option maxHeartbeats 1000000 in
/-- From any contents, the lookup's operations leave the gathered row where the in-range flag is set and the fill word
    elsewhere: the flag is the conjunction over the one index of "0 ≤ wrapped index" and "wrapped index ≤ 50256". -/
theorem lookup_after (V : Valuation τ sig (Elt F)) :
    (StableHlo.after hostOps0 V (Proc.devRef .tc main_v0) : (⟨S1x1024, .f32⟩ : BufTy).Contents (Elt F))
      = select (StableHlo.after hostOps0 V (Proc.devRef .tc main_call0_v13) : (⟨S1x1024, .i1⟩ : BufTy).Contents (Elt F))
          (Glue.embRow (V (Proc.devRef .tc main_arg0) : (⟨S1, .i32⟩ : BufTy).Contents (Elt F))
            (V (Proc.devRef .tc main_arg3) : (⟨S50257x1024, .f32⟩ : BufTy).Contents (Elt F)))
          (broadcastInDim S1x1024 ![] bcast_S_S1x1024 (constant S_ .f32 0x7FC00000#32)) := by
  after_results_simp
  rfl

/-- The six reshapes leave the looked-up row where the lookup put it. -/
theorem W2_main_v0 (c : Dev nD) :
    (W2 m c main_v0 : (⟨S1x1024, .f32⟩ : BufTy).Contents (Elt F))
      = select (W1 m c main_call0_v13 : (⟨S1x1024, .i1⟩ : BufTy).Contents (Elt F))
          (Glue.embRow (m ((c : Thread nD τ).loc main_arg0)) (m ((c : Thread nD τ).loc main_arg3)))
          (broadcastInDim S1x1024 ![] bcast_S_S1x1024 (constant S_ .f32 0x7FC00000#32)) :=
  (W2_keep m c main_v0 (by decide)).trans (lookup_after (W0 m c))

/-! ## The GRU cell's step -/

set_option maxHeartbeats 1000000 in
theorem W5_main_v36 (c : Dev nD) :
    (W5 m c main_v36 : (⟨S1x1024, .f32⟩ : BufTy).Contents (Elt F))
      = Glue.gru (W4 m c main_v8_0) (W4 m c main_v8_1) (W4 m c main_v1) := by
  show StableHlo.after hostOps2 _ (Proc.devRef .tc main_v36) = _
  after_results_simp
  rfl

/-! ## The log-softmax and the last reshape -/

/-- Contents moved to a typed reference's buffer and back are the contents. -/
theorem ofBuf_toBuf {T : BufTy} (x : StableHlo.TRef sig T) (v : T.Contents (Elt F)) : x.ofBuf (x.toBuf v) = v := by
  obtain ⟨r, h, _, _⟩ := x
  subst h
  rfl

/-- At the result row's own reference, whose type is the row's, the move into the buffer is the identity. -/
theorem toBuf_main_v38 (Y : (⟨S1x50257, .f32⟩ : BufTy).Contents (Elt F)) :
    ((StableHlo.TRef.of main_v38 : StableHlo.TRef sig ⟨S1x50257, .f32⟩).toBuf Y : (⟨S1x50257, .f32⟩ : BufTy).Contents (Elt F)) = Y := rfl

/-- At the score row's own reference the move out of the buffer is the identity. -/
theorem ofBuf_main_v37 (v : (⟨S1x50257, .f32⟩ : BufTy).Contents (Elt F)) :
    ((StableHlo.TRef.of main_v37 : StableHlo.TRef sig ⟨S1x50257, .f32⟩).ofBuf v : (⟨S1x50257, .f32⟩ : BufTy).Contents (Elt F)) = v := rfl

set_option maxHeartbeats 1000000 in
/-- From any contents, the fifteen operations after the third launch leave the log-softmax of the score row: each
    intermediate row is moved into its buffer and back, which cancels; what is left is the composition itself. -/
theorem logSoftmax_after (V : Valuation τ sig (Elt F)) :
    (StableHlo.after hostOps3 V (Proc.devRef .tc main_v38) : (⟨S1x50257, .f32⟩ : BufTy).Contents (Elt F))
      = Glue.logSoftmax (V (Proc.devRef .tc main_v37) : (⟨S1x50257, .f32⟩ : BufTy).Contents (Elt F)) := by
  after_results_simp
  simp only [ofBuf_toBuf, ofBuf_main_v37]
  refine (toBuf_main_v38 _).trans ?_
  rfl

/-- The last reshape leaves the log-softmax row where those operations put it. -/
theorem W8_main_v38 (c : Dev nD) :
    (W8 m c main_v38 : (⟨S1x50257, .f32⟩ : BufTy).Contents (Elt F)) = Glue.logSoftmax (W6 m c main_v37) :=
  (W8_keep m c main_v38 (by decide)).trans (logSoftmax_after (W6 m c))

/-- The new hidden state's buffer is an input of the third launch: the launch leaves it as entered. -/
theorem W6_main_v36 (c : Dev nD) : W6 m c main_v36 = W5 m c main_v36 := by
  have h := W6_arr m c (0 : Fin cfg2.W)
  rw [Pipeline.Dat.arrAt_in (dat2 (V5 m) c) (0 : Fin cfg2.W) (by decide) cfg2.N] at h
  exact h

theorem W8_main_v39 (c : Dev nD) :
    (W8 m c main_v39 : (⟨S1x1x1024, .f32⟩ : BufTy).Contents (Elt F))
      = shapeCast S1x1x1024 (W5 m c main_v36 : (⟨S1x1024, .f32⟩ : BufTy).Contents (Elt F)) shapeCasts_S1x1024_S1x1x1024 := by
  have e : W7 m c main_v36 = W5 m c main_v36 :=
    (W7_keep m c main_v36 (by decide)).trans (W6_main_v36 m c)
  have g : ∀ V : Valuation τ sig (Elt F),
      (StableHlo.after hostOps3_1 V (Proc.devRef .tc main_v39) : (⟨S1x1x1024, .f32⟩ : BufTy).Contents (Elt F))
        = shapeCast S1x1x1024 (V (Proc.devRef .tc main_v36) : (⟨S1x1024, .f32⟩ : BufTy).Contents (Elt F))
            shapeCasts_S1x1024_S1x1x1024 := by
    intro V; after_results; rfl
  exact (g (W7 m c)).trans (congrArg (fun x => shapeCast S1x1x1024 x shapeCasts_S1x1024_S1x1x1024) e)

end Cert.KernelIdeal.Hand

end
-- ==== Proof.KArgs.lean ====
/-
  An argument array reaches the program's end as launched: no host operation writes one, and a launch changes only
  its results' arrays (an input window's array leaves the launch as it entered; an array that is no window of the
  launch is not touched).
-/
import proofs.«408449_j11519102288461_3_alg».proof.Proof.HostK

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (c : Dev nD)

/-- A buffer that is not a result array of the first launch leaves it as it entered. -/
theorem W3_not_out (r : Ref sig .tc) (h : ∀ w, (cfg0.win w).isOut = true → Pipeline.arrRef spec0 w ≠ r) : W3 m c r = W2 m c r := by
  by_cases he : ∃ w, Pipeline.arrRef spec0 w = r
  · obtain ⟨w, rfl⟩ := he
    have hw : (cfg0.win w).isOut = false := by
      cases hb : (cfg0.win w).isOut with
      | false => rfl
      | true => exact absurd rfl (h w hb)
    exact (W3_arr m c w).trans (((dat0 (V2 m) c).arrAt_in w hw _).trans (A_eq0 (V2 m) c w))
  · exact W3_of_ne m c r (fun w e => he ⟨w, e⟩)

/-- The same for the second launch, -/
theorem W4_not_out (r : Ref sig .tc) (h : ∀ w, (cfg1.win w).isOut = true → Pipeline.arrRef spec1 w ≠ r) : W4 m c r = W3 m c r := by
  by_cases he : ∃ w, Pipeline.arrRef spec1 w = r
  · obtain ⟨w, rfl⟩ := he
    have hw : (cfg1.win w).isOut = false := by
      cases hb : (cfg1.win w).isOut with
      | false => rfl
      | true => exact absurd rfl (h w hb)
    exact (W4_arr m c w).trans (((dat1 (V3 m) c).arrAt_in w hw _).trans (A_eq1 (V3 m) c w))
  · exact W4_of_ne m c r (fun w e => he ⟨w, e⟩)

/-- and for the third. -/
theorem W6_not_out (r : Ref sig .tc) (h : ∀ w, (cfg2.win w).isOut = true → Pipeline.arrRef spec2 w ≠ r) : W6 m c r = W5 m c r := by
  by_cases he : ∃ w, Pipeline.arrRef spec2 w = r
  · obtain ⟨w, rfl⟩ := he
    have hw : (cfg2.win w).isOut = false := by
      cases hb : (cfg2.win w).isOut with
      | false => rfl
      | true => exact absurd rfl (h w hb)
    exact (W6_arr m c w).trans (((dat2 (V5 m) c).arrAt_in w hw _).trans (A_eq2 (V5 m) c w))
  · exact W6_of_ne m c r (fun w e => he ⟨w, e⟩)

/-- A buffer no stretch writes and no launch has for a result holds at the end what it held at launch. -/
theorem W8_kept (r : Ref sig .tc) (h0 : r ∉ hostOps0_W) (h1 : r ∉ hostOps0_1_W) (h2 : r ∉ hostOps2_W) (h3 : r ∉ hostOps3_W)
    (h4 : r ∉ hostOps3_1_W) (k0 : ∀ w, (cfg0.win w).isOut = true → Pipeline.arrRef spec0 w ≠ r)
    (k1 : ∀ w, (cfg1.win w).isOut = true → Pipeline.arrRef spec1 w ≠ r)
    (k2 : ∀ w, (cfg2.win w).isOut = true → Pipeline.arrRef spec2 w ≠ r) :
    W8 m c r = m ((c : Thread nD τ).loc r) :=
  (W8_keep m c r h4).trans <| (W7_keep m c r h3).trans <| (W6_not_out m c r k2).trans <| (W5_keep m c r h2).trans <|
    (W4_not_out m c r k1).trans <| (W3_not_out m c r k0).trans <| (W2_keep m c r h1).trans <| (W1_keep m c r h0).trans rfl

theorem W8_main_arg0 : W8 m c main_arg0 = m ((c : Thread nD τ).loc main_arg0) :=
  W8_kept m c main_arg0 (by decide) (by decide) (by decide) (by decide) (by decide) (by decide) (by decide) (by decide)
theorem W8_main_arg1 : W8 m c main_arg1 = m ((c : Thread nD τ).loc main_arg1) :=
  W8_kept m c main_arg1 (by decide) (by decide) (by decide) (by decide) (by decide) (by decide) (by decide) (by decide)
theorem W8_main_arg2 : W8 m c main_arg2 = m ((c : Thread nD τ).loc main_arg2) :=
  W8_kept m c main_arg2 (by decide) (by decide) (by decide) (by decide) (by decide) (by decide) (by decide) (by decide)
theorem W8_main_arg3 : W8 m c main_arg3 = m ((c : Thread nD τ).loc main_arg3) :=
  W8_kept m c main_arg3 (by decide) (by decide) (by decide) (by decide) (by decide) (by decide) (by decide) (by decide)
theorem W8_main_arg4 : W8 m c main_arg4 = m ((c : Thread nD τ).loc main_arg4) :=
  W8_kept m c main_arg4 (by decide) (by decide) (by decide) (by decide) (by decide) (by decide) (by decide) (by decide)
theorem W8_main_arg5 : W8 m c main_arg5 = m ((c : Thread nD τ).loc main_arg5) :=
  W8_kept m c main_arg5 (by decide) (by decide) (by decide) (by decide) (by decide) (by decide) (by decide) (by decide)
theorem W8_main_arg6 : W8 m c main_arg6 = m ((c : Thread nD τ).loc main_arg6) :=
  W8_kept m c main_arg6 (by decide) (by decide) (by decide) (by decide) (by decide) (by decide) (by decide) (by decide)
theorem W8_main_arg7 : W8 m c main_arg7 = m ((c : Thread nD τ).loc main_arg7) :=
  W8_kept m c main_arg7 (by decide) (by decide) (by decide) (by decide) (by decide) (by decide) (by decide) (by decide)
theorem W8_main_arg8 : W8 m c main_arg8 = m ((c : Thread nD τ).loc main_arg8) :=
  W8_kept m c main_arg8 (by decide) (by decide) (by decide) (by decide) (by decide) (by decide) (by decide) (by decide)
theorem W8_main_arg9 : W8 m c main_arg9 = m ((c : Thread nD τ).loc main_arg9) :=
  W8_kept m c main_arg9 (by decide) (by decide) (by decide) (by decide) (by decide) (by decide) (by decide) (by decide)
theorem W8_main_arg10 : W8 m c main_arg10 = m ((c : Thread nD τ).loc main_arg10) :=
  W8_kept m c main_arg10 (by decide) (by decide) (by decide) (by decide) (by decide) (by decide) (by decide) (by decide)
theorem W8_main_arg11 : W8 m c main_arg11 = m ((c : Thread nD τ).loc main_arg11) :=
  W8_kept m c main_arg11 (by decide) (by decide) (by decide) (by decide) (by decide) (by decide) (by decide) (by decide)
theorem W8_main_arg12 : W8 m c main_arg12 = m ((c : Thread nD τ).loc main_arg12) :=
  W8_kept m c main_arg12 (by decide) (by decide) (by decide) (by decide) (by decide) (by decide) (by decide) (by decide)
theorem W8_main_arg13 : W8 m c main_arg13 = m ((c : Thread nD τ).loc main_arg13) :=
  W8_kept m c main_arg13 (by decide) (by decide) (by decide) (by decide) (by decide) (by decide) (by decide) (by decide)

/-- An unscoped reference of the core is among those the last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.LibAllOnes.lean ====
/-
  A reduction by "and" of an array of ones.

  A stablehlo.reduce of a one-bit array by "and", started from a one, is one at every result index when every element
  of the array is one: the fold meets only ones. (The converse direction, from the result being one to every element,
  is the library's; this is the direction a mask known to be all true needs.) General in the shapes and axes.
-/
import Idealize.ShloMosaic.PureOps.Reduce

namespace Idealize.ShloMosaic.AllOnes

open Idealize.ShloMosaic

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ q, init q = 1#1) :
    Host.reduce IntOp.andi x init h hu j = 1#1 := by
  rw [Host.reduce_eq_foldl, hi]
  exact foldl_andi_ones x hx _

end Idealize.ShloMosaic.AllOnes
-- ==== Proof.ValE.lean ====
/-
  Under the precondition the word index lies in 0 … 50256, so the lookup's range test passes and the looked-up row is
  the gathered row: the precondition's last two conjuncts say 0 ≤ index and index < 50257 as signed words; an index
  that is not negative is not wrapped, and 0 ≤ index ≤ 50256 is what the lookup tests.
-/
import proofs.«408449_j11519102288461_3_alg».proof.Proof.HostK
import proofs.«408449_j11519102288461_3_alg».proof.Defs
import proofs.«408449_j11519102288461_3_alg».proof.Proof.Gen.Pre_finite_inputs
import Idealize.ShloMosaic.Lib.StableHlo.Predicate
import Idealize.ShloMosaic.Lib.ReduceAll
import Idealize.ShloMosaic.Lib.ValueIdx
import proofs.«408449_j11519102288461_3_alg».proof.Proof.LibAllOnes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ)

/-- The scalar shape has one index. -/
instance subsingleton_scalar_idx : Subsingleton Cert.Pre_finite_inputs.S_.Idx := ⟨fun a b => funext fun d => d.elim0⟩

/-- The precondition bounds the word index: as a signed 32-bit word it is at least 0 and below 50257. Its last two
    conjuncts are "every entry of the index array is ≥ 0" and "every entry is < 50257", each a conjunction over the
    array's one entry. -/
theorem idx_in_range (h : Cert.Pre_KernelIdeal m) (c : Dev nD) :
    0 ≤ ((m ((c : Thread nD τ).loc main_arg0) : (⟨S1, .i32⟩ : BufTy).Contents (Elt Ideal)) (ValueIdx.ix1 0)).toInt
      ∧ ((m ((c : Thread nD τ).loc main_arg0) : (⟨S1, .i32⟩ : BufTy).Contents (Elt Ideal)) (ValueIdx.ix1 0)).toInt < 50257 := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e1, e70⟩ := IntOp.andi_eq_one.1 e
  obtain ⟨_, e66⟩ := IntOp.andi_eq_one.1 e1
  have h0 := Host.reduce_andi_all _ _ _ _ _ e66 (ValueIdx.ix1 0)
  have h1 := Host.reduce_andi_all _ _ _ _ _ e70 (ValueIdx.ix1 0)
  have h0' : IntOp.cmpi .sge ((m ((c : Thread nD τ).loc main_arg0) : (⟨S1, .i32⟩ : BufTy).Contents (Elt Ideal)) (ValueIdx.ix1 0)) 0#32 = 1#1 := h0
  have h1' : IntOp.cmpi .slt ((m ((c : Thread nD τ).loc main_arg0) : (⟨S1, .i32⟩ : BufTy).Contents (Elt Ideal)) (ValueIdx.ix1 0)) 50257#32 = 1#1 := h1
  rw [IntOp.cmpi_sge] at h0'
  rw [IntOp.cmpi_slt] at h1'
  have z0 : (0#32 : BitVec 32).toInt = 0 := by decide
  have z1 : (50257#32 : BitVec 32).toInt = 50257 := by decide
  rw [z0] at h0'
  rw [z1] at h1'
  exact ⟨h0', h1'⟩

/-- A one-element vector has one index. -/
theorem S1_idx (k : S1.Idx) : k = ValueIdx.ix1 0 := by
  funext a
  match a with
  | ⟨0, _⟩ =>
    apply Fin.ext
    have hlt := (k ⟨0, by decide⟩).isLt
    have hs : S1.size ⟨0, by decide⟩ = 1 := by decide
    show (k ⟨0, _⟩).val = 0
    omega

/-- An index that is not negative is not wrapped from the end. -/
theorem wrap_id (x : BitVec 32) (h0 : 0 ≤ x.toInt) :
    Scalar.select (IntOp.cmpi .slt x 0#32) (IntOp.addi x 50257#32) x = x := by
  have z0 : (0#32 : BitVec 32).toInt = 0 := by decide
  have hn : ¬ IntOp.cmpi .slt x 0#32 = 1#1 := by rw [IntOp.cmpi_slt, z0]; omega
  rw [ValueIdx.eq_zero_of_ne_one hn, ValueIdx.select_zero]

/-- The lookup's range test on a word in 0 … 50256. -/
theorem range_test (x : BitVec 32) (h0 : 0 ≤ x.toInt) (h1 : x.toInt < 50257) :
    IntOp.andi (IntOp.cmpi .sge x 0#32) (IntOp.cmpi .sle x 50256#32) = 1#1 := by
  have z0 : (0#32 : BitVec 32).toInt = 0 := by decide
  have z1 : (50256#32 : BitVec 32).toInt = 50256 := by decide
  rw [IntOp.andi_eq_one, IntOp.cmpi_sge, IntOp.cmpi_sle, z0, z1]
  omega

/-- The wrapped index, as the lookup's one-by-one start-index array. -/
abbrev wrapped (idx : IVec S1 32) : IVec S1x1 32 :=
  broadcastInDim S1x1 ![0] bcast_S1_S1x1_0
    (select (cmpi .slt idx (broadcastInDim S1 ![] bcast_S_S1 (constantI S_ 32 0#32)))
      (addi idx (broadcastInDim S1 ![] bcast_S_S1 (constantI S_ 32 50257#32))) idx)

/-- The in-range flag over the row, as printed: the conjunction over the one index of "0 ≤ wrapped index" and
    "wrapped index ≤ 50256", laid along the row. It is one everywhere when the index is in 0 … 50256. -/
theorem flag_val (idx : IVec S1 32) (h0 : 0 ≤ (idx (ValueIdx.ix1 0)).toInt) (h1 : (idx (ValueIdx.ix1 0)).toInt < 50257)
    (j : S1x1024.Idx) :
    broadcastInDim S1x1024 ![0] bcast_S1_S1x1024_0
      (Host.reduce IntOp.andi
        (andi (cmpi .sge (wrapped idx) (broadcastInDim S1x1 ![] bcast_S_S1x1 (constantI S_ 32 0#32)))
          (cmpi .sle (wrapped idx) (broadcastInDim S1x1 ![1] bcast_S1_S1x1_1 (constantI S1 32 50256#32))))
        (constantI S_ 1 1#1) reducesTo_S1x1_S1_d1 h_S_) j = 1#1 := by
  unfold broadcastInDim
  refine Idealize.ShloMosaic.AllOnes.reduce_andi_ones _ _ _ _ _ (fun i => ?_) (fun _ => rfl)
  show IntOp.andi
      (IntOp.cmpi .sge (Scalar.select (IntOp.cmpi .slt (idx _) 0#32) (IntOp.addi (idx _) 50257#32) (idx _)) 0#32)
      (IntOp.cmpi .sle (Scalar.select (IntOp.cmpi .slt (idx _) 0#32) (IntOp.addi (idx _) 50257#32) (idx _)) 50256#32) = 1#1
  generalize (fun a : Fin S1.rank => _ : S1.Idx) = k
  rw [S1_idx k, wrap_id _ h0]
  exact range_test _ h0 h1

/-- Under the precondition the in-range flag is one at every entry of the row. -/
theorem flag_one (h : Cert.Pre_KernelIdeal m) (c : Dev nD) (j : S1x1024.Idx) :
    (W1 m c main_call0_v13 : (⟨S1x1024, .i1⟩ : BufTy).Contents (Elt Ideal)) j = 1#1 := by
  obtain ⟨h0, h1⟩ := idx_in_range m h c
  after_results
  exact flag_val (m ((c : Thread nD τ).loc main_arg0)) h0 h1 j

/-- So the looked-up row is the gathered row. -/
theorem embedded_eq (h : Cert.Pre_KernelIdeal m) (c : Dev nD) :
    (W2 m c main_v0 : (⟨S1x1024, .f32⟩ : BufTy).Contents (Elt Ideal))
      = Glue.embRow (m ((c : Thread nD τ).loc main_arg0)) (m ((c : Thread nD τ).loc main_arg3)) := by
  rw [W2_main_v0]
  funext j
  rw [ValueIdx.select_apply, flag_one m h c j, ValueIdx.select_one]

end Cert.KernelIdeal.Hand

end
-- ==== Proof.Spec.lean ====
/-
  One step of an attention decoder with a GRU cell, as plain functions over the extended reals.

  The decoder embeds the previous word (a row e of the embedding table), scores the L = 20 encoder positions from
  the pair (e, h) of embedding and previous hidden state through a 20 × 2048 weight whose left and right halves meet
  e and h, turns the scores into weights by a softmax (each score less the row maximum, exponentiated, divided by the
  sum), mixes the encoder outputs with those weights, and combines the mix with e through a 1024 × 2048 weight
  followed by a rectifier: the GRU's input. The GRU's two gate pre-activations and the vocabulary scores are affine
  rows x ↦ x · Wᵀ + b. Everything here is a finite sum, a maximum or a pointwise function; nothing needs the
  arguments to be finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Column k of the left half of a 2048-wide row. -/
def lo (k : Fin 1024) : Fin 2048 := ⟨k.val, by omega⟩
/-- Column k of the right half of a 2048-wide row. -/
def hi (k : Fin 1024) : Fin 2048 := ⟨1024 + k.val, by omega⟩

/-- The one row of a 1 × n array. -/
def row {n : Nat} (x : (⟨2, ![1, n]⟩ : Shape).Idx → EReal) : Fin n → EReal := fun k => x (ix2 0 k)
/-- An a × b array by its two coordinates. -/
def mat {a b : Nat} (x : (⟨2, ![a, b]⟩ : Shape).Idx → EReal) : Fin a → Fin b → EReal := fun p q => x (ix2 p q)
/-- A length-n vector by its coordinate. -/
def vec {n : Nat} (x : (⟨1, ![n]⟩ : Shape).Idx → EReal) : Fin n → EReal := fun k => x (ix1 k)

/-- The score of encoder position l: the embedding against the left half of the weight's row l, the hidden state
    against its right half, and the bias. -/
def attnLogit (e h : Fin 1024 → EReal) (W : Fin 20 → Fin 2048 → EReal) (b : Fin 20 → EReal) (l : Fin 20) : EReal :=
  (∑ k : Fin 1024, e k * W l (lo k) + ∑ k : Fin 1024, h k * W l (hi k)) + b l

/-- The largest entry of a row, as the fold of max from −∞. -/
def rowMax {n : Nat} (L : Fin n → EReal) : EReal := (Finset.univ : Finset (Fin n)).fold max ⊥ L

/-- The softmax weight of position l in a row of scores. -/
def softmaxW {n : Nat} (L : Fin n → EReal) (l : Fin n) : EReal :=
  Ideal.div (Ideal.exp (L l - rowMax L)) (∑ j : Fin n, Ideal.exp (L j - rowMax L))

/-- The encoder outputs mixed by the attention weights. -/
def focused (a : Fin 20 → EReal) (enc : Fin 20 → Fin 1024 → EReal) (j : Fin 1024) : EReal :=
  ∑ l : Fin 20, a l * enc l j

/-- The GRU's input: the mix against the left half of the combining weight's row j, the embedding against its right
    half, the bias, rectified. -/
def combine (f e : Fin 1024 → EReal) (C : Fin 1024 → Fin 2048 → EReal) (cb : Fin 1024 → EReal) (j : Fin 1024) : EReal :=
  max ((∑ k : Fin 1024, f k * C j (lo k) + ∑ k : Fin 1024, e k * C j (hi k)) + cb j) 0

/-- The whole attention-and-combine stage. -/
def gruIn (e h : Fin 1024 → EReal) (enc : Fin 20 → Fin 1024 → EReal) (AW : Fin 20 → Fin 2048 → EReal) (ab : Fin 20 → EReal)
    (C : Fin 1024 → Fin 2048 → EReal) (cb : Fin 1024 → EReal) : Fin 1024 → EReal :=
  combine (focused (softmaxW (attnLogit e h AW ab)) enc) e C cb

/-- An affine row: x against row q of W, plus the bias. -/
def affine {N : Nat} (x : Fin 1024 → EReal) (W : Fin N → Fin 1024 → EReal) (b : Fin N → EReal) (q : Fin N) : EReal :=
  (∑ k : Fin 1024, x k * W q k) + b q

end Cert.Spec

end
-- ==== Proof.LibDotNT.lean ====
/-
  A matrix times a transposed matrix, read at an index.

  For the dimension numbers of an M × K by N × K product that contracts the LAST axis of both operands (no batch
  axis: x · Wᵀ with W stored row by row), the sum over the contraction index that a matmul into a zero accumulator
  or a dot_general denotes at the ideal values is, at row p and column q, the sum over k of l (p, k) · r (q, k).
  General in M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

/-- The dimension numbers: contract axis 1 of both operands; the result's axes are the left rows, then the right rows. -/
abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

theorem contr_rank : (dims w).contr.rank = 1 := rfl
theorem contr_size : (dims w).contr.size ⟨0, by rw [contr_rank]; exact Nat.one_pos⟩ = K := rfl

/-- The contraction index is its one coordinate, a column of either operand. -/
abbrev kEquiv : (dims w).contr.Idx ≃ Fin K := contrEquiv1 (dims w) K (contr_rank w) (contr_size w)

/-- The left operand is read at (row of the result, k). -/
theorem lhsIdx_eq (j : (⟨2, ![M, N]⟩ : Shape).Idx) (k : Fin K) :
    (dims w).lhsIdx j ((kEquiv w).symm k) = ix2 (j 0) k := by
  funext a
  apply Fin.ext
  match a with
  | ⟨0, _⟩ => rfl
  | ⟨1, _⟩ =>
    exact ((dims w).lhsIdx_val_of_single (cl := 1) rfl j _).trans
      (contrEquiv1_symm_val (dims w) K (contr_rank w) (contr_size w) k)

/-- The right operand is read at (column of the result, k): its rows are the result's columns. -/
theorem rhsIdx_eq (j : (⟨2, ![M, N]⟩ : Shape).Idx) (k : Fin K) :
    (dims w).rhsIdx j ((kEquiv w).symm k) = ix2 (j 1) k := by
  funext a
  apply Fin.ext
  match a with
  | ⟨0, _⟩ => rfl
  | ⟨1, _⟩ =>
    exact ((dims w).rhsIdx_val_of_single (cr := 1) rfl j _).trans
      (contrEquiv1_symm_val (dims w) K (contr_rank w) (contr_size w) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (dims w).contr.Idx, l ((dims w).lhsIdx j kk) * r ((dims w).rhsIdx j kk))
      = ∑ k : Fin K, l (ix2 (j 0) k) * r (ix2 (j 1) k) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (dims w) prec l r (ix2 p q) = ∑ k : Fin K, l (ix2 p k) * r (ix2 q k) :=
  (Ideal.dotGeneral_apply (dims w) prec _ l r (ix2 p q)).trans (sum_eq w l r (ix2 p q))

end Idealize.ShloMosaic.DotNT

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.Val0.lean ====
/-
  What the first launch leaves in its result array, over the extended reals: the GRU's input row as the attention and
  combine stage of the seven arrays it is entered with. The launch has one grid point and the result's block is the
  whole array, so the array after the run is the one stored row; the row's entry j is read off the body's payload:
  the two halves of each 2048-wide weight meet the two rows they multiply, the row maximum and the sum are folds over
  the twenty scores, and the rectifier is a maximum with zero.
-/
import proofs.«408449_j11519102288461_3_alg».proof.Proof.R0Defs
import proofs.«408449_j11519102288461_3_alg».proof.Proof.Spec
import Idealize.ShloMosaic.PureOps.Ideal.Laws
import Idealize.ShloMosaic.Lib.ValueIdx
import Idealize.ShloMosaic.Lib.Pipeline.Value
import proofs.«408449_j11519102288461_3_alg».proof.Proof.LibDotNT
import proofs.«408449_j11519102288461_3_alg».proof.Proof.LibPlainDot
import proofs.«408449_j11519102288461_3_alg».proof.Proof.LibColumns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open scoped BigOperators

namespace Val0

/-- Inserting coordinate k on the reduced axis of the one row's index gives (0, k). -/
theorem lift_row (k : Fin 20) : (reduces_S1x20_S1).lift (ix1 (0 : Fin 1)) k = ix2 (0 : Fin 1) k := by
  funext c
  match c with
  | ⟨0, _⟩ => rfl
  | ⟨1, _⟩ => rfl

variable {φ₁ φ₂ : FTy}

/-- A row against the rows of a 20 × 1024 matrix. -/
theorem dot_row20 (a : FVec Ideal S1x1024 φ₁) (B : FVec Ideal S20x1024 φ₂) (l : Fin 20) :
    matmul dot_S1x1024_S20x1024_S1x20_1_1_0_0_n_n none a B (constant S1x20 .f32 0x00000000#32) (ix2 0 l)
      = ∑ k : Fin 1024, a (ix2 0 k) * B (ix2 l k) :=
  DotNT.matmul_zero_apply (M := 1) (K := 1024) (N := 20) dot_S1x1024_S20x1024_S1x20_1_1_0_0_n_n_wf none a B 0 l

/-- A row against the rows of a 1024 × 1024 matrix. -/
theorem dot_row1024 (a : FVec Ideal S1x1024 φ₁) (B : FVec Ideal S1024x1024 φ₂) (j : Fin 1024) :
    matmul dot_S1x1024_S1024x1024_S1x1024_1_1_0_0_n_n none a B (constant S1x1024 .f32 0x00000000#32) (ix2 0 j)
      = ∑ k : Fin 1024, a (ix2 0 k) * B (ix2 j k) :=
  DotNT.matmul_zero_apply (M := 1) (K := 1024) (N := 1024) dot_S1x1024_S1024x1024_S1x1024_1_1_0_0_n_n_wf none a B 0 j

/-- The 1 × 20 weights against the columns of a 20 × 1024 matrix. -/
theorem dot_mix (a : FVec Ideal S1x20 φ₁) (B : FVec Ideal S20x1024 φ₂) (k : Fin 1024) :
    matmul dot_S1x20_S20x1024_S1x1024_1_0_0_1_n_n none a B (constant S1x1024 .f32 0x00000000#32) (ix2 0 k)
      = ∑ l : Fin 20, a (ix2 0 l) * B (ix2 l k) :=
  PlainDot.matmul_zero_apply 1 20 1024 none a B 0 k

/-- The word 0xFF800000 is −∞. -/
theorem ofBits_neg_inf_f32 : Ideal.ofBits .f32 0xFF800000#32 = (⊥ : EReal) := by
  simp [Ideal.ofBits, Ideal.ieee]

/-- The row maximum, kept as a column and broadcast back along the row: at every position the fold of max from −∞. -/
theorem rowmax_col (L : FVec Ideal S1x20 .f32) (hφ : FKind.Formats .f32)
    (hacc : (0xFF800000#32 : BitVec 32) = FKind.maximumf.neutral .f32 hφ) (l : Fin 20) :
    broadcastTo S1x20 (shapeCast S1x1 (maximumf (broadcast S1 (FloatOps.ofBits (F := Ideal) .f32 0xFF800000#32))
        (multiReduction .maximumf [1] S1 L 0xFF800000#32 reduces_S1x20_S1 hφ hacc)) shapeCasts_S1_S1x1) broadcasts_S1x1_S1x20 (ix2 0 l)
      = Cert.Spec.rowMax fun l => L (ix2 0 l) := by
  refine (Columns.broadcastTo_a1_ab_apply _ _ 0 l).trans ?_
  refine (Columns.shapeCast_a_a1_apply _ _ 0 0).trans ?_
  show max (Ideal.ofBits .f32 0xFF800000#32) (multiReduction .maximumf [1] S1 L 0xFF800000#32 reduces_S1x20_S1 hφ hacc (ix1 0)) = _
  refine (congrArg (max (Ideal.ofBits .f32 0xFF800000#32))
    (Ideal.multiReduction_maximumf_single L _ reduces_S1x20_S1 hφ hacc (ix1 0))).trans ?_
  show max (Ideal.ofBits .f32 0xFF800000#32)
    ((Finset.univ : Finset (Fin 20)).fold max (Ideal.ofBits .f32 0xFF800000#32) (L ∘ reduces_S1x20_S1.lift (ix1 0))) = _
  rw [ofBits_neg_inf_f32, bot_sup_eq]
  unfold Cert.Spec.rowMax
  have e : (L ∘ reduces_S1x20_S1.lift (ix1 0)) = fun l => L (ix2 0 l) := funext fun k => congrArg L (lift_row k)
  rw [e]
  rfl

/-- The row sum, kept as a column and broadcast back along the row. -/
theorem rowsum_col (E : FVec Ideal S1x20 .f32) (hφ : FKind.Formats .f32)
    (hacc : (0x00000000#32 : BitVec 32) = FKind.add.neutral .f32 hφ) (l : Fin 20) :
    broadcastTo S1x20 (shapeCast S1x1 (multiReduction .add [1] S1 E 0x00000000#32 reduces_S1x20_S1 hφ hacc) shapeCasts_S1_S1x1)
        broadcasts_S1x1_S1x20 (ix2 0 l)
      = ∑ j : Fin 20, E (ix2 0 j) := by
  refine (Columns.broadcastTo_a1_ab_apply _ _ 0 l).trans ?_
  refine (Columns.shapeCast_a_a1_apply _ _ 0 0).trans ?_
  refine (Ideal.multiReduction_add_single E _ reduces_S1x20_S1 hφ hacc (ix1 0)).trans ?_
  show ∑ k : Fin 20, E (reduces_S1x20_S1.lift (ix1 0) k) = _
  exact Finset.sum_congr rfl fun k _ => congrArg E (lift_row k)

/-- The softmax of the one row of scores, as the kernel spells it: each score less the row maximum, exponentiated,
    divided by the row sum of those exponentials. -/
theorem softmax_vec (L : FVec Ideal S1x20 .f32) (hφ hφ' : FKind.Formats .f32)
    (hm : (0xFF800000#32 : BitVec 32) = FKind.maximumf.neutral .f32 hφ)
    (ha : (0x00000000#32 : BitVec 32) = FKind.add.neutral .f32 hφ') (l : Fin 20) :
    divf
        (exp (subf L (broadcastTo S1x20 (shapeCast S1x1 (maximumf (broadcast S1 (FloatOps.ofBits (F := Ideal) .f32 0xFF800000#32))
          (multiReduction .maximumf [1] S1 L 0xFF800000#32 reduces_S1x20_S1 hφ hm)) shapeCasts_S1_S1x1) broadcasts_S1x1_S1x20)))
        (broadcastTo S1x20 (shapeCast S1x1 (multiReduction .add [1] S1
          (exp (subf L (broadcastTo S1x20 (shapeCast S1x1 (maximumf (broadcast S1 (FloatOps.ofBits (F := Ideal) .f32 0xFF800000#32))
            (multiReduction .maximumf [1] S1 L 0xFF800000#32 reduces_S1x20_S1 hφ hm)) shapeCasts_S1_S1x1) broadcasts_S1x1_S1x20)))
          0x00000000#32 reduces_S1x20_S1 hφ' ha) shapeCasts_S1_S1x1) broadcasts_S1x1_S1x20)
        (ix2 0 l)
      = Cert.Spec.softmaxW (fun l => L (ix2 0 l)) l := by
  unfold Cert.Spec.softmaxW
  exact congrArg₂ Ideal.div
    (congrArg Ideal.exp (congrArg (L (ix2 0 l) - ·) (rowmax_col L hφ hm l)))
    ((rowsum_col _ hφ' ha l).trans (Finset.sum_congr rfl fun j _ =>
      congrArg Ideal.exp (congrArg (L (ix2 0 j) - ·) (rowmax_col L hφ hm j))))

/-- The embedding row as the kernel feeds it to the matrix unit is the row itself. -/
theorem pay2_apply (v0 : Vec Ideal S1x1024 .f32) (k : Fin 1024) : k0_pay2 (F := Ideal) v0 (ix2 0 k) = v0 (ix2 0 k) := by
  unfold k0_pay2
  show shapeCast S1x1024 v0 shapeCasts_S1x1024_S1x1024 (ix2 0 k) = _
  rw [shapeCast_self]

/-- The scores of the twenty positions in the kernel's form: the embedding row against the left half's rows, the
    hidden row against the right half's rows, and the bias. -/
theorem logit_apply (v0 v2 : Vec Ideal S1x1024 .f32) (v6 v8 : Vec Ideal S20x1024 .f32) (v13 : Vec Ideal S1x20 .f32) (l : Fin 20) :
    addf (addf
          (matmul dot_S1x1024_S20x1024_S1x20_1_1_0_0_n_n none (k0_pay2 (F := Ideal) v0) (truncf .bf16 v6 bitsLt_bf16_f32)
            (constant S1x20 .f32 0x00000000#32))
          (matmul dot_S1x1024_S20x1024_S1x20_1_1_0_0_n_n none
            (truncf .bf16 (shapeCast S1x1024 v2 shapeCasts_S1x1024_S1x1024) bitsLt_bf16_f32) (truncf .bf16 v8 bitsLt_bf16_f32)
            (constant S1x20 .f32 0x00000000#32)))
        (shapeCast S1x20 v13 shapeCasts_S1x20_S1x20) (ix2 0 l)
      = (∑ k : Fin 1024, v0 (ix2 0 k) * v6 (ix2 l k) + ∑ k : Fin 1024, v2 (ix2 0 k) * v8 (ix2 l k)) + v13 (ix2 0 l) :=
  congrArg₂ (· + ·)
    (congrArg₂ (· + ·)
      ((dot_row20 _ _ l).trans (Finset.sum_congr rfl fun k _ => congrArg (· * v6 (ix2 l k)) (pay2_apply v0 k)))
      ((dot_row20 _ _ l).trans (Finset.sum_congr rfl fun k _ =>
        congrArg (· * v8 (ix2 l k)) (congrFun (shapeCast_self v2 shapeCasts_S1x1024_S1x1024) (ix2 0 k)))))
    (congrFun (shapeCast_self v13 shapeCasts_S1x20_S1x20) (ix2 0 l))

/-- The attention payload at column k: the encoder outputs mixed by the softmax of the scores. -/
theorem pay3_apply (v0 v2 : Vec Ideal S1x1024 .f32) (v6 v8 : Vec Ideal S20x1024 .f32) (v13 : Vec Ideal S1x20 .f32)
    (v27 : Vec Ideal S20x1024 .f32) (k : Fin 1024) :
    k0_pay3 (F := Ideal) v0 v2 v6 v8 v13 v27 (ix2 0 k)
      = Cert.Spec.focused
          (Cert.Spec.softmaxW fun l =>
            (∑ k : Fin 1024, v0 (ix2 0 k) * v6 (ix2 l k) + ∑ k : Fin 1024, v2 (ix2 0 k) * v8 (ix2 l k)) + v13 (ix2 0 l))
          (fun l q => v27 (ix2 l q)) k := by
  unfold k0_pay3 Cert.Spec.focused
  refine (dot_mix _ _ k).trans ?_
  refine Finset.sum_congr rfl fun l _ => congrArg (· * v27 (ix2 l k)) ?_
  refine (softmax_vec _ _ _ _ _ l).trans ?_
  exact congrArg (fun L => Cert.Spec.softmaxW L l) (funext fun l => logit_apply v0 v2 v6 v8 v13 l)

/-- The combine payload at column j: two rows against row j of the two weight halves, the bias, rectified. -/
theorem pay1_apply (v4 v31 : FVec Ideal S1x1024 .bf16) (v33 v35 : FVec Ideal S1024x1024 .bf16) (v39 : Vec Ideal S1x1024 .f32)
    (j : Fin 1024) :
    k0_pay1 (F := Ideal) v4 v31 v33 v35 (constant S1x1024 .f32 0x00000000#32) v39 (ix2 0 j)
      = max ((∑ k : Fin 1024, v31 (ix2 0 k) * v33 (ix2 j k) + ∑ k : Fin 1024, v4 (ix2 0 k) * v35 (ix2 j k)) + v39 (ix2 0 j)) 0 := by
  unfold k0_pay1
  exact congrArg₂ max
    (congrArg₂ (· + ·) (congrArg₂ (· + ·) (dot_row1024 v31 v33 j) (dot_row1024 v4 v35 j))
      (congrFun (shapeCast_self v39 shapeCasts_S1x1024_S1x1024) (ix2 0 j)))
    Ideal.ofBits_zero_f32

theorem hz : (![0, 0] : Fin 2 → Nat) = fun _ => 0 := funext fun a => by fin_cases a <;> rfl

/-- The left half of a 20 × 2048 buffer read at (l, k) is the buffer at column k. -/
theorem ld_attnL (x3 : Vec Ideal S20x2048 .f32) (l : Fin 20) (k : Fin 1024) :
    View.ld x3 rAttnL (ix2 l k) = x3 (ix2 l (Cert.Spec.lo k)) := by
  show x3 (rAttnL.idx (ix2 l k)) = _
  refine congrArg x3 (funext fun a => Fin.ext ?_)
  match a with
  | ⟨0, _⟩ => show 0 + 1 * l.val = l.val; omega
  | ⟨1, _⟩ => show 0 + 1 * k.val = k.val; omega

/-- The right half of a 20 × 2048 buffer read at (l, k) is the buffer at column 1024 + k. -/
theorem ld_attnR (x3 : Vec Ideal S20x2048 .f32) (l : Fin 20) (k : Fin 1024) :
    View.ld x3 rAttnR (ix2 l k) = x3 (ix2 l (Cert.Spec.hi k)) := by
  show x3 (rAttnR.idx (ix2 l k)) = _
  refine congrArg x3 (funext fun a => Fin.ext ?_)
  match a with
  | ⟨0, _⟩ => show 0 + 1 * l.val = l.val; omega
  | ⟨1, _⟩ => show 1024 + 1 * k.val = 1024 + k.val; omega

/-- The left half of a 1024 × 2048 buffer read at (j, k). -/
theorem ld_combL (x5 : Vec Ideal S1024x2048 .f32) (j k : Fin 1024) :
    View.ld x5 rCombL (ix2 j k) = x5 (ix2 j (Cert.Spec.lo k)) := by
  show x5 (rCombL.idx (ix2 j k)) = _
  refine congrArg x5 (funext fun a => Fin.ext ?_)
  match a with
  | ⟨0, _⟩ => show 0 + 1 * j.val = j.val; omega
  | ⟨1, _⟩ => show 0 + 1 * k.val = k.val; omega

/-- The right half of a 1024 × 2048 buffer read at (j, k). -/
theorem ld_combR (x5 : Vec Ideal S1024x2048 .f32) (j k : Fin 1024) :
    View.ld x5 rCombR (ix2 j k) = x5 (ix2 j (Cert.Spec.hi k)) := by
  show x5 (rCombR.idx (ix2 j k)) = _
  refine congrArg x5 (funext fun a => Fin.ext ?_)
  match a with
  | ⟨0, _⟩ => show 0 + 1 * j.val = j.val; omega
  | ⟨1, _⟩ => show 1024 + 1 * k.val = 1024 + k.val; omega

/-- The body's payload at column j is the attention-and-combine stage of its seven input blocks. -/
theorem pay0_apply (x0 x1 : Vec Ideal S1x1024 .f32) (x2 : Vec Ideal S20x1024 .f32) (x3 : Vec Ideal S20x2048 .f32)
    (x4 : Vec Ideal S1x20 .f32) (x5 : Vec Ideal S1024x2048 .f32) (x6 : Vec Ideal S1x1024 .f32) (j : Fin 1024) :
    pay0 (F := Ideal) x0 x1 x2 x3 x4 x5 x6 (ix2 0 j)
      = Cert.Spec.gruIn (Cert.Spec.row (n := 1024) x0) (Cert.Spec.row (n := 1024) x1) (Cert.Spec.mat (a := 20) (b := 1024) x2)
          (Cert.Spec.mat (a := 20) (b := 2048) x3) (Cert.Spec.row (n := 20) x4) (Cert.Spec.mat (a := 1024) (b := 2048) x5)
          (Cert.Spec.row (n := 1024) x6) j := by
  unfold pay0
  simp only [View.ld_unit_zero (S := S1x1024) hz, View.ld_unit_zero (S := S20x1024) hz, View.ld_unit_zero (S := S1x20) hz]
  refine (pay1_apply _ _ _ _ _ j).trans ?_
  unfold Cert.Spec.gruIn Cert.Spec.combine
  refine congrArg₂ max (congrArg₂ (· + ·) (congrArg₂ (· + ·) ?_ ?_) rfl) rfl
  · refine Finset.sum_congr rfl fun k _ => congrArg₂ (· * ·) ?_ (ld_combL x5 j k)
    refine (pay3_apply x0 x1 _ _ x4 x2 k).trans ?_
    refine congrArg (fun L => Cert.Spec.focused (Cert.Spec.softmaxW L) (Cert.Spec.mat (a := 20) (b := 1024) x2) k)
      (funext fun l => ?_)
    unfold Cert.Spec.attnLogit
    exact congrArg₂ (· + ·)
      (congrArg₂ (· + ·)
        (Finset.sum_congr rfl fun k _ => congrArg (x0 (ix2 0 k) * ·) (ld_attnL x3 l k))
        (Finset.sum_congr rfl fun k _ => congrArg (x1 (ix2 0 k) * ·) (ld_attnR x3 l k)))
      rfl
  · exact Finset.sum_congr rfl fun k _ => congrArg₂ (· * ·) (pay2_apply x0 k) (ld_combR x5 j k)

variable (V : (c : Dev nD) → (b : Ref sig .tc) → Buf (Elt Ideal) ((c : Thread nD τ).loc b))

/-- Every window's block index is zero on both axes at every grid point (decided over the grid). -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The embedding's block is the whole embedding row. -/
theorem iblk0_0 (c : Dev nD) (t : Fin cfg0.N) : iblk0 (F := Ideal) V c 0 t = V c main_v0 := by
  obtain ⟨e0, e1, -⟩ := idx_facts0 t
  funext y
  show V c main_v0 (((cfg0.win 0).blk t).view.emb y) = V c main_v0 y
  refine congrArg _ (funext fun a => Fin.ext ?_)
  match a with
  | ⟨0, _⟩ => show win0_0.index t (0 : Fin 2) * 1 + 1 * (y 0).val = (y 0).val; omega
  | ⟨1, _⟩ => show win0_0.index t (1 : Fin 2) * 1024 + 1 * (y 1).val = (y 1).val; omega

/-- The hidden state's block is the whole hidden row. -/
theorem iblk0_1 (c : Dev nD) (t : Fin cfg0.N) : iblk0 (F := Ideal) V c 1 t = V c main_v1 := by
  obtain ⟨-, -, e0, e1, -, -, -, -, -, -, -, -, -, -, -, -⟩ := idx_facts0 t
  funext y
  show V c main_v1 (((cfg0.win 1).blk t).view.emb y) = V c main_v1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega

/-- The encoder outputs' block is the whole 20 × 1024 array. -/
theorem iblk0_2 (c : Dev nD) (t : Fin cfg0.N) : iblk0 (F := Ideal) V c 2 t = V c main_arg2 := by
  obtain ⟨-, -, -, -, e0, e1, -, -, -, -, -, -, -, -, -, -⟩ := idx_facts0 t
  funext y
  show V c main_arg2 (((cfg0.win 2).blk t).view.emb y) = V c main_arg2 y
  refine congrArg _ (funext fun a => Fin.ext ?_)
  match a with
  | ⟨0, _⟩ => show win0_2.index t (0 : Fin 2) * 20 + 1 * (y 0).val = (y 0).val; omega
  | ⟨1, _⟩ => show win0_2.index t (1 : Fin 2) * 1024 + 1 * (y 1).val = (y 1).val; omega

/-- The attention weight's block is the whole 20 × 2048 array. -/
theorem iblk0_3 (c : Dev nD) (t : Fin cfg0.N) : iblk0 (F := Ideal) V c 3 t = V c main_arg4 := by
  obtain ⟨-, -, -, -, -, -, e0, e1, -, -, -, -, -, -, -, -⟩ := idx_facts0 t
  funext y
  show V c main_arg4 (((cfg0.win 3).blk t).view.emb y) = V c main_arg4 y
  refine congrArg _ (funext fun a => Fin.ext ?_)
  match a with
  | ⟨0, _⟩ => show win0_3.index t (0 : Fin 2) * 20 + 1 * (y 0).val = (y 0).val; omega
  | ⟨1, _⟩ => show win0_3.index t (1 : Fin 2) * 2048 + 1 * (y 1).val = (y 1).val; omega

/-- The attention bias's block is the whole 1 × 20 row. -/
theorem iblk0_4 (c : Dev nD) (t : Fin cfg0.N) : iblk0 (F := Ideal) V c 4 t = V c main_v2 := by
  obtain ⟨-, -, -, -, -, -, -, -, e0, e1, -, -, -, -, -, -⟩ := idx_facts0 t
  funext y
  show V c main_v2 (((cfg0.win 4).blk t).view.emb y) = V c main_v2 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 20 + 1 * (y 1).val = (y 1).val; omega

/-- The combining weight's block is the whole 1024 × 2048 array. -/
theorem iblk0_5 (c : Dev nD) (t : Fin cfg0.N) : iblk0 (F := Ideal) V c 5 t = V c main_arg6 := by
  obtain ⟨-, -, -, -, -, -, -, -, -, -, e0, e1, -, -, -, -⟩ := idx_facts0 t
  funext y
  show V c main_arg6 (((cfg0.win 5).blk t).view.emb y) = V c main_arg6 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 2048 + 1 * (y 1).val = (y 1).val; omega

/-- The combining bias's block is the whole bias row. -/
theorem iblk0_6 (c : Dev nD) (t : Fin cfg0.N) : iblk0 (F := Ideal) V c 6 t = V c main_v3 := by
  obtain ⟨-, -, -, -, -, -, -, -, -, -, -, -, e0, e1, -, -⟩ := idx_facts0 t
  funext y
  show V c main_v3 (((cfg0.win 6).blk t).view.emb y) = V c main_v3 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- What the one grid point writes back is the whole-array function read through the result's block. -/
theorem flushed0_7_eq (c : Dev nD) (t : Fin cfg0.N) :
    (dat0 (F := Ideal) V c).flushed 7 t
      = ((cfg0.win 7).blk t).view.read (Elt Ideal) (fun i : S1x1024.Idx =>
          Cert.Spec.gruIn (Cert.Spec.row (n := 1024) (V c main_v0)) (Cert.Spec.row (n := 1024) (V c main_v1))
            (Cert.Spec.mat (a := 20) (b := 1024) (V c main_arg2)) (Cert.Spec.mat (a := 20) (b := 2048) (V c main_arg4))
            (Cert.Spec.row (n := 20) (V c main_v2)) (Cert.Spec.mat (a := 1024) (b := 2048) (V c main_arg6))
            (Cert.Spec.row (n := 1024) (V c main_v3)) (i 1)) := by
  show (cfg0.win 7).cut (grid0.coords t) ((dat0 (F := Ideal) V c).after 7 t) = _
  rw [after0_7]
  unfold out0_7
  rw [View.canon_unit_zero hz]
  rw [iblk0_0 V c t, iblk0_1 V c t, iblk0_2 V c t, iblk0_3 V c t, iblk0_4 V c t, iblk0_5 V c t, iblk0_6 V c t]
  funext y
  obtain ⟨p, q, rfl⟩ : ∃ (p : Fin 1) (q : Fin 1024), y = ix2 p q := ⟨y 0, y 1, eq_ix2 y⟩
  obtain rfl : p = 0 := Subsingleton.elim _ _
  obtain ⟨-, -, -, -, -, -, -, -, -, -, -, -, -, -, e0, e1⟩ := idx_facts0 t
  have hq : (((cfg0.win 7).blk t).view.emb (ix2 (0 : Fin 1) q)) 1 = q :=
    Fin.ext (by show win0_7.index t (1 : Fin 2) * 1024 + 1 * q.val = q.val; omega)
  show pay0 (F := Ideal) (V c main_v0) (V c main_v1) (V c main_arg2) (V c main_arg4) (V c main_v2) (V c main_arg6) (V c main_v3) (ix2 0 q) = _
  refine (pay0_apply _ _ _ _ _ _ _ q).trans ?_
  exact (congrArg _ hq).symm

/-- Every index of the result is in the one point's block. -/
theorem cover0_7 (i : S1x1024.Idx) :
    ∃ t : Fin cfg0.N, (cfg0.win 7).flush t = true ∧ i ∈ ((cfg0.win 7).blk t).view.set := by
  refine ⟨t0_0, flush0_7 t0_0, ?_⟩
  obtain ⟨-, -, -, -, -, -, -, -, -, -, -, -, -, -, e0, e1⟩ := idx_facts0 t0_0
  show i ∈ ((View.whole main_v7).slice (win0_7.rect t0_0)).set
  rw [View.set_slice_whole, Rect.mem_set_unit]
  intro a
  match a with
  | ⟨0, _⟩ =>
    show win0_7.index t0_0 (0 : Fin 2) * 1 ≤ (i 0).val ∧ (i 0).val < win0_7.index t0_0 (0 : Fin 2) * 1 + 1
    have := idx2_lt0 i; omega
  | ⟨1, _⟩ =>
    show win0_7.index t0_0 (1 : Fin 2) * 1024 ≤ (i 1).val ∧ (i 1).val < win0_7.index t0_0 (1 : Fin 2) * 1024 + 1024
    have := idx2_lt1 i; omega

end Val0

open Val0

variable (V : (c : Dev nD) → (b : Ref sig .tc) → Buf (Elt Ideal) ((c : Thread nD τ).loc b))

/-- Entry j of the GRU input row the first launch leaves. -/
theorem arr0_val (c : Dev nD) (j : Fin 1024) :
    ((dat0 (F := Ideal) V c).arrAt 7 cfg0.N : S1x1024.Idx → EReal) (ix2 0 j)
      = Cert.Spec.gruIn (Cert.Spec.row (n := 1024) (V c main_v0)) (Cert.Spec.row (n := 1024) (V c main_v1))
          (Cert.Spec.mat (a := 20) (b := 1024) (V c main_arg2)) (Cert.Spec.mat (a := 20) (b := 2048) (V c main_arg4))
          (Cert.Spec.row (n := 20) (V c main_v2)) (Cert.Spec.mat (a := 1024) (b := 2048) (V c main_arg6))
          (Cert.Spec.row (n := 1024) (V c main_v3)) j :=
  congrFun ((dat0 (F := Ideal) V c).arrAt_eq_of_cover 7 _ (fun t _ => flushed0_7_eq V c t) cover0_7) (ix2 0 j)

end Cert.KernelIdeal.Hand

end
-- ==== Proof.Val1.lean ====
/-
  What the second launch leaves in its two result arrays, over the extended reals: the gate pre-activations as affine
  rows. Point g writes columns 1024·g … 1024·g + 1023 of each result from rows 1024·g … of the weight and the same
  columns of the bias, so the three points' blocks tile the 3072 columns and entry q of a result is the input row
  against row q of the whole weight, plus entry q of the bias.
-/
import proofs.«408449_j11519102288461_3_alg».proof.Proof.R1Defs
import proofs.«408449_j11519102288461_3_alg».proof.Proof.Spec
import proofs.«408449_j11519102288461_3_alg».proof.Proof.LibDotNT
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

namespace Gate

/-! ## The payloads at a column: truncations to bf16 and same-shape casts change nothing at the ideal values, the
    product into the zero accumulator is the row against a row of the weight block, and the bias block is added. -/

theorem hz1 : (![0, 0] : Fin 2 → Nat) = fun _ => 0 := funext fun a => by fin_cases a <;> rfl

/-- The gate's product into a zero accumulator, at column q: the row against row q of the weight block. -/
theorem gate_matmul (l : FVec Ideal S1x1024 .bf16) (r : FVec Ideal S1024x1024 .bf16) (q : Fin 1024) :
    matmul dot_S1x1024_S1024x1024_S1x1024_1_1_0_0_n_n none l r (constant (F := Ideal) S1x1024 .f32 0x00000000#32) (ix2 0 q)
      = ∑ k : Fin 1024, l (ix2 0 k) * r (ix2 q k) :=
  DotNT.matmul_zero_apply (M := 1) (K := 1024) (N := 1024) dot_S1x1024_S1024x1024_S1x1024_1_1_0_0_n_n_wf none l r 0 q

/-- The first payload at column q. -/
theorem pay1_apply (x0 : Vec Ideal S1x1024 .f32) (x2 : Vec Ideal S1024x1024 .f32) (x4 : Vec Ideal S1x1024 .f32) (q : Fin 1024) :
    (k1_pay1 (F := Ideal) x0 x2 x4 : S1x1024.Idx → EReal) (ix2 0 q)
      = (∑ k : Fin 1024, x0 (ix2 0 k) * x2 (ix2 q k)) + x4 (ix2 0 q) := by
  unfold k1_pay1
  simp only [shapeCast_self]
  rw [addf_apply]
  exact congrArg₂ (· + ·) (gate_matmul _ _ q) rfl

/-- What the body leaves in the first result's staging buffer, at column q. -/
theorem out1_6_apply (x0 : Vec Ideal S1x1024 .f32) (x2 : Vec Ideal S1024x1024 .f32) (x4 : Vec Ideal S1x1024 .f32) (q : Fin 1024) :
    (out1_6 (F := Ideal) x0 x2 x4 : S1x1024.Idx → EReal) (ix2 0 q)
      = (∑ k : Fin 1024, x0 (ix2 0 k) * x2 (ix2 q k)) + x4 (ix2 0 q) := by
  unfold out1_6
  rw [View.canon_unit_zero hz1]
  simp only [View.ld_unit_zero (S := S1x1024) hz1, View.ld_unit_zero (S := S1024x1024) hz1]
  exact pay1_apply x0 x2 x4 q

/-- The second payload at column q. -/
theorem pay2_apply (x1 : Vec Ideal S1x1024 .f32) (x3 : Vec Ideal S1024x1024 .f32) (x5 : Vec Ideal S1x1024 .f32) (q : Fin 1024) :
    (k1_pay2 (F := Ideal) x1 x3 x5 : S1x1024.Idx → EReal) (ix2 0 q)
      = (∑ k : Fin 1024, x1 (ix2 0 k) * x3 (ix2 q k)) + x5 (ix2 0 q) := by
  unfold k1_pay2
  simp only [shapeCast_self]
  rw [addf_apply]
  exact congrArg₂ (· + ·) (gate_matmul _ _ q) rfl

/-- What the body leaves in the second result's staging buffer, at column q. -/
theorem out1_7_apply (x1 : Vec Ideal S1x1024 .f32) (x3 : Vec Ideal S1024x1024 .f32) (x5 : Vec Ideal S1x1024 .f32) (q : Fin 1024) :
    (out1_7 (F := Ideal) x1 x3 x5 : S1x1024.Idx → EReal) (ix2 0 q)
      = (∑ k : Fin 1024, x1 (ix2 0 k) * x3 (ix2 q k)) + x5 (ix2 0 q) := by
  unfold out1_7
  rw [View.canon_unit_zero hz1]
  simp only [View.ld_unit_zero (S := S1x1024) hz1, View.ld_unit_zero (S := S1024x1024) hz1]
  exact pay2_apply x1 x3 x5 q

/-! ## The first result: from the three points' blocks to the array -/

/-- The whole first result: at column i₁ the input row against row i₁ of the whole weight, plus the bias there. -/
def giAll (c : Dev nD) : S1x3072.Idx → EReal := fun i =>
  Cert.Spec.affine (Cert.Spec.row (n := 1024) (V c main_v7)) (Cert.Spec.mat (a := 3072) (b := 1024) (V c main_arg8))
    (Cert.Spec.row (n := 3072) (V c main_v4)) (i 1)

/-- The printed index maps over the three points: the row windows stay at block 0, the weight's block row and the
    bias's and result's block column are the point. -/
theorem idx_facts6 : ∀ t : Fin cfg1.N,
    win1_0.index t (0 : Fin 2) = 0 ∧ win1_0.index t (1 : Fin 2) = 0
    ∧ win1_2.index t (0 : Fin 2) = t.val ∧ win1_2.index t (1 : Fin 2) = 0
    ∧ win1_4.index t (0 : Fin 2) = 0 ∧ win1_4.index t (1 : Fin 2) = t.val
    ∧ win1_6.index t (0 : Fin 2) = 0 ∧ win1_6.index t (1 : Fin 2) = t.val ∧ t.val < 3 :=
  (by decide +kernel : ∀ t : Fin grid1.N, _)

/-- Every block column of the result is some point's. -/
theorem idx_onto6 : ∀ g : Fin 3, ∃ t : Fin cfg1.N, win1_6.index t = ![0, g.val] :=
  (by decide +kernel : ∀ g : Fin 3, ∃ t : Fin grid1.N, win1_6.index t = ![0, g.val])

/-- The input row's block is the whole row at every point. -/
theorem iblk1_0_apply (c : Dev nD) (t : Fin cfg1.N) (k : Fin 1024) :
    (iblk1 (F := Ideal) V c 0 t : S1x1024.Idx → EReal) (ix2 0 k) = Cert.Spec.row (n := 1024) (V c main_v7) k := by
  obtain ⟨e00, e01, -⟩ := idx_facts6 t
  show V c main_v7 (((cfg1.win 0).blk t).view.emb (ix2 0 k)) = V c main_v7 (ix2 0 k)
  refine congrArg (V c main_v7) ?_
  funext a; apply Fin.ext
  match a with
  | ⟨0, _⟩ => show win1_0.index t (0 : Fin 2) * 1 + 1 * 0 = 0; omega
  | ⟨1, _⟩ => show win1_0.index t (1 : Fin 2) * 1024 + 1 * k.val = k.val; omega

/-- Point t's block of the first weight is its rows 1024·t … -/
theorem iblk1_2_apply (c : Dev nD) (t : Fin cfg1.N) (q k : Fin 1024) (h : 1024 * t.val + q.val < 3072) :
    (iblk1 (F := Ideal) V c 2 t : S1024x1024.Idx → EReal) (ix2 q k)
      = Cert.Spec.mat (a := 3072) (b := 1024) (V c main_arg8) ⟨1024 * t.val + q.val, h⟩ k := by
  obtain ⟨-, -, e20, e21, -⟩ := idx_facts6 t
  show V c main_arg8 (((cfg1.win 2).blk t).view.emb (ix2 q k)) = V c main_arg8 (ix2 ⟨1024 * t.val + q.val, h⟩ k)
  refine congrArg (V c main_arg8) ?_
  funext a; apply Fin.ext
  match a with
  | ⟨0, _⟩ => show win1_2.index t (0 : Fin 2) * 1024 + 1 * q.val = 1024 * t.val + q.val; omega
  | ⟨1, _⟩ => show win1_2.index t (1 : Fin 2) * 1024 + 1 * k.val = k.val; omega

/-- Point t's block of the first bias is its columns 1024·t … -/
theorem iblk1_4_apply (c : Dev nD) (t : Fin cfg1.N) (q : Fin 1024) (h : 1024 * t.val + q.val < 3072) :
    (iblk1 (F := Ideal) V c 4 t : S1x1024.Idx → EReal) (ix2 0 q)
      = Cert.Spec.row (n := 3072) (V c main_v4) ⟨1024 * t.val + q.val, h⟩ := by
  obtain ⟨-, -, -, -, e40, e41, -⟩ := idx_facts6 t
  show V c main_v4 (((cfg1.win 4).blk t).view.emb (ix2 0 q)) = V c main_v4 (ix2 0 ⟨1024 * t.val + q.val, h⟩)
  refine congrArg (V c main_v4) ?_
  funext a; apply Fin.ext
  match a with
  | ⟨0, _⟩ => show win1_4.index t (0 : Fin 2) * 1 + 1 * 0 = 0; omega
  | ⟨1, _⟩ => show win1_4.index t (1 : Fin 2) * 1024 + 1 * q.val = 1024 * t.val + q.val; omega

/-- Column q of point t's block of the first result is column 1024·t + q of the result. -/
theorem emb1_6 (t : Fin cfg1.N) (q : Fin 1024) (h : 1024 * t.val + q.val < 3072) :
    ((cfg1.win 6).blk t).view.emb (ix2 0 q) = (ix2 0 ⟨1024 * t.val + q.val, h⟩ : S1x3072.Idx) := by
  obtain ⟨-, -, -, -, -, -, e60, e61, -⟩ := idx_facts6 t
  funext a; apply Fin.ext
  match a with
  | ⟨0, _⟩ => show win1_6.index t (0 : Fin 2) * 1 + 1 * 0 = 0; omega
  | ⟨1, _⟩ => show win1_6.index t (1 : Fin 2) * 1024 + 1 * q.val = 1024 * t.val + q.val; omega

/-- What point t writes back into the first result is block t of the whole result. -/
theorem flushed6_eq (c : Dev nD) (t : Fin cfg1.N) :
    (dat1 (F := Ideal) V c).flushed 6 t = ((cfg1.win 6).blk t).view.read (Elt Ideal) (giAll V c) := by
  show (cfg1.win 6).cut (grid1.coords t) ((dat1 (F := Ideal) V c).after 6 t) = _
  rw [after1_6]
  have ht : t.val < 3 := (idx_facts6 t).2.2.2.2.2.2.2.2
  funext j
  obtain ⟨p, q, rfl⟩ : ∃ (p : Fin 1) (q : Fin 1024), j = ix2 p q := ⟨j 0, j 1, eq_ix2 j⟩
  obtain rfl : p = 0 := Subsingleton.elim _ _
  have hq : 1024 * t.val + q.val < 3072 := by have := q.isLt; omega
  show (out1_6 (F := Ideal) (iblk1 V c 0 t) (iblk1 V c 2 t) (iblk1 V c 4 t) : S1x1024.Idx → EReal) (ix2 0 q) = giAll V c (((cfg1.win 6).blk t).view.emb (ix2 0 q))
  rw [out1_6_apply, emb1_6 t q hq, iblk1_4_apply V c t q hq]
  refine congrArg₂ (· + ·) (Finset.sum_congr rfl fun k _ => ?_) rfl
  rw [iblk1_0_apply V c t k, iblk1_2_apply V c t q k hq]

/-- An index of the first result is in point t's block iff each coordinate is in the block's range. -/
theorem mem_blk6 (t : Fin cfg1.N) (i : S1x3072.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_v8_0).slice (win1_6.rect t)).set ↔ _
  rw [View.set_slice_whole, Rect.mem_set_unit]
  exact Iff.rfl

/-- The three blocks tile the 3072 columns: column i₁ is in the block of point i₁ / 1024. -/
theorem cover6 (i : S1x3072.Idx) : ∃ t : Fin cfg1.N, (cfg1.win 6).flush t = true ∧ i ∈ ((cfg1.win 6).blk t).view.set := by
  have hi0 : (i 0).val < 1 := (i 0).isLt
  have hi1 : (i 1).val < 3072 := (i 1).isLt
  obtain ⟨t, ht⟩ := idx_onto6 ⟨(i 1).val / 1024, by omega⟩
  have q0 : win1_6.index t (0 : Fin 2) = 0 := congrFun ht 0
  have q1 : win1_6.index t (1 : Fin 2) = (i 1).val / 1024 := congrFun ht 1
  refine ⟨t, flush1_6 t, ?_⟩
  rw [mem_blk6]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 1024 ≤ (i 1).val ∧ (i 1).val < win1_6.index t (1 : Fin 2) * 1024 + 1024; omega

/-- The first result after the run. -/
theorem final6 (c : Dev nD) : (dat1 (F := Ideal) V c).arrAt 6 cfg1.N = giAll V c :=
  (dat1 (F := Ideal) V c).arrAt_eq_of_cover 6 (giAll V c) (fun t _ => flushed6_eq V c t) cover6

end Gate

/-- Entry q of the input-side gate pre-activations. -/
theorem arr1_gi (c : Dev nD) (q : Fin 3072) :
    ((dat1 (F := Ideal) V c).arrAt 6 cfg1.N : S1x3072.Idx → EReal) (ix2 0 q)
      = Cert.Spec.affine (Cert.Spec.row (n := 1024) (V c main_v7)) (Cert.Spec.mat (a := 3072) (b := 1024) (V c main_arg8))
          (Cert.Spec.row (n := 3072) (V c main_v4)) q := by
  rw [Gate.final6 V c]
  rfl

namespace Gate

/-! ## The second result -/

/-- The whole second result: at column i₁ the hidden state against row i₁ of the whole weight, plus the bias there. -/
def ghAll (c : Dev nD) : S1x3072.Idx → EReal := fun i =>
  Cert.Spec.affine (Cert.Spec.row (n := 1024) (V c main_v1)) (Cert.Spec.mat (a := 3072) (b := 1024) (V c main_arg9))
    (Cert.Spec.row (n := 3072) (V c main_v5)) (i 1)

/-- The same relations for the second result's windows: the row windows stay at block 0, the weight's block row and the
    bias's and result's block column are the point. -/
theorem idx_facts7 : ∀ t : Fin cfg1.N,
    win1_1.index t (0 : Fin 2) = 0 ∧ win1_1.index t (1 : Fin 2) = 0
    ∧ win1_3.index t (0 : Fin 2) = t.val ∧ win1_3.index t (1 : Fin 2) = 0
    ∧ win1_5.index t (0 : Fin 2) = 0 ∧ win1_5.index t (1 : Fin 2) = t.val
    ∧ win1_7.index t (0 : Fin 2) = 0 ∧ win1_7.index t (1 : Fin 2) = t.val ∧ t.val < 3 :=
  (by decide +kernel : ∀ t : Fin grid1.N, _)

/-- Every block column of the second result is some point's. -/
theorem idx_onto7 : ∀ g : Fin 3, ∃ t : Fin cfg1.N, win1_7.index t = ![0, g.val] :=
  (by decide +kernel : ∀ g : Fin 3, ∃ t : Fin grid1.N, win1_7.index t = ![0, g.val])

/-- The hidden state's block is the whole row at every point. -/
theorem iblk1_1_apply (c : Dev nD) (t : Fin cfg1.N) (k : Fin 1024) :
    (iblk1 (F := Ideal) V c 1 t : S1x1024.Idx → EReal) (ix2 0 k) = Cert.Spec.row (n := 1024) (V c main_v1) k := by
  obtain ⟨e10, e11, -⟩ := idx_facts7 t
  show V c main_v1 (((cfg1.win 1).blk t).view.emb (ix2 0 k)) = V c main_v1 (ix2 0 k)
  refine congrArg (V c main_v1) ?_
  funext a; apply Fin.ext
  match a with
  | ⟨0, _⟩ => show win1_1.index t (0 : Fin 2) * 1 + 1 * 0 = 0; omega
  | ⟨1, _⟩ => show win1_1.index t (1 : Fin 2) * 1024 + 1 * k.val = k.val; omega

/-- Point t's block of the second weight is its rows 1024·t … -/
theorem iblk1_3_apply (c : Dev nD) (t : Fin cfg1.N) (q k : Fin 1024) (h : 1024 * t.val + q.val < 3072) :
    (iblk1 (F := Ideal) V c 3 t : S1024x1024.Idx → EReal) (ix2 q k)
      = Cert.Spec.mat (a := 3072) (b := 1024) (V c main_arg9) ⟨1024 * t.val + q.val, h⟩ k := by
  obtain ⟨-, -, e30, e31, -⟩ := idx_facts7 t
  show V c main_arg9 (((cfg1.win 3).blk t).view.emb (ix2 q k)) = V c main_arg9 (ix2 ⟨1024 * t.val + q.val, h⟩ k)
  refine congrArg (V c main_arg9) ?_
  funext a; apply Fin.ext
  match a with
  | ⟨0, _⟩ => show win1_3.index t (0 : Fin 2) * 1024 + 1 * q.val = 1024 * t.val + q.val; omega
  | ⟨1, _⟩ => show win1_3.index t (1 : Fin 2) * 1024 + 1 * k.val = k.val; omega

/-- Point t's block of the second bias is its columns 1024·t … -/
theorem iblk1_5_apply (c : Dev nD) (t : Fin cfg1.N) (q : Fin 1024) (h : 1024 * t.val + q.val < 3072) :
    (iblk1 (F := Ideal) V c 5 t : S1x1024.Idx → EReal) (ix2 0 q)
      = Cert.Spec.row (n := 3072) (V c main_v5) ⟨1024 * t.val + q.val, h⟩ := by
  obtain ⟨-, -, -, -, e50, e51, -⟩ := idx_facts7 t
  show V c main_v5 (((cfg1.win 5).blk t).view.emb (ix2 0 q)) = V c main_v5 (ix2 0 ⟨1024 * t.val + q.val, h⟩)
  refine congrArg (V c main_v5) ?_
  funext a; apply Fin.ext
  match a with
  | ⟨0, _⟩ => show win1_5.index t (0 : Fin 2) * 1 + 1 * 0 = 0; omega
  | ⟨1, _⟩ => show win1_5.index t (1 : Fin 2) * 1024 + 1 * q.val = 1024 * t.val + q.val; omega

/-- Column q of point t's block of the second result is column 1024·t + q of the result. -/
theorem emb1_7 (t : Fin cfg1.N) (q : Fin 1024) (h : 1024 * t.val + q.val < 3072) :
    ((cfg1.win 7).blk t).view.emb (ix2 0 q) = (ix2 0 ⟨1024 * t.val + q.val, h⟩ : S1x3072.Idx) := by
  obtain ⟨-, -, -, -, -, -, e70, e71, -⟩ := idx_facts7 t
  funext a; apply Fin.ext
  match a with
  | ⟨0, _⟩ => show win1_7.index t (0 : Fin 2) * 1 + 1 * 0 = 0; omega
  | ⟨1, _⟩ => show win1_7.index t (1 : Fin 2) * 1024 + 1 * q.val = 1024 * t.val + q.val; omega

/-- What point t writes back into the second result is block t of the whole result. -/
theorem flushed7_eq (c : Dev nD) (t : Fin cfg1.N) :
    (dat1 (F := Ideal) V c).flushed 7 t = ((cfg1.win 7).blk t).view.read (Elt Ideal) (ghAll V c) := by
  show (cfg1.win 7).cut (grid1.coords t) ((dat1 (F := Ideal) V c).after 7 t) = _
  rw [after1_7]
  have ht : t.val < 3 := (idx_facts7 t).2.2.2.2.2.2.2.2
  funext j
  obtain ⟨p, q, rfl⟩ : ∃ (p : Fin 1) (q : Fin 1024), j = ix2 p q := ⟨j 0, j 1, eq_ix2 j⟩
  obtain rfl : p = 0 := Subsingleton.elim _ _
  have hq : 1024 * t.val + q.val < 3072 := by have := q.isLt; omega
  show (out1_7 (F := Ideal) (iblk1 V c 1 t) (iblk1 V c 3 t) (iblk1 V c 5 t) : S1x1024.Idx → EReal) (ix2 0 q) = ghAll V c (((cfg1.win 7).blk t).view.emb (ix2 0 q))
  rw [out1_7_apply, emb1_7 t q hq, iblk1_5_apply V c t q hq]
  refine congrArg₂ (· + ·) (Finset.sum_congr rfl fun k _ => ?_) rfl
  rw [iblk1_1_apply V c t k, iblk1_3_apply V c t q k hq]

/-- An index of the second result is in point t's block iff each coordinate is in the block's range. -/
theorem mem_blk7 (t : Fin cfg1.N) (i : S1x3072.Idx) :
    i ∈ ((cfg1.win 7).blk t).view.set ↔ ∀ a : Fin 2, win1_7.index t a * S1x1024.size a ≤ (i a).val ∧ (i a).val < win1_7.index t a * S1x1024.size a + S1x1024.size a := by
  show i ∈ ((View.whole main_v8_1).slice (win1_7.rect t)).set ↔ _
  rw [View.set_slice_whole, Rect.mem_set_unit]
  exact Iff.rfl

/-- The three blocks tile the second result's 3072 columns as well: column i₁ is in the block of point i₁ / 1024. -/
theorem cover7 (i : S1x3072.Idx) : ∃ t : Fin cfg1.N, (cfg1.win 7).flush t = true ∧ i ∈ ((cfg1.win 7).blk t).view.set := by
  have hi0 : (i 0).val < 1 := (i 0).isLt
  have hi1 : (i 1).val < 3072 := (i 1).isLt
  obtain ⟨t, ht⟩ := idx_onto7 ⟨(i 1).val / 1024, by omega⟩
  have q0 : win1_7.index t (0 : Fin 2) = 0 := congrFun ht 0
  have q1 : win1_7.index t (1 : Fin 2) = (i 1).val / 1024 := congrFun ht 1
  refine ⟨t, flush1_7 t, ?_⟩
  rw [mem_blk7]
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 1024 ≤ (i 1).val ∧ (i 1).val < win1_7.index t (1 : Fin 2) * 1024 + 1024; omega

/-- The second result after the run. -/
theorem final7 (c : Dev nD) : (dat1 (F := Ideal) V c).arrAt 7 cfg1.N = ghAll V c :=
  (dat1 (F := Ideal) V c).arrAt_eq_of_cover 7 (ghAll V c) (fun t _ => flushed7_eq V c t) cover7

end Gate

/-- Entry q of the hidden-side gate pre-activations. -/
theorem arr1_gh (c : Dev nD) (q : Fin 3072) :
    ((dat1 (F := Ideal) V c).arrAt 7 cfg1.N : S1x3072.Idx → EReal) (ix2 0 q)
      = Cert.Spec.affine (Cert.Spec.row (n := 1024) (V c main_v1)) (Cert.Spec.mat (a := 3072) (b := 1024) (V c main_arg9))
          (Cert.Spec.row (n := 3072) (V c main_v5)) q := by
  rw [Gate.final7 V c]
  rfl

end Cert.KernelIdeal.Hand

end
-- ==== Proof.Val2.lean ====
/-
  What the third launch leaves in its result array, over the extended reals: the vocabulary scores as an affine row.
  Point t writes columns 3584·t … of the result from rows 3584·t … of the weight and the same columns of the bias;
  the fifteenth block is cut to the array's last 81 columns, and the fifteen cut blocks tile the 50257 columns. A
  score column is a sum along its own row of the weight, so the moved columns do not see what the staging buffers
  hold past the arrays' ends.
-/
import proofs.«408449_j11519102288461_3_alg».proof.Proof.R2Defs
import proofs.«408449_j11519102288461_3_alg».proof.Proof.Spec
import proofs.«408449_j11519102288461_3_alg».proof.Proof.LibDotNT
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open scoped BigOperators

/-! ## One point's block of scores, column by column -/

/-- The offsets of a whole-buffer access are zero on both axes. -/
theorem vocab_zero_off : (![0, 0] : Fin 2 → Nat) = fun _ => 0 := funext fun a => by fin_cases a <;> rfl

/-- The product of the 1 × 1024 row with the transposed 3584 × 1024 buffer, into the zero accumulator, at column q: the
    row against row q of the buffer. -/
theorem vocab_matmul_apply (l : FVec Ideal S1x1024 .bf16) (r : FVec Ideal S3584x1024 .bf16) (q : Fin 3584) :
    matmul dot_S1x1024_S3584x1024_S1x3584_1_1_0_0_n_n none l r (constant (F := Ideal) S1x3584 .f32 0x00000000#32) (ix2 0 q)
      = ∑ k : Fin 1024, l (ix2 0 k) * r (ix2 q k) :=
  DotNT.matmul_zero_apply (M := 1) (K := 1024) (N := 3584) dot_S1x1024_S3584x1024_S1x3584_1_1_0_0_n_n.wf none l r 0 q

/-- Column q of what the body leaves in the result's buffer: the hidden row against row q of the weight's buffer, plus
    column q of the bias's buffer. Over the extended reals the two roundings to the narrower format are the identity,
    and so are the two reshapes to the same shape. -/
theorem vocab_out_apply (x0 : Vec Ideal S1x1024 .f32) (x1 : Vec Ideal S3584x1024 .f32) (x2 : Vec Ideal S1x3584 .f32) (q : Fin 3584) :
    (out2_3 (F := Ideal) x0 x1 x2 : S1x3584.Idx → EReal) (ix2 0 q)
      = (∑ k : Fin 1024, (x0 (ix2 0 k) : EReal) * x1 (ix2 q k)) + x2 (ix2 0 q) := by
  unfold out2_3
  rw [View.canon_unit_zero vocab_zero_off]
  simp only [View.ld_unit_zero (S := S1x1024) vocab_zero_off, View.ld_unit_zero (S := S3584x1024) vocab_zero_off,
    View.ld_unit_zero (S := S1x3584) vocab_zero_off]
  unfold k2_pay1
  refine (addf_apply _ _ _).trans ?_
  refine congrArg₂ (· + ·) ((vocab_matmul_apply _ _ q).trans ?_) (congrFun (shapeCast_self x2 _) _)
  refine Finset.sum_congr rfl fun k _ => congrArg₂ (· * ·) ?_ rfl
  exact congrFun (shapeCast_self x0 _) _

variable (V : (c : Dev nD) → (b : Ref sig .tc) → Buf (Elt Ideal) ((c : Thread nD τ).loc b))

/-! ## The blocks the point reads, where the transfers move them -/

/-- The index maps and the cuts, decided once over the fifteen points: the hidden row's block is always block (0, 0);
    the weight's block at point t is block (t, 0), the bias's and the result's block (0, t); the weight's block is cut
    on its rows exactly as the bias's and the result's are on their columns, to 3584 at the first fourteen points and
    to 81 at the last. -/
theorem vocab_idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_1.xsize (grid2.coords t) (0 : Fin 2) = win2_3.xsize (grid2.coords t) (1 : Fin 2)
    ∧ win2_1.xsize (grid2.coords t) (1 : Fin 2) = 1024
    ∧ win2_2.xsize (grid2.coords t) (0 : Fin 2) = 1
    ∧ win2_2.xsize (grid2.coords t) (1 : Fin 2) = win2_3.xsize (grid2.coords t) (1 : Fin 2)
    ∧ win2_3.xsize (grid2.coords t) (0 : Fin 2) = 1
    ∧ (t.val < 14 → win2_3.xsize (grid2.coords t) (1 : Fin 2) = 3584)
    ∧ (t.val = 14 → win2_3.xsize (grid2.coords t) (1 : Fin 2) = 81)
    ∧ t.val < 15 :=
  (by decide +kernel : ∀ t : Fin grid2.N, _)

/-- A filled block at an index the transfer moves is the moved part there. -/
theorem vocab_fill_apply {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The hidden row's block is the whole row at every point. -/
theorem vocab_hidden_blk (c : Dev nD) (t : Fin cfg2.N) (k : Fin 1024) :
    (iblk2 (F := Ideal) V c 0 t : S1x1024.Idx → EReal) (ix2 0 k) = V c main_v36 (ix2 0 k) := by
  obtain ⟨e00, e01, -⟩ := vocab_idx_facts t
  show V c main_v36 (((cfg2.win 0).blk t).view.emb (ix2 0 k)) = _
  refine congrArg _ ?_
  funext a; apply Fin.ext
  match a with
  | ⟨0, _⟩ => show win2_0.index t (0 : Fin 2) * 1 + 1 * 0 = 0; omega
  | ⟨1, _⟩ => show win2_0.index t (1 : Fin 2) * 1024 + 1 * k.val = k.val; omega

/-- Row q of the weight's filled block, at a row the transfer moves — row q is moved exactly when column q of the
    result is —, is row 3584·t + q of the weight. -/
theorem vocab_weight_blk (c : Dev nD) (t : Fin cfg2.N) (q : Fin 3584) (k : Fin 1024)
    (hq : q.val < win2_3.xsize (grid2.coords t) (1 : Fin 2)) (Q : Fin 50257) (hQ : Q.val = t.val * 3584 + q.val) :
    (wfull2 (F := Ideal) V c t : S3584x1024.Idx → EReal) (ix2 q k) = V c main_arg12 (ix2 Q k) := by
  obtain ⟨-, -, e10, e11, -, -, -, -, x10, x11, -⟩ := vocab_idx_facts t
  have hm : ∀ a : Fin 2, ((ix2 q k : S3584x1024.Idx) a).val < win2_1.xsize (grid2.coords t) a := fun a =>
    match a with
    | ⟨0, _⟩ => by show q.val < win2_1.xsize (grid2.coords t) (0 : Fin 2); omega
    | ⟨1, _⟩ => by show k.val < win2_1.xsize (grid2.coords t) (1 : Fin 2); have := k.isLt; omega
  unfold wfull2
  refine (vocab_fill_apply win2_1 (grid2.coords t) _ _ (ix2 q k) hm).trans ?_
  show V c main_arg12 (((cfg2.win 1).blk t).view.emb _) = _
  refine congrArg _ ?_
  funext a; apply Fin.ext
  match a with
  | ⟨0, _⟩ => show win2_1.index t (0 : Fin 2) * 3584 + 1 * q.val = Q.val; omega
  | ⟨1, _⟩ => show win2_1.index t (1 : Fin 2) * 1024 + 1 * k.val = k.val; omega

/-- Column q of the bias's filled block, at a column the transfer moves, is column 3584·t + q of the bias. -/
theorem vocab_bias_blk (c : Dev nD) (t : Fin cfg2.N) (q : Fin 3584)
    (hq : q.val < win2_3.xsize (grid2.coords t) (1 : Fin 2)) (Q : Fin 50257) (hQ : Q.val = t.val * 3584 + q.val) :
    (bfull2 (F := Ideal) V c t : S1x3584.Idx → EReal) (ix2 0 q) = V c main_v6 (ix2 0 Q) := by
  obtain ⟨-, -, -, -, e20, e21, -, -, -, -, x20, x21, -⟩ := vocab_idx_facts t
  have hm : ∀ a : Fin 2, ((ix2 0 q : S1x3584.Idx) a).val < win2_2.xsize (grid2.coords t) a := fun a =>
    match a with
    | ⟨0, _⟩ => by show 0 < win2_2.xsize (grid2.coords t) (0 : Fin 2); omega
    | ⟨1, _⟩ => by show q.val < win2_2.xsize (grid2.coords t) (1 : Fin 2); omega
  unfold bfull2
  refine (vocab_fill_apply win2_2 (grid2.coords t) _ _ (ix2 0 q) hm).trans ?_
  show V c main_v6 (((cfg2.win 2).blk t).view.emb _) = _
  refine congrArg _ ?_
  funext a; apply Fin.ext
  match a with
  | ⟨0, _⟩ => show win2_2.index t (0 : Fin 2) * 1 + 1 * 0 = 0; omega
  | ⟨1, _⟩ => show win2_2.index t (1 : Fin 2) * 3584 + 1 * q.val = Q.val; omega

/-! ## From the fifteen cut blocks to the array -/

/-- The score of every word, as one function of the result array's index. -/
def vocabScores (c : Dev nD) : S1x50257.Idx → EReal := fun i =>
  Cert.Spec.affine (Cert.Spec.row (n := 1024) (V c main_v36)) (Cert.Spec.mat (a := 50257) (b := 1024) (V c main_arg12))
    (Cert.Spec.row (n := 50257) (V c main_v6)) ⟨(i 1).val, idx2_lt1 i⟩

/-- What point t writes back is the score row read through the point's cut block: a moved column q of the buffer is
    column 3584·t + q of the array, its sum runs along row q of the weight's buffer, which is the weight's row
    3584·t + q, and its bias entry is the bias's column 3584·t + q. -/
theorem vocab_flushed_eq (c : Dev nD) (t : Fin cfg2.N) :
    (dat2 (F := Ideal) V c).flushed 3 t = ((cfg2.win 3).blk t).view.read (Elt Ideal) (vocabScores V c) := by
  show (cfg2.win 3).cut (grid2.coords t) ((dat2 (F := Ideal) V c).after 3 t) = _
  rw [after2_3]
  obtain ⟨-, -, -, -, -, -, e30, e31, -, -, -, -, x30, x31, x31', ht⟩ := vocab_idx_facts t
  funext j
  have hj0 : (j 0).val < win2_3.xsize (grid2.coords t) (0 : Fin 2) := (j 0).isLt
  have hj1 : (j 1).val < win2_3.xsize (grid2.coords t) (1 : Fin 2) := (j 1).isLt
  have hq : (j 1).val < 3584 := by omega
  have hQ : t.val * 3584 + (j 1).val < 50257 := by omega
  have hx : win2_3.xinj (grid2.coords t) j = ix2 (0 : Fin 1) (⟨(j 1).val, hq⟩ : Fin 3584) := by
    funext a; apply Fin.ext
    match a with
    | ⟨0, _⟩ => show (j 0).val = 0; omega
    | ⟨1, _⟩ => rfl
  have hy : ((cfg2.win 3).blk t).view.emb j = ix2 (0 : Fin 1) (⟨t.val * 3584 + (j 1).val, hQ⟩ : Fin 50257) := by
    funext a; apply Fin.ext
    match a with
    | ⟨0, _⟩ => show win2_3.index t (0 : Fin 2) * 1 + 1 * (j 0).val = 0; omega
    | ⟨1, _⟩ => show win2_3.index t (1 : Fin 2) * 3584 + 1 * (j 1).val = t.val * 3584 + (j 1).val; omega
  show out2_3 (iblk2 V c 0 t) (wfull2 V c t) (bfull2 V c t) (win2_3.xinj (grid2.coords t) j)
    = vocabScores V c (((cfg2.win 3).blk t).view.emb j)
  rw [hx, hy]
  refine (vocab_out_apply (iblk2 V c 0 t) (wfull2 V c t) (bfull2 V c t) ⟨(j 1).val, hq⟩).trans ?_
  refine congrArg₂ (· + ·) (Finset.sum_congr rfl fun k _ => congrArg₂ (· * ·) ?_ ?_) ?_
  · exact vocab_hidden_blk V c t k
  · exact vocab_weight_blk V c t ⟨(j 1).val, hq⟩ k hj1 ⟨t.val * 3584 + (j 1).val, hQ⟩ rfl
  · exact vocab_bias_blk V c t ⟨(j 1).val, hq⟩ hj1 ⟨t.val * 3584 + (j 1).val, hQ⟩ rfl

/-- An index of the result array is in point t's cut block iff each coordinate is in the block's range. -/
theorem vocab_mem_blk (t : Fin cfg2.N) (i : S1x50257.Idx) :
    i ∈ ((cfg2.win 3).blk t).view.set ↔ ∀ a : Fin 2, win2_3.index t a * S1x3584.size a ≤ (i a).val
      ∧ (i a).val < win2_3.index t a * S1x3584.size a + win2_3.xsize (grid2.coords t) a := by
  show i ∈ ((View.whole main_v37).slice (win2_3.rect t)).set ↔ _
  rw [View.set_slice_whole, Rect.mem_set_unit]
  exact Iff.rfl

/-- The fifteen cut blocks cover the 50257 columns: column q lies in block q / 3584, and 14 · 3584 + 81 = 50257. -/
theorem vocab_cover (i : S1x50257.Idx) :
    ∃ t : Fin cfg2.N, (cfg2.win 3).flush t = true ∧ i ∈ ((cfg2.win 3).blk t).view.set := by
  have h0 : (i 0).val < 1 := idx2_lt0 i
  have h1 : (i 1).val < 50257 := idx2_lt1 i
  have hN : (i 1).val / 3584 < cfg2.N := by show (i 1).val / 3584 < 15; omega
  obtain ⟨-, -, -, -, -, -, e30, e31, -, -, -, -, x30, x31, x31', -⟩ := vocab_idx_facts ⟨(i 1).val / 3584, hN⟩
  refine ⟨⟨(i 1).val / 3584, hN⟩, flush2_3 _, ?_⟩
  rw [vocab_mem_blk]
  intro a
  match a with
  | ⟨0, _⟩ =>
    show win2_3.index ⟨(i 1).val / 3584, hN⟩ (0 : Fin 2) * 1 ≤ (i 0).val
      ∧ (i 0).val < win2_3.index ⟨(i 1).val / 3584, hN⟩ (0 : Fin 2) * 1 + win2_3.xsize (grid2.coords ⟨(i 1).val / 3584, hN⟩) (0 : Fin 2)
    omega
  | ⟨1, _⟩ =>
    show win2_3.index ⟨(i 1).val / 3584, hN⟩ (1 : Fin 2) * 3584 ≤ (i 1).val
      ∧ (i 1).val < win2_3.index ⟨(i 1).val / 3584, hN⟩ (1 : Fin 2) * 3584 + win2_3.xsize (grid2.coords ⟨(i 1).val / 3584, hN⟩) (1 : Fin 2)
    have e31' : win2_3.index ⟨(i 1).val / 3584, hN⟩ (1 : Fin 2) = (i 1).val / 3584 := e31
    have c1 : (i 1).val / 3584 < 14 → win2_3.xsize (grid2.coords ⟨(i 1).val / 3584, hN⟩) (1 : Fin 2) = 3584 := x31
    have c2 : (i 1).val / 3584 = 14 → win2_3.xsize (grid2.coords ⟨(i 1).val / 3584, hN⟩) (1 : Fin 2) = 81 := x31'
    omega

/-- The result array after the launch is the score row. -/
theorem vocab_arr_eq (c : Dev nD) : (dat2 (F := Ideal) V c).arrAt 3 cfg2.N = vocabScores V c :=
  (dat2 (F := Ideal) V c).arrAt_eq_of_cover 3 (vocabScores V c) (fun t _ => vocab_flushed_eq V c t) (vocab_cover)

/-- Entry q of the score row. -/
theorem arr2_logits (c : Dev nD) (q : Fin 50257) :
    ((dat2 (F := Ideal) V c).arrAt 3 cfg2.N : S1x50257.Idx → EReal) (ix2 0 q)
      = Cert.Spec.affine (Cert.Spec.row (n := 1024) (V c main_v36)) (Cert.Spec.mat (a := 50257) (b := 1024) (V c main_arg12))
          (Cert.Spec.row (n := 50257) (V c main_v6)) q := by
  rw [vocab_arr_eq]
  rfl

end Cert.KernelIdeal.Hand

end
-- ==== Proof.KSide.lean ====
/-
  The program's two results over the extended reals, as functions of the fourteen argument arrays, and the idealized
  kernel's results equal to them: the embedding row, the GRU's input row, the two gate pre-activation rows, the new
  hidden state, the score row, and the log-softmax, each stage the mathematics of its launch or the shared host
  function of the stage before. Which contents each launch is entered with is walked back through the fold of buffer
  contents: an argument array reaches every boundary as launched, an input window's array leaves its launch as it
  entered, and the reshaped biases and hidden row written before the first launch reach the later launches unchanged.
-/
import proofs.«408449_j11519102288461_3_alg».proof.Proof.HostK
import proofs.«408449_j11519102288461_3_alg».proof.Proof.Val0
import proofs.«408449_j11519102288461_3_alg».proof.Proof.Val1
import proofs.«408449_j11519102288461_3_alg».proof.Proof.Val2
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## Rows and one-row arrays -/

/-- The 1 × n array with the given row. -/
def arr {n : Nat} (r : Fin n → EReal) : (⟨2, ![1, n]⟩ : Shape).Idx → EReal := fun i => r ⟨(i 1).val, idx2_lt1 i⟩

theorem row_arr {n : Nat} (r : Fin n → EReal) : Cert.Spec.row (arr r) = r := by
  funext k; rfl

/-- Two 1 × n arrays with the same row are equal. -/
theorem ext_row {n : Nat} {f g : (⟨2, ![1, n]⟩ : Shape).Idx → EReal} (h : ∀ k : Fin n, f (ix2 0 k) = g (ix2 0 k)) : f = g := by
  funext i
  have h0 : (i 0).val = 0 := by have := idx2_lt0 i; omega
  have hi : i = ix2 (0 : Fin 1) (i 1) := by
    refine (eq_ix2 i).trans ?_
    funext a
    match a with
    | ⟨0, _⟩ => exact Fin.ext h0
    | ⟨1, _⟩ => rfl
  rw [hi]; exact h _

theorem arr_row {n : Nat} (f : (⟨2, ![1, n]⟩ : Shape).Idx → EReal) : arr (Cert.Spec.row f) = f :=
  ext_row fun k => rfl

/-! ## The program's mathematics, stage by stage, from the arguments -/

section Whole

variable (x0 : (⟨S1, .i32⟩ : BufTy).Contents (Elt Ideal)) (x1 : (⟨S1x1x1024, .f32⟩ : BufTy).Contents (Elt Ideal))
  (x2 : (⟨S20x1024, .f32⟩ : BufTy).Contents (Elt Ideal)) (x3 : (⟨S50257x1024, .f32⟩ : BufTy).Contents (Elt Ideal))
  (x4 : (⟨S20x2048, .f32⟩ : BufTy).Contents (Elt Ideal)) (x5 : (⟨S20, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

/-- The previous hidden state's row. -/
def hidRow : Fin 1024 → EReal := fun k => x1 (ix3 (0 : Fin 1) (0 : Fin 1) k)
/-- The GRU's input row. -/
def gruInRow : Fin 1024 → EReal :=
  Cert.Spec.gruIn (Cert.Spec.row (n := 1024) (Glue.embRow x0 x3)) (hidRow x1) (Cert.Spec.mat (a := 20) (b := 1024) x2)
    (Cert.Spec.mat (a := 20) (b := 2048) x4) (Cert.Spec.vec (n := 20) x5) (Cert.Spec.mat (a := 1024) (b := 2048) x6)
    (Cert.Spec.vec (n := 1024) x7)
/-- The input-side and hidden-side gate pre-activation rows. -/
def giRow : Fin 3072 → EReal :=
  Cert.Spec.affine (gruInRow x0 x1 x2 x3 x4 x5 x6 x7) (Cert.Spec.mat (a := 3072) (b := 1024) x8) (Cert.Spec.vec (n := 3072) x10)
def ghRow : Fin 3072 → EReal :=
  Cert.Spec.affine (hidRow x1) (Cert.Spec.mat (a := 3072) (b := 1024) x9) (Cert.Spec.vec (n := 3072) x11)
/-- The new hidden state, a 1 × 1024 array. -/
def hNew : (⟨S1x1024, .f32⟩ : BufTy).Contents (Elt Ideal) :=
  Glue.gru (arr (giRow x0 x1 x2 x3 x4 x5 x6 x7 x8 x10)) (arr (ghRow x1 x9 x11)) (arr (hidRow x1))
/-- The score row. -/
def scoreRow : Fin 50257 → EReal :=
  Cert.Spec.affine (Cert.Spec.row (n := 1024) (hNew x0 x1 x2 x3 x4 x5 x6 x7 x8 x9 x10 x11))
    (Cert.Spec.mat (a := 50257) (b := 1024) x12) (Cert.Spec.vec (n := 50257) x13)
/-- The first result: the log-probabilities. -/
def out0 : (⟨S1x50257, .f32⟩ : BufTy).Contents (Elt Ideal) :=
  Glue.logSoftmax (arr (scoreRow x0 x1 x2 x3 x4 x5 x6 x7 x8 x9 x10 x11 x12 x13))
/-- The second result: the new hidden state with a unit axis added. -/
def out1 : (⟨S1x1x1024, .f32⟩ : BufTy).Contents (Elt Ideal) :=
  shapeCast S1x1x1024 (hNew x0 x1 x2 x3 x4 x5 x6 x7 x8 x9 x10 x11) shapeCasts_S1x1024_S1x1x1024

end Whole

/-! ## Which contents reach which boundary -/

variable (m : (ℓ : Loc nD τ sig) → Buf (Elt Ideal) ℓ) (c : Dev nD)

theorem W2_arg (r : Ref sig .tc) (h0 : r ∉ hostOps0_W) (h1 : r ∉ hostOps0_1_W) :
    W2 m c r = m ((c : Thread nD τ).loc r) :=
  (W2_keep m c r h1).trans ((W1_keep m c r h0).trans rfl)

/-- An input window's array leaves a launch as it entered. -/
theorem W3_in (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (V2 m) c).arrAt_in w hw _).trans (A_eq0 (V2 m) c w))
theorem W4_in (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- An array that is no window of the first two launches and that the middle stretch does not write reaches the
    third launch as the first launch found it. -/
theorem W5_far (r : Ref sig .tc) (h0 : ∀ w, Pipeline.arrRef spec0 w ≠ r) (h1 : ∀ w, Pipeline.arrRef spec1 w ≠ r)
    (h2 : r ∉ hostOps2_W) : W5 m c r = W2 m c r :=
  (W5_keep m c r h2).trans ((W4_of_ne m c r h1).trans (W3_of_ne m c r h0))

/-! ## The arguments, named -/

abbrev a0 : (⟨S1, .i32⟩ : BufTy).Contents (Elt Ideal) := m ((c : Thread nD τ).loc main_arg0)
abbrev a1 : (⟨S1x1x1024, .f32⟩ : BufTy).Contents (Elt Ideal) := m ((c : Thread nD τ).loc main_arg1)
abbrev a2 : (⟨S20x1024, .f32⟩ : BufTy).Contents (Elt Ideal) := m ((c : Thread nD τ).loc main_arg2)
abbrev a3 : (⟨S50257x1024, .f32⟩ : BufTy).Contents (Elt Ideal) := m ((c : Thread nD τ).loc main_arg3)
abbrev a4 : (⟨S20x2048, .f32⟩ : BufTy).Contents (Elt Ideal) := m ((c : Thread nD τ).loc main_arg4)
abbrev a5 : (⟨S20, .f32⟩ : BufTy).Contents (Elt Ideal) := m ((c : Thread nD τ).loc main_arg5)
abbrev a6 : (⟨S1024x2048, .f32⟩ : BufTy).Contents (Elt Ideal) := m ((c : Thread nD τ).loc main_arg6)
abbrev a7 : (⟨S1024, .f32⟩ : BufTy).Contents (Elt Ideal) := m ((c : Thread nD τ).loc main_arg7)
abbrev a8 : (⟨S3072x1024, .f32⟩ : BufTy).Contents (Elt Ideal) := m ((c : Thread nD τ).loc main_arg8)
abbrev a9 : (⟨S3072x1024, .f32⟩ : BufTy).Contents (Elt Ideal) := m ((c : Thread nD τ).loc main_arg9)
abbrev a10 : (⟨S3072, .f32⟩ : BufTy).Contents (Elt Ideal) := m ((c : Thread nD τ).loc main_arg10)
abbrev a11 : (⟨S3072, .f32⟩ : BufTy).Contents (Elt Ideal) := m ((c : Thread nD τ).loc main_arg11)
abbrev a12 : (⟨S50257x1024, .f32⟩ : BufTy).Contents (Elt Ideal) := m ((c : Thread nD τ).loc main_arg12)
abbrev a13 : (⟨S50257, .f32⟩ : BufTy).Contents (Elt Ideal) := m ((c : Thread nD τ).loc main_arg13)

/-! ## What the first launch is entered with -/

theorem in0_hid : Cert.Spec.row (n := 1024) (V2 m c main_v1) = hidRow (a1 m c) := by
  funext k
  show (W2 m c main_v1 : (⟨S1x1024, .f32⟩ : BufTy).Contents (Elt Ideal)) (ix2 0 k) = _
  rw [W2_main_v1]
  exact shapeCast_1ab_ab_apply _ _ 0 k

theorem in0_enc : (V2 m c main_arg2 : (⟨S20x1024, .f32⟩ : BufTy).Contents (Elt Ideal)) = a2 m c :=
  W2_arg m c main_arg2 (by decide) (by decide)
theorem in0_attnW : (V2 m c main_arg4 : (⟨S20x2048, .f32⟩ : BufTy).Contents (Elt Ideal)) = a4 m c :=
  W2_arg m c main_arg4 (by decide) (by decide)
theorem in0_combW : (V2 m c main_arg6 : (⟨S1024x2048, .f32⟩ : BufTy).Contents (Elt Ideal)) = a6 m c :=
  W2_arg m c main_arg6 (by decide) (by decide)
theorem in0_attnB : Cert.Spec.row (n := 20) (V2 m c main_v2) = Cert.Spec.vec (n := 20) (a5 m c) := by
  funext k
  show (W2 m c main_v2 : (⟨S1x20, .f32⟩ : BufTy).Contents (Elt Ideal)) (ix2 0 k) = _
  rw [W2_main_v2]
  exact shapeCast_a_1a_apply _ _ 0 k
theorem in0_combB : Cert.Spec.row (n := 1024) (V2 m c main_v3) = Cert.Spec.vec (n := 1024) (a7 m c) := by
  funext k
  show (W2 m c main_v3 : (⟨S1x1024, .f32⟩ : BufTy).Contents (Elt Ideal)) (ix2 0 k) = _
  rw [W2_main_v3]
  exact shapeCast_a_1a_apply _ _ 0 k

/-- The first launch's result is the GRU's input row, given the looked-up embedding row. -/
theorem k_gruIn (he : (W2 m c main_v0 : (⟨S1x1024, .f32⟩ : BufTy).Contents (Elt Ideal)) = Glue.embRow (a0 m c) (a3 m c)) :
    (W3 m c main_v7 : (⟨S1x1024, .f32⟩ : BufTy).Contents (Elt Ideal))
      = arr (gruInRow (a0 m c) (a1 m c) (a2 m c) (a3 m c) (a4 m c) (a5 m c) (a6 m c) (a7 m c)) := by
  refine ext_row fun j => ?_
  refine (congrFun (W3_arr m c 7) (ix2 0 j)).trans ?_
  refine (arr0_val (V2 m) c j).trans ?_
  show _ = gruInRow (a0 m c) (a1 m c) (a2 m c) (a3 m c) (a4 m c) (a5 m c) (a6 m c) (a7 m c) j
  unfold gruInRow
  rw [in0_hid, in0_enc, in0_attnW, in0_combW, in0_attnB, in0_combB]
  rw [show (V2 m c main_v0 : (⟨S1x1024, .f32⟩ : BufTy).Contents (Elt Ideal)) = Glue.embRow (a0 m c) (a3 m c) from he]

/-! ## What the second launch is entered with, and what it leaves -/

theorem in1_w (r : Ref sig .tc) (h0 : ∀ w, Pipeline.arrRef spec0 w ≠ r) (ha : r ∉ hostOps0_W) (hb : r ∉ hostOps0_1_W) :
    W3 m c r = m ((c : Thread nD τ).loc r) :=
  (W3_of_ne m c r h0).trans (W2_arg m c r ha hb)

theorem in1_bi : Cert.Spec.row (n := 3072) (V3 m c main_v4) = Cert.Spec.vec (n := 3072) (a10 m c) := by
  funext k
  show (W3 m c main_v4 : (⟨S1x3072, .f32⟩ : BufTy).Contents (Elt Ideal)) (ix2 0 k) = _
  rw [show (W3 m c main_v4 : (⟨S1x3072, .f32⟩ : BufTy).Contents (Elt Ideal)) = W2 m c main_v4 from W3_of_ne m c main_v4 (by decide), W2_main_v4]
  exact shapeCast_a_1a_apply _ _ 0 k
theorem in1_bh : Cert.Spec.row (n := 3072) (V3 m c main_v5) = Cert.Spec.vec (n := 3072) (a11 m c) := by
  funext k
  show (W3 m c main_v5 : (⟨S1x3072, .f32⟩ : BufTy).Contents (Elt Ideal)) (ix2 0 k) = _
  rw [show (W3 m c main_v5 : (⟨S1x3072, .f32⟩ : BufTy).Contents (Elt Ideal)) = W2 m c main_v5 from W3_of_ne m c main_v5 (by decide), W2_main_v5]
  exact shapeCast_a_1a_apply _ _ 0 k
theorem in1_hid : Cert.Spec.row (n := 1024) (V3 m c main_v1) = hidRow (a1 m c) := by
  rw [show (V3 m c main_v1 : (⟨S1x1024, .f32⟩ : BufTy).Contents (Elt Ideal)) = V2 m c main_v1 from W3_in m c 1 rfl]
  exact in0_hid m c

variable (he : (W2 m c main_v0 : (⟨S1x1024, .f32⟩ : BufTy).Contents (Elt Ideal)) = Glue.embRow (a0 m c) (a3 m c))
include he

theorem k_gi :
    (W4 m c main_v8_0 : (⟨S1x3072, .f32⟩ : BufTy).Contents (Elt Ideal))
      = arr (giRow (a0 m c) (a1 m c) (a2 m c) (a3 m c) (a4 m c) (a5 m c) (a6 m c) (a7 m c) (a8 m c) (a10 m c)) := by
  refine ext_row fun q => ?_
  refine (congrFun (W4_arr m c 6) (ix2 0 q)).trans ?_
  refine (arr1_gi (V3 m) c q).trans ?_
  show _ = giRow (a0 m c) (a1 m c) (a2 m c) (a3 m c) (a4 m c) (a5 m c) (a6 m c) (a7 m c) (a8 m c) (a10 m c) q
  unfold giRow
  rw [in1_bi, show (V3 m c main_arg8 : (⟨S3072x1024, .f32⟩ : BufTy).Contents (Elt Ideal)) = a8 m c from in1_w m c main_arg8 (by decide) (by decide) (by decide),
    show (V3 m c main_v7 : (⟨S1x1024, .f32⟩ : BufTy).Contents (Elt Ideal)) = _ from k_gruIn m c he, row_arr]

omit he in
theorem k_gh :
    (W4 m c main_v8_1 : (⟨S1x3072, .f32⟩ : BufTy).Contents (Elt Ideal)) = arr (ghRow (a1 m c) (a9 m c) (a11 m c)) := by
  refine ext_row fun q => ?_
  refine (congrFun (W4_arr m c 7) (ix2 0 q)).trans ?_
  refine (arr1_gh (V3 m) c q).trans ?_
  show _ = ghRow (a1 m c) (a9 m c) (a11 m c) q
  unfold ghRow
  rw [in1_bh, in1_hid, show (V3 m c main_arg9 : (⟨S3072x1024, .f32⟩ : BufTy).Contents (Elt Ideal)) = a9 m c from in1_w m c main_arg9 (by decide) (by decide) (by decide)]

/-! ## The new hidden state -/

omit he in
theorem in2_hid : (W4 m c main_v1 : (⟨S1x1024, .f32⟩ : BufTy).Contents (Elt Ideal)) = arr (hidRow (a1 m c)) := by
  rw [show (W4 m c main_v1 : (⟨S1x1024, .f32⟩ : BufTy).Contents (Elt Ideal)) = W3 m c main_v1 from W4_in m c 1 rfl,
    show (W3 m c main_v1 : (⟨S1x1024, .f32⟩ : BufTy).Contents (Elt Ideal)) = W2 m c main_v1 from W3_in m c 1 rfl,
    ← in0_hid m c, arr_row]

theorem k_hnew :
    (W5 m c main_v36 : (⟨S1x1024, .f32⟩ : BufTy).Contents (Elt Ideal))
      = hNew (a0 m c) (a1 m c) (a2 m c) (a3 m c) (a4 m c) (a5 m c) (a6 m c) (a7 m c) (a8 m c) (a9 m c) (a10 m c) (a11 m c) := by
  rw [W5_main_v36, k_gi m c he, k_gh m c, in2_hid m c]
  rfl

/-! ## The scores and the two results -/

omit he in
theorem in3_b : Cert.Spec.row (n := 50257) (V5 m c main_v6) = Cert.Spec.vec (n := 50257) (a13 m c) := by
  funext k
  show (W5 m c main_v6 : (⟨S1x50257, .f32⟩ : BufTy).Contents (Elt Ideal)) (ix2 0 k) = _
  rw [show (W5 m c main_v6 : (⟨S1x50257, .f32⟩ : BufTy).Contents (Elt Ideal)) = W2 m c main_v6 from
    W5_far m c main_v6 (by decide) (by decide) (by decide), W2_main_v6]
  exact shapeCast_a_1a_apply _ _ 0 k

theorem k_logits :
    (W6 m c main_v37 : (⟨S1x50257, .f32⟩ : BufTy).Contents (Elt Ideal))
      = arr (scoreRow (a0 m c) (a1 m c) (a2 m c) (a3 m c) (a4 m c) (a5 m c) (a6 m c) (a7 m c) (a8 m c) (a9 m c) (a10 m c) (a11 m c) (a12 m c) (a13 m c)) := by
  refine ext_row fun q => ?_
  refine (congrFun (W6_arr m c 3) (ix2 0 q)).trans ?_
  refine (arr2_logits (V5 m) c q).trans ?_
  show _ = scoreRow (a0 m c) (a1 m c) (a2 m c) (a3 m c) (a4 m c) (a5 m c) (a6 m c) (a7 m c) (a8 m c) (a9 m c) (a10 m c) (a11 m c) (a12 m c) (a13 m c) q
  unfold scoreRow
  rw [in3_b, show (V5 m c main_arg12 : (⟨S50257x1024, .f32⟩ : BufTy).Contents (Elt Ideal)) = a12 m c from
      (W5_far m c main_arg12 (by decide) (by decide) (by decide)).trans (W2_arg m c main_arg12 (by decide) (by decide)),
    show (V5 m c main_v36 : (⟨S1x1024, .f32⟩ : BufTy).Contents (Elt Ideal)) = _ from k_hnew m c he]

/-- The kernel's first result. -/
theorem k_out0 :
    (W8 m c main_v38 : (⟨S1x50257, .f32⟩ : BufTy).Contents (Elt Ideal))
      = out0 (a0 m c) (a1 m c) (a2 m c) (a3 m c) (a4 m c) (a5 m c) (a6 m c) (a7 m c) (a8 m c) (a9 m c) (a10 m c) (a11 m c) (a12 m c) (a13 m c) := by
  rw [W8_main_v38, k_logits m c he]
  rfl

/-- The kernel's second result. -/
theorem k_out1 :
    (W8 m c main_v39 : (⟨S1x1x1024, .f32⟩ : BufTy).Contents (Elt Ideal))
      = out1 (a0 m c) (a1 m c) (a2 m c) (a3 m c) (a4 m c) (a5 m c) (a6 m c) (a7 m c) (a8 m c) (a9 m c) (a10 m c) (a11 m c) := by
  rw [W8_main_v39, k_hnew m c he]
  rfl

end Cert.KernelIdeal.Hand

end
-- ==== Proof.RefA.lean ====
/-
  The reference's first stages as the mathematics of the attention-and-combine stage: the looked-up embedding row, the
  hidden state's row, and the GRU's input row. The reference joins the embedding and the hidden state into one
  2048-wide row and multiplies it with the transposed attention weight; a sum over the 2048 joined positions is the
  sum over the left 1024 plus the sum over the right 1024, and a transposed weight read at (k, l) is the weight at
  (l, k). The combining weight meets the joined mix-and-embedding row the same way.
-/
import proofs.«408449_j11519102288461_3_alg».proof.Proof.RefRead
import proofs.«408449_j11519102288461_3_alg».proof.Proof.Spec
import proofs.«408449_j11519102288461_3_alg».proof.Proof.Glue

set_option maxRecDepth 16384

noncomputable section

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.ReferenceIdeal.Facts₀ Cert.ReferenceIdeal.Facts
open scoped BigOperators

namespace RefA

/-! Facts about rows, at any contents. -/
/-- A sum over the 2048 joined positions is the sum over the left 1024 plus the sum over the right 1024. -/
theorem sum_lo_hi (g : Fin 2048 → EReal) :
    ∑ k : Fin 2048, g k = ∑ k : Fin 1024, g (Cert.Spec.lo k) + ∑ k : Fin 1024, g (Cert.Spec.hi k) :=
  Fin.sum_univ_add (a := 1024) (b := 1024) g

/-- The joined row read in its left half is the first row. -/
theorem joined_lo (y₁ y₂ : (⟨2, ![1, 1024]⟩ : Shape).Idx → EReal)
    (h : Shape.Concatenates [(⟨2, ![1, 1024]⟩ : Shape), ⟨2, ![1, 1024]⟩] ⟨2, ![1, 2048]⟩ 1) (k : Fin 1024) :
    concatenate (⟨2, ![1, 2048]⟩ : Shape) 1 [⟨⟨2, ![1, 1024]⟩, y₁⟩, ⟨⟨2, ![1, 1024]⟩, y₂⟩] h (ix2 0 (Cert.Spec.lo k)) = y₁ (ix2 0 k) :=
  concatenate_pair_apply_left 1 y₁ y₂ h (ix2 0 (Cert.Spec.lo k)) rfl (ix2 0 k)
    (fun b => match b with | ⟨0, _⟩ => rfl | ⟨1, _⟩ => rfl)

/-- The joined row read in its right half is the second row. -/
theorem joined_hi (y₁ y₂ : (⟨2, ![1, 1024]⟩ : Shape).Idx → EReal)
    (h : Shape.Concatenates [(⟨2, ![1, 1024]⟩ : Shape), ⟨2, ![1, 1024]⟩] ⟨2, ![1, 2048]⟩ 1) (k : Fin 1024) :
    concatenate (⟨2, ![1, 2048]⟩ : Shape) 1 [⟨⟨2, ![1, 1024]⟩, y₁⟩, ⟨⟨2, ![1, 1024]⟩, y₂⟩] h (ix2 0 (Cert.Spec.hi k)) = y₂ (ix2 0 k) :=
  concatenate_pair_apply_right 1 y₁ y₂ h (ix2 0 (Cert.Spec.hi k)) rfl rfl (ix2 0 k)
    (fun b => match b with | ⟨0, _⟩ => fun _ => rfl | ⟨1, _⟩ => fun hb => absurd rfl hb)
    (by show k.val + 1024 = 1024 + k.val; omega)

/-- The maximum of a 1 × 20 row taken from −∞ is the fold of max over its twenty entries. -/
theorem rowmax_fold (x : (⟨2, ![1, 20]⟩ : Shape).Idx → EReal)
    (h' : (⟨2, ![1, 20]⟩ : Shape).ReducesTo [1] ⟨1, ![1]⟩) (hu : 0 < (⟨0, ![]⟩ : Shape).numel) (j : (⟨1, ![1]⟩ : Shape).Idx) :
    Host.reduce (FloatOps.maximumf (F := Ideal) (φ := .f32)) x (constant (F := Ideal) (⟨0, ![]⟩ : Shape) .f32 0xFF800000#32) h' hu j
      = Cert.Spec.rowMax (fun l : Fin 20 => x (ix2 0 l)) := by
  have h : (⟨2, ![1, 20]⟩ : Shape).Reduces [1] ⟨1, ![1]⟩ := by decide
  refine (Host.reduce_eq_fold_single (FloatOps.maximumf (F := Ideal) (φ := .f32)) x _ h' h hu j).trans ?_
  have hb : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  have hl : (x ∘ h.lift j) = (fun l : Fin 20 => x (ix2 0 l)) := by
    funext l
    refine congrArg x (funext fun a => Fin.ext ?_)
    match a with
    | ⟨0, h0⟩ => have h1 : (h.lift j l ⟨0, h0⟩).val < 1 := (h.lift j l ⟨0, h0⟩).isLt; show (h.lift j l ⟨0, h0⟩).val = 0; omega
    | ⟨1, _⟩ => rfl
  rw [hb, hl]
  rfl

/-- The pattern 0xFF800000 is −∞. -/
theorem negInf_eq_bot : (FloatOps.ofBits (F := Ideal) .f32 0xFF800000#32) = (⊥ : EReal) := by
  show Ideal.ofBits .f32 0xFF800000#32 = ⊥
  simp [Ideal.ofBits, Ideal.ieee]

/-- The pattern 0x00000000 is 0. -/
theorem zero_eq_zero : (FloatOps.ofBits (F := Ideal) .f32 0x00000000#32) = (0 : EReal) :=
  Ideal.ofBits_zero_f32

variable (x0 : (⟨S1, .i32⟩ : BufTy).Contents (Elt Ideal)) (x1 : (⟨S1x1x1024, .f32⟩ : BufTy).Contents (Elt Ideal))
  (x2 : (⟨S20x1024, .f32⟩ : BufTy).Contents (Elt Ideal)) (x3 : (⟨S50257x1024, .f32⟩ : BufTy).Contents (Elt Ideal))
  (x4 : (⟨S20x2048, .f32⟩ : BufTy).Contents (Elt Ideal)) (x5 : (⟨S20, .f32⟩ : BufTy).Contents (Elt Ideal))
  (x6 : (⟨S1024x2048, .f32⟩ : BufTy).Contents (Elt Ideal)) (x7 : (⟨S1024, .f32⟩ : BufTy).Contents (Elt Ideal))

/-- The gathered row is the shared lookup: the same operations on the same arrays. -/
theorem lookup : val_main_v6 x0 x3 = Cert.KernelIdeal.Glue.embRow x0 x3 := rfl

/-- Reshaping a 1 × 1024 row to 1 × 1 × 1024 and back reads every entry where it was. -/
theorem reshape_there_and_back (i : S1x1024.Idx) : idx_main_v7 (idx_main_v8 i) = i :=
  funext fun a => Fin.ext (by
    have h0 : (i 0).val < 1 := (i 0).isLt
    have h1 : (i 1).val < 1024 := (i 1).isLt
    match a with
    | ⟨0, _⟩ => show 0 = (i 0).val; omega
    | ⟨1, _⟩ => show ((0 * 1 + 0) * 1024 + ((i 0).val * 1024 + (i 1).val) % 1024) % 1024 = (i 1).val; omega)

/-! The row of scores. -/

theorem joined_row_lo (k : Fin 1024) : val_main_v10 x0 x1 x3 (ix2 0 (Cert.Spec.lo k)) = val_main_v8 x0 x3 (ix2 0 k) := by
  unfold val_main_v10
  exact joined_lo _ _ _ k
theorem joined_row_hi (k : Fin 1024) : val_main_v10 x0 x1 x3 (ix2 0 (Cert.Spec.hi k)) = val_main_v9 x1 (ix2 0 k) := by
  unfold val_main_v10
  exact joined_hi _ _ _ k

/-- The score of encoder position l: the joined row against row l of the weight, plus the bias. -/
theorem score (l : Fin 20) :
    val_main_v14 x0 x1 x3 x4 x5 (ix2 0 l)
      = Cert.Spec.attnLogit (Cert.Spec.row (n := 1024) (val_main_v8 x0 x3)) (Cert.Spec.row (n := 1024) (val_main_v9 x1))
          (Cert.Spec.mat (a := 20) (b := 2048) x4) (Cert.Spec.vec (n := 20) x5) l := by
  have hb : x5 (idx_main_v13 (ix2 0 l)) = x5 (ix1 l) :=
    congrArg x5 (funext fun a => by match a with | ⟨0, _⟩ => rfl)
  have hlo : ∀ k : Fin 1024,
      val_main_v10 x0 x1 x3 (lidx_main_v12 (ix2 0 l) (Cert.Spec.lo k)) * val_main_v11 x4 (ridx_main_v12 (ix2 0 l) (Cert.Spec.lo k))
        = val_main_v8 x0 x3 (ix2 0 k) * x4 (ix2 l (Cert.Spec.lo k)) := fun k => by
    have e1 : lidx_main_v12 (ix2 0 l) (Cert.Spec.lo k) = ix2 0 (Cert.Spec.lo k) :=
      funext fun a => by match a with | ⟨0, _⟩ => rfl | ⟨1, _⟩ => rfl
    have e2 : idx_main_v11 (ridx_main_v12 (ix2 0 l) (Cert.Spec.lo k)) = ix2 l (Cert.Spec.lo k) :=
      funext fun a => by match a with | ⟨0, _⟩ => rfl | ⟨1, _⟩ => rfl
    rw [e1, joined_row_lo, val_main_v11_apply, e2]
  have hhi : ∀ k : Fin 1024,
      val_main_v10 x0 x1 x3 (lidx_main_v12 (ix2 0 l) (Cert.Spec.hi k)) * val_main_v11 x4 (ridx_main_v12 (ix2 0 l) (Cert.Spec.hi k))
        = val_main_v9 x1 (ix2 0 k) * x4 (ix2 l (Cert.Spec.hi k)) := fun k => by
    have e1 : lidx_main_v12 (ix2 0 l) (Cert.Spec.hi k) = ix2 0 (Cert.Spec.hi k) :=
      funext fun a => by match a with | ⟨0, _⟩ => rfl | ⟨1, _⟩ => rfl
    have e2 : idx_main_v11 (ridx_main_v12 (ix2 0 l) (Cert.Spec.hi k)) = ix2 l (Cert.Spec.hi k) :=
      funext fun a => by match a with | ⟨0, _⟩ => rfl | ⟨1, _⟩ => rfl
    rw [e1, joined_row_hi, val_main_v11_apply, e2]
  rw [val_main_v14_apply, val_main_v12_apply, val_main_v13_apply, sum_lo_hi, hb, Ideal.addf_def]
  unfold Cert.Spec.attnLogit Cert.Spec.row Cert.Spec.mat Cert.Spec.vec
  exact congrArg₂ (· + ·) (congrArg₂ (· + ·) (Finset.sum_congr rfl fun k _ => hlo k) (Finset.sum_congr rfl fun k _ => hhi k)) rfl

/-- The row of scores as one function. -/
theorem scores :
    (fun l : Fin 20 => val_main_v14 x0 x1 x3 x4 x5 (ix2 0 l))
      = Cert.Spec.attnLogit (Cert.Spec.row (n := 1024) (val_main_v8 x0 x3)) (Cert.Spec.row (n := 1024) (val_main_v9 x1))
          (Cert.Spec.mat (a := 20) (b := 2048) x4) (Cert.Spec.vec (n := 20) x5) :=
  funext fun l => score x0 x1 x3 x4 x5 l

/-! The softmax of the scores. -/

/-- The largest score (the maximum with −∞ once more changes nothing). -/
theorem largest :
    val_main_v17 x0 x1 x3 x4 x5 (ix1 0) = Cert.Spec.rowMax (fun l : Fin 20 => val_main_v14 x0 x1 x3 x4 x5 (ix2 0 l)) := by
  have h15 : val_main_v15 x0 x1 x3 x4 x5 (ix1 0) = Cert.Spec.rowMax (fun l : Fin 20 => val_main_v14 x0 x1 x3 x4 x5 (ix2 0 l)) := by
    unfold val_main_v15 val_main_cst
    exact rowmax_fold _ _ _ _
  rw [val_main_v17_apply, val_main_v16_apply, val_main_cst_1_apply, h15, negInf_eq_bot, Ideal.maximumf_def]
  exact max_eq_right bot_le

/-- A score less the largest, exponentiated. -/
theorem expShifted (l : Fin 20) :
    val_main_v21 x0 x1 x3 x4 x5 (ix2 0 l)
      = Ideal.exp (val_main_v14 x0 x1 x3 x4 x5 (ix2 0 l) - Cert.Spec.rowMax (fun l : Fin 20 => val_main_v14 x0 x1 x3 x4 x5 (ix2 0 l))) := by
  have e : idx_main_v18 (idx_main_v19 (ix2 0 l)) = ix1 0 := funext fun a => by match a with | ⟨0, _⟩ => rfl
  rw [val_main_v21_apply, val_main_v20_apply, val_main_v19_apply, val_main_v18_apply, e, largest]
  rfl

/-- The sum of the exponentials. -/
theorem sumExp :
    val_main_v22 x0 x1 x3 x4 x5 (ix1 0)
      = ∑ l : Fin 20, Ideal.exp (val_main_v14 x0 x1 x3 x4 x5 (ix2 0 l) - Cert.Spec.rowMax (fun l : Fin 20 => val_main_v14 x0 x1 x3 x4 x5 (ix2 0 l))) := by
  rw [val_main_v22_apply, val_main_cst_2_apply, zero_eq_zero, zero_add]
  refine Finset.sum_congr rfl fun l _ => ?_
  have e : idx_main_v22 (ix1 0) l = ix2 0 l := funext fun a => by match a with | ⟨0, _⟩ => rfl | ⟨1, _⟩ => rfl
  rw [e, expShifted]

/-- The attention weight of position l. -/
theorem weight (l : Fin 20) :
    val_main_v25 x0 x1 x3 x4 x5 (ix2 0 l) = Cert.Spec.softmaxW (fun l : Fin 20 => val_main_v14 x0 x1 x3 x4 x5 (ix2 0 l)) l := by
  have e : idx_main_v23 (idx_main_v24 (ix2 0 l)) = ix1 0 := funext fun a => by match a with | ⟨0, _⟩ => rfl
  rw [val_main_v25_apply, val_main_v24_apply, val_main_v23_apply, e, sumExp, expShifted]
  rfl

/-- The encoder outputs mixed by the weights. -/
theorem mixed (k : Fin 1024) :
    val_main_v26 x0 x1 x2 x3 x4 x5 (ix2 0 k)
      = Cert.Spec.focused (Cert.Spec.softmaxW (fun l : Fin 20 => val_main_v14 x0 x1 x3 x4 x5 (ix2 0 l))) (Cert.Spec.mat (a := 20) (b := 1024) x2) k := by
  rw [val_main_v26_apply]
  unfold Cert.Spec.focused Cert.Spec.mat
  refine Finset.sum_congr rfl fun l _ => ?_
  have e1 : lidx_main_v26 (ix2 0 k) l = ix2 0 l := funext fun a => by match a with | ⟨0, _⟩ => rfl | ⟨1, _⟩ => rfl
  have e2 : ridx_main_v26 (ix2 0 k) l = ix2 l k := funext fun a => by match a with | ⟨0, _⟩ => rfl | ⟨1, _⟩ => rfl
  rw [e1, e2, weight]

/-! The combining layer's joined row: the mix on the left, the embedding row (reshaped from the same 1 × 1 × 1024 array
    once more) on the right. -/

theorem mixed_row_lo (k : Fin 1024) :
    val_main_v28 x0 x1 x2 x3 x4 x5 (ix2 0 (Cert.Spec.lo k)) = val_main_v26 x0 x1 x2 x3 x4 x5 (ix2 0 k) := by
  unfold val_main_v28
  exact joined_lo _ _ _ k
theorem mixed_row_hi (k : Fin 1024) :
    val_main_v28 x0 x1 x2 x3 x4 x5 (ix2 0 (Cert.Spec.hi k)) = val_main_v8 x0 x3 (ix2 0 k) := by
  unfold val_main_v28
  exact joined_hi _ _ _ k

end RefA

open RefA

variable (x0 : (⟨S1, .i32⟩ : BufTy).Contents (Elt Ideal)) (x1 : (⟨S1x1x1024, .f32⟩ : BufTy).Contents (Elt Ideal))
  (x2 : (⟨S20x1024, .f32⟩ : BufTy).Contents (Elt Ideal)) (x3 : (⟨S50257x1024, .f32⟩ : BufTy).Contents (Elt Ideal))
  (x4 : (⟨S20x2048, .f32⟩ : BufTy).Contents (Elt Ideal)) (x5 : (⟨S20, .f32⟩ : BufTy).Contents (Elt Ideal))
  (x6 : (⟨S1024x2048, .f32⟩ : BufTy).Contents (Elt Ideal)) (x7 : (⟨S1024, .f32⟩ : BufTy).Contents (Elt Ideal))

/-- The reference's embedding row is the shared lookup (the two reshapes through 1 × 1 × 1024 change nothing). -/
theorem ref_emb : val_main_v8 x0 x3 = Cert.KernelIdeal.Glue.embRow x0 x3 := by
  funext i
  rw [val_main_v8_apply, val_main_v7_apply, reshape_there_and_back]
  exact congrFun (lookup x0 x3) i
theorem ref_emb' : val_main_v27 x0 x3 = Cert.KernelIdeal.Glue.embRow x0 x3 := ref_emb x0 x3

/-- The hidden state's row, read at its column. -/
theorem ref_hidden (k : Fin 1024) : val_main_v9 x1 (ix2 0 k) = x1 (ix3 0 0 k) := by
  rw [val_main_v9_apply]
  refine congrArg x1 (funext fun a => Fin.ext ?_)
  have hk : k.val < 1024 := k.isLt
  match a with
  | ⟨0, _⟩ => rfl
  | ⟨1, _⟩ => rfl
  | ⟨2, _⟩ => show (0 * 1024 + k.val) % 1024 = k.val; omega
theorem ref_hidden' (k : Fin 1024) : val_main_v34 x1 (ix2 0 k) = x1 (ix3 0 0 k) := ref_hidden x1 k

/-- Entry j of the reference's GRU input row. -/
theorem ref_gruIn (j : Fin 1024) :
    val_main_v33 x0 x1 x2 x3 x4 x5 x6 x7 (ix2 0 j)
      = Cert.Spec.gruIn (Cert.Spec.row (n := 1024) (val_main_v8 x0 x3)) (Cert.Spec.row (n := 1024) (val_main_v9 x1))
          (Cert.Spec.mat (a := 20) (b := 1024) x2) (Cert.Spec.mat (a := 20) (b := 2048) x4) (Cert.Spec.vec (n := 20) x5)
          (Cert.Spec.mat (a := 1024) (b := 2048) x6) (Cert.Spec.vec (n := 1024) x7) j := by
  have hb : x7 (idx_main_v31 (ix2 0 j)) = x7 (ix1 j) :=
    congrArg x7 (funext fun a => by match a with | ⟨0, _⟩ => rfl)
  have hz : val_main_call0_v0 (F := Ideal) (ix2 0 j) = (0 : EReal) := by
    rw [val_main_call0_v0_apply, val_main_call0_cst_apply, zero_eq_zero]
  have hlo : ∀ k : Fin 1024,
      val_main_v28 x0 x1 x2 x3 x4 x5 (lidx_main_v30 (ix2 0 j) (Cert.Spec.lo k)) * val_main_v29 x6 (ridx_main_v30 (ix2 0 j) (Cert.Spec.lo k))
        = Cert.Spec.focused (Cert.Spec.softmaxW (fun l : Fin 20 => val_main_v14 x0 x1 x3 x4 x5 (ix2 0 l))) (Cert.Spec.mat (a := 20) (b := 1024) x2) k
            * x6 (ix2 j (Cert.Spec.lo k)) := fun k => by
    have e1 : lidx_main_v30 (ix2 0 j) (Cert.Spec.lo k) = ix2 0 (Cert.Spec.lo k) :=
      funext fun a => by match a with | ⟨0, _⟩ => rfl | ⟨1, _⟩ => rfl
    have e2 : idx_main_v29 (ridx_main_v30 (ix2 0 j) (Cert.Spec.lo k)) = ix2 j (Cert.Spec.lo k) :=
      funext fun a => by match a with | ⟨0, _⟩ => rfl | ⟨1, _⟩ => rfl
    rw [e1, mixed_row_lo, mixed, val_main_v29_apply, e2]
  have hhi : ∀ k : Fin 1024,
      val_main_v28 x0 x1 x2 x3 x4 x5 (lidx_main_v30 (ix2 0 j) (Cert.Spec.hi k)) * val_main_v29 x6 (ridx_main_v30 (ix2 0 j) (Cert.Spec.hi k))
        = val_main_v8 x0 x3 (ix2 0 k) * x6 (ix2 j (Cert.Spec.hi k)) := fun k => by
    have e1 : lidx_main_v30 (ix2 0 j) (Cert.Spec.hi k) = ix2 0 (Cert.Spec.hi k) :=
      funext fun a => by match a with | ⟨0, _⟩ => rfl | ⟨1, _⟩ => rfl
    have e2 : idx_main_v29 (ridx_main_v30 (ix2 0 j) (Cert.Spec.hi k)) = ix2 j (Cert.Spec.hi k) :=
      funext fun a => by match a with | ⟨0, _⟩ => rfl | ⟨1, _⟩ => rfl
    rw [e1, mixed_row_hi, val_main_v29_apply, e2]
  rw [val_main_v33_apply, val_main_v32_apply, val_main_v30_apply, val_main_v31_apply, sum_lo_hi, hb, hz, Ideal.addf_def,
    Ideal.maximumf_def]
  unfold Cert.Spec.gruIn Cert.Spec.combine
  rw [← scores]
  unfold Cert.Spec.row Cert.Spec.mat Cert.Spec.vec
  exact congrArg₂ max
    (congrArg₂ (· + ·) (congrArg₂ (· + ·) (Finset.sum_congr rfl fun k _ => hlo k) (Finset.sum_congr rfl fun k _ => hhi k)) rfl) rfl

end Cert.ReferenceIdeal.Bridge

end
-- ==== Proof.RefB.lean ====
/-
  The reference's later stages: the two gate pre-activations and the vocabulary scores as affine rows (a row against a
  transposed weight read at (k, q) is the row against the weight's row q), the GRU cell's elementwise step and the
  log-softmax as the shared functions of the arrays going in, and the two results.
-/
import proofs.«408449_j11519102288461_3_alg».proof.Proof.RefRead
import proofs.«408449_j11519102288461_3_alg».proof.Proof.Spec
import proofs.«408449_j11519102288461_3_alg».proof.Proof.Glue

set_option maxRecDepth 16384

noncomputable section

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.ReferenceIdeal.Facts₀ Cert.ReferenceIdeal.Facts

/-! The two elementwise stages are the same compositions of the same operations in both programs, so the equations hold
    at any instance of the float operations, by unfolding the stages down to the arrays going in. -/
section Generic

variable {F : FTy → Type} [FloatOps F]

/-- The GRU step of the reference, operation by operation, is the shared step, at any instance of the float operations. -/
theorem hnew_generic (x0 : (⟨S1, .i32⟩ : BufTy).Contents (Elt F)) (x1 : (⟨S1x1x1024, .f32⟩ : BufTy).Contents (Elt F)) (x2 : (⟨S20x1024, .f32⟩ : BufTy).Contents (Elt F)) (x3 : (⟨S50257x1024, .f32⟩ : BufTy).Contents (Elt F)) (x4 : (⟨S20x2048, .f32⟩ : BufTy).Contents (Elt F)) (x5 : (⟨S20, .f32⟩ : BufTy).Contents (Elt F)) (x6 : (⟨S1024x2048, .f32⟩ : BufTy).Contents (Elt F)) (x7 : (⟨S1024, .f32⟩ : BufTy).Contents (Elt F)) (x8 x9 : (⟨S3072x1024, .f32⟩ : BufTy).Contents (Elt F)) (x10 x11 : (⟨S3072, .f32⟩ : BufTy).Contents (Elt F)) :
    val_main_v70 (F := F) x0 x1 x2 x3 x4 x5 x6 x7 x8 x9 x10 x11
      = Cert.KernelIdeal.Glue.gru (val_main_v38 x0 x1 x2 x3 x4 x5 x6 x7 x8 x10) (val_main_v42 x1 x9 x11) (val_main_v34 x1) := by
  unfold val_main_v70 val_main_v68 val_main_v69 val_main_v67 val_main_v66 val_main_cst_7 val_main_v65 val_main_v64 val_main_v63
    val_main_v62 val_main_v61 val_main_cst_6 val_main_v60 val_main_v59 val_main_cst_5 val_main_v58 val_main_v57 val_main_v56
    val_main_v55 val_main_v54 val_main_cst_4 val_main_v53 val_main_v52 val_main_cst_3 val_main_v51 val_main_v50 val_main_v49
    val_main_v48 val_main_v47 val_main_v46 val_main_v45 val_main_v44 val_main_v43
  generalize val_main_v38 x0 x1 x2 x3 x4 x5 x6 x7 x8 x10 = gi
  generalize val_main_v42 x1 x9 x11 = gh
  generalize val_main_v34 x1 = h
  rfl

/-- The log-softmax of the reference, operation by operation, is the shared one, at any instance of the float operations. -/
theorem out0_generic (x0 : (⟨S1, .i32⟩ : BufTy).Contents (Elt F)) (x1 : (⟨S1x1x1024, .f32⟩ : BufTy).Contents (Elt F)) (x2 : (⟨S20x1024, .f32⟩ : BufTy).Contents (Elt F)) (x3 : (⟨S50257x1024, .f32⟩ : BufTy).Contents (Elt F)) (x4 : (⟨S20x2048, .f32⟩ : BufTy).Contents (Elt F)) (x5 : (⟨S20, .f32⟩ : BufTy).Contents (Elt F)) (x6 : (⟨S1024x2048, .f32⟩ : BufTy).Contents (Elt F)) (x7 : (⟨S1024, .f32⟩ : BufTy).Contents (Elt F)) (x8 x9 : (⟨S3072x1024, .f32⟩ : BufTy).Contents (Elt F)) (x10 x11 : (⟨S3072, .f32⟩ : BufTy).Contents (Elt F)) (x12 : (⟨S50257x1024, .f32⟩ : BufTy).Contents (Elt F)) (x13 : (⟨S50257, .f32⟩ : BufTy).Contents (Elt F)) :
    val_main_v75 (F := F) x0 x1 x2 x3 x4 x5 x6 x7 x8 x9 x10 x11 x12 x13
      = Cert.KernelIdeal.Glue.logSoftmax (val_main_v74 x0 x1 x2 x3 x4 x5 x6 x7 x8 x9 x10 x11 x12 x13) := by
  unfold val_main_v75 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst
  generalize val_main_v74 x0 x1 x2 x3 x4 x5 x6 x7 x8 x9 x10 x11 x12 x13 = y
  rfl

end Generic

abbrev C (S : Shape) (e : EltTy) := (⟨S, e⟩ : BufTy).Contents (Elt Ideal)

variable (x0 : C S1 .i32) (x1 : C S1x1x1024 .f32) (x2 : C S20x1024 .f32) (x3 : C S50257x1024 .f32) (x4 : C S20x2048 .f32)
  (x5 : C S20 .f32) (x6 : C S1024x2048 .f32) (x7 : C S1024 .f32) (x8 x9 : C S3072x1024 .f32) (x10 x11 : C S3072 .f32)
  (x12 : C S50257x1024 .f32) (x13 : C S50257 .f32)

/-! An affine row. Entry (0, q) of the product is the sum over k of the row at (0, k) times the transposed weight at
    (k, q), which is the weight at (q, k); the broadcast bias at (0, q) is the bias at q. -/

/-- Entry q of the input-side gate pre-activations. -/
theorem ref_gi (q : Fin 3072) :
    val_main_v38 x0 x1 x2 x3 x4 x5 x6 x7 x8 x10 (ix2 0 q)
      = Cert.Spec.affine (Cert.Spec.row (n := 1024) (val_main_v33 x0 x1 x2 x3 x4 x5 x6 x7)) (Cert.Spec.mat (a := 3072) (b := 1024) x8)
          (Cert.Spec.vec (n := 3072) x10) q := by
  rw [val_main_v38_apply, val_main_v36_apply, val_main_v37_apply]
  simp only [val_main_v35_apply]
  unfold Cert.Spec.affine Cert.Spec.row Cert.Spec.mat Cert.Spec.vec
  rw [Ideal.addf_def]
  refine congrArg₂ (· + ·) (Finset.sum_congr rfl fun k _ => congrArg₂ (· * ·) ?_ ?_) ?_
  · exact congrArg (val_main_v33 x0 x1 x2 x3 x4 x5 x6 x7) (funext fun a => Fin.ext (by match a with | ⟨0, _⟩ => rfl | ⟨1, _⟩ => rfl))
  · exact congrArg x8 (funext fun a => Fin.ext (by match a with | ⟨0, _⟩ => rfl | ⟨1, _⟩ => rfl))
  · exact congrArg x10 (funext fun a => Fin.ext (by match a with | ⟨0, _⟩ => rfl))

/-- Entry q of the hidden-side gate pre-activations. -/
theorem ref_gh (q : Fin 3072) :
    val_main_v42 x1 x9 x11 (ix2 0 q)
      = Cert.Spec.affine (Cert.Spec.row (n := 1024) (val_main_v34 x1)) (Cert.Spec.mat (a := 3072) (b := 1024) x9)
          (Cert.Spec.vec (n := 3072) x11) q := by
  rw [val_main_v42_apply, val_main_v40_apply, val_main_v41_apply]
  simp only [val_main_v39_apply]
  unfold Cert.Spec.affine Cert.Spec.row Cert.Spec.mat Cert.Spec.vec
  rw [Ideal.addf_def]
  refine congrArg₂ (· + ·) (Finset.sum_congr rfl fun k _ => congrArg₂ (· * ·) ?_ ?_) ?_
  · exact congrArg (val_main_v34 x1) (funext fun a => Fin.ext (by match a with | ⟨0, _⟩ => rfl | ⟨1, _⟩ => rfl))
  · exact congrArg x9 (funext fun a => Fin.ext (by match a with | ⟨0, _⟩ => rfl | ⟨1, _⟩ => rfl))
  · exact congrArg x11 (funext fun a => Fin.ext (by match a with | ⟨0, _⟩ => rfl))

/-- The new hidden state is the shared GRU step of the two pre-activation rows and the hidden state's row. -/
theorem ref_hnew :
    val_main_v70 x0 x1 x2 x3 x4 x5 x6 x7 x8 x9 x10 x11
      = Cert.KernelIdeal.Glue.gru (val_main_v38 x0 x1 x2 x3 x4 x5 x6 x7 x8 x10) (val_main_v42 x1 x9 x11) (val_main_v34 x1) :=
  hnew_generic (F := Ideal) x0 x1 x2 x3 x4 x5 x6 x7 x8 x9 x10 x11

/-- Entry q of the score row. -/
theorem ref_logits (q : Fin 50257) :
    val_main_v74 x0 x1 x2 x3 x4 x5 x6 x7 x8 x9 x10 x11 x12 x13 (ix2 0 q)
      = Cert.Spec.affine (Cert.Spec.row (n := 1024) (val_main_v70 x0 x1 x2 x3 x4 x5 x6 x7 x8 x9 x10 x11)) (Cert.Spec.mat (a := 50257) (b := 1024) x12)
          (Cert.Spec.vec (n := 50257) x13) q := by
  rw [val_main_v74_apply, val_main_v72_apply, val_main_v73_apply]
  simp only [val_main_v71_apply]
  unfold Cert.Spec.affine Cert.Spec.row Cert.Spec.mat Cert.Spec.vec
  rw [Ideal.addf_def]
  refine congrArg₂ (· + ·) (Finset.sum_congr rfl fun k _ => congrArg₂ (· * ·) ?_ ?_) ?_
  · exact congrArg (val_main_v70 x0 x1 x2 x3 x4 x5 x6 x7 x8 x9 x10 x11) (funext fun a => Fin.ext (by match a with | ⟨0, _⟩ => rfl | ⟨1, _⟩ => rfl))
  · exact congrArg x12 (funext fun a => Fin.ext (by match a with | ⟨0, _⟩ => rfl | ⟨1, _⟩ => rfl))
  · exact congrArg x13 (funext fun a => Fin.ext (by match a with | ⟨0, _⟩ => rfl))

/-- The first result is the shared log-softmax of the score row. -/
theorem ref_out0 :
    val_main_v75 x0 x1 x2 x3 x4 x5 x6 x7 x8 x9 x10 x11 x12 x13 = Cert.KernelIdeal.Glue.logSoftmax (val_main_v74 x0 x1 x2 x3 x4 x5 x6 x7 x8 x9 x10 x11 x12 x13) :=
  out0_generic (F := Ideal) x0 x1 x2 x3 x4 x5 x6 x7 x8 x9 x10 x11 x12 x13

/-- The second result is the new hidden state with a unit axis added. -/
theorem ref_out1 :
    val_main_v76 x0 x1 x2 x3 x4 x5 x6 x7 x8 x9 x10 x11
      = shapeCast S1x1x1024 (val_main_v70 x0 x1 x2 x3 x4 x5 x6 x7 x8 x9 x10 x11) Gen.shapeCasts_S1x1024_S1x1x1024 := by
  unfold val_main_v76
  rfl

end Cert.ReferenceIdeal.Bridge

end
-- ==== Proof.RSide.lean ====
/-
  The reference's two results are the program's mathematics of its arguments: stage by stage, the embedding row, the
  GRU's input row, the two gate pre-activation rows, the new hidden state, the score row, the log-softmax.
-/
import proofs.«408449_j11519102288461_3_alg».proof.Proof.RefA
import proofs.«408449_j11519102288461_3_alg».proof.Proof.RefB
import proofs.«408449_j11519102288461_3_alg».proof.Proof.KSide

set_option maxRecDepth 16384

noncomputable section

namespace Cert.ReferenceIdeal.Bridge

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.ReferenceIdeal.Facts₀ Cert.ReferenceIdeal.Facts

open Cert.KernelIdeal.Hand (arr ext_row row_arr arr_row hidRow gruInRow giRow ghRow hNew scoreRow out0 out1)

variable (x0 : C S1 .i32) (x1 : C S1x1x1024 .f32) (x2 : C S20x1024 .f32) (x3 : C S50257x1024 .f32) (x4 : C S20x2048 .f32)
  (x5 : C S20 .f32) (x6 : C S1024x2048 .f32) (x7 : C S1024 .f32) (x8 x9 : C S3072x1024 .f32) (x10 x11 : C S3072 .f32)
  (x12 : C S50257x1024 .f32) (x13 : C S50257 .f32)

theorem r_hid : Cert.Spec.row (n := 1024) (val_main_v9 x1) = hidRow x1 := by
  funext k; exact ref_hidden x1 k
theorem r_hid' : val_main_v34 x1 = arr (hidRow x1) :=
  ext_row fun k => ref_hidden' x1 k

theorem r_gruIn : Cert.Spec.row (n := 1024) (val_main_v33 x0 x1 x2 x3 x4 x5 x6 x7) = gruInRow x0 x1 x2 x3 x4 x5 x6 x7 := by
  funext j
  refine (ref_gruIn x0 x1 x2 x3 x4 x5 x6 x7 j).trans ?_
  show _ = gruInRow x0 x1 x2 x3 x4 x5 x6 x7 j
  unfold gruInRow
  rw [r_hid, ref_emb]

theorem r_gi : val_main_v38 x0 x1 x2 x3 x4 x5 x6 x7 x8 x10 = arr (giRow x0 x1 x2 x3 x4 x5 x6 x7 x8 x10) := by
  refine ext_row fun q => ?_
  refine (ref_gi x0 x1 x2 x3 x4 x5 x6 x7 x8 x10 q).trans ?_
  show _ = giRow x0 x1 x2 x3 x4 x5 x6 x7 x8 x10 q
  unfold giRow
  rw [r_gruIn]

theorem r_gh : val_main_v42 x1 x9 x11 = arr (ghRow x1 x9 x11) := by
  refine ext_row fun q => ?_
  refine (ref_gh x1 x9 x11 q).trans ?_
  show _ = ghRow x1 x9 x11 q
  unfold ghRow
  rw [r_hid', row_arr]

theorem r_hnew : val_main_v70 x0 x1 x2 x3 x4 x5 x6 x7 x8 x9 x10 x11 = hNew x0 x1 x2 x3 x4 x5 x6 x7 x8 x9 x10 x11 := by
  rw [ref_hnew, r_gi, r_gh, r_hid']
  rfl

theorem r_logits : val_main_v74 x0 x1 x2 x3 x4 x5 x6 x7 x8 x9 x10 x11 x12 x13 = arr (scoreRow x0 x1 x2 x3 x4 x5 x6 x7 x8 x9 x10 x11 x12 x13) := by
  refine ext_row fun q => ?_
  refine (ref_logits x0 x1 x2 x3 x4 x5 x6 x7 x8 x9 x10 x11 x12 x13 q).trans ?_
  show _ = scoreRow x0 x1 x2 x3 x4 x5 x6 x7 x8 x9 x10 x11 x12 x13 q
  unfold scoreRow
  rw [r_hnew]

/-- The reference's first result. -/
theorem r_out0 : val_main_v75 x0 x1 x2 x3 x4 x5 x6 x7 x8 x9 x10 x11 x12 x13 = out0 x0 x1 x2 x3 x4 x5 x6 x7 x8 x9 x10 x11 x12 x13 := by
  rw [ref_out0, r_logits]
  rfl

/-- The reference's second result. -/
theorem r_out1 : val_main_v76 x0 x1 x2 x3 x4 x5 x6 x7 x8 x9 x10 x11 = out1 x0 x1 x2 x3 x4 x5 x6 x7 x8 x9 x10 x11 := by
  rw [ref_out1, r_hnew]
  rfl

end Cert.ReferenceIdeal.Bridge

end
-- ==== Proof.lean ====
/-
  One step of an attention decoder with a GRU cell — three launches (attention and combine; the GRU's gate
  pre-activations, one grid point per gate; the vocabulary scores in fifteen blocks of 3584 words, the last cut to the
  vocabulary's end) among host operations (the embedding lookup, the GRU's elementwise step, a log-softmax) — against
  the same step written with plain array operations.

  Frames. Each launch's body leaves its result buffers at its payloads of the input blocks; the launches and the host
  stretches compose in order, and no operation and no launch writes an argument. At the word level a score column is
  an uninterpreted word of the whole weight buffer, whose last block holds words nothing names past the vocabulary's
  end, so there the third launch's result is left unnamed and only the arguments are followed; over the extended
  reals a score column is a sum along its own row of the weight, and every buffer is named to the end.

  Values, over the extended reals. The kernel rounds its operands to bf16 before each matrix product, which changes
  nothing there, and multiplies the two halves of the 2048-wide weights separately where the reference joins the two
  rows first: a sum over the joined positions is the sum of the two halves' sums. The softmax, the rectifier, the
  GRU's step and the log-softmax are the same functions on both sides, and the three launches' blocks tile their
  result arrays. The precondition keeps the word index inside the embedding table, where the lookup's range test
  passes and both programs gather the same row; outside it the kernel's lookup fills the row with a non-number where
  the reference's clamps the index.
-/
import proofs.«408449_j11519102288461_3_alg».proof.Defs
import proofs.«408449_j11519102288461_3_alg».proof.Proof.Gen.Kernel
import proofs.«408449_j11519102288461_3_alg».proof.Proof.Gen.KernelIdeal
import proofs.«408449_j11519102288461_3_alg».proof.Proof.Gen.ReferenceIdeal
import proofs.«408449_j11519102288461_3_alg».proof.Proof.Gen.Pre_finite_inputs
import proofs.«408449_j11519102288461_3_alg».proof.Proof.KRunB
import proofs.«408449_j11519102288461_3_alg».proof.Proof.RunB
import proofs.«408449_j11519102288461_3_alg».proof.Proof.RunI
import proofs.«408449_j11519102288461_3_alg».proof.Proof.ColLocalIdeal
import proofs.«408449_j11519102288461_3_alg».proof.Proof.KArgs
import proofs.«408449_j11519102288461_3_alg».proof.Proof.ValE
import proofs.«408449_j11519102288461_3_alg».proof.Proof.KSide
import proofs.«408449_j11519102288461_3_alg».proof.Proof.RSide
import Idealize.ShloMosaic.Adequacy
import Idealize.ShloMosaic.Init

set_option maxRecDepth 16384

noncomputable section

namespace Cert.Proof

open Idealize.ShloMosaic Idealize.ShloMosaic.TcCoe Idealize.SL.Sem

/-- The word-level program runs to its end and leaves its arguments as launched. -/
theorem frame_p : Cert.frame_Kernel := fun m ρ _ => Cert.Kernel.Hand.frame_any (F := Bits) m ρ

/-- So does the idealized program. -/
theorem frame_pi : Cert.frame_KernelIdeal := fun m ρ _ => Cert.KernelIdeal.Hand.frame_any (F := Ideal) m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read over the extended reals: nothing was rewritten. -/
theorem preserves : Cert.preserves_Kernel_KernelIdeal := trivial

set_option maxHeartbeats 1000000 in
/-- From memories agreeing on the arguments both programs end with the log-probabilities and the new hidden state the
    decoder step's mathematics gives: the kernel's by the three launches' values and the shared host functions, the
    reference's stage by stage. -/
theorem algebraic : Cert.algebraic_KernelIdeal_ReferenceIdeal := by
  intro m ρ m' ρ' hpre hagree
  refine ⟨fun c => Cert.KernelIdeal.Hand.W8 m c Cert.KernelIdeal.main_v38, fun c => Cert.KernelIdeal.Hand.W8 m c Cert.KernelIdeal.main_v39, ?_, ?_⟩
  · refine (θ_run Cert.KernelIdeal.defs _ _).mono (fun r h c => ?_)
      (Cert.KernelIdeal.Hand.run_all (F := Ideal) m ρ Cert.KernelIdeal.Hand.colLocal_ideal)
    exact ⟨h c _ (Cert.KernelIdeal.Hand.mem_uc Cert.KernelIdeal.main_v38 (by decide)),
      h c _ (Cert.KernelIdeal.Hand.mem_uc Cert.KernelIdeal.main_v39 (by decide)),
        (h c _ (Cert.KernelIdeal.Hand.mem_uc Cert.KernelIdeal.main_arg0 (by decide))).trans (Cert.KernelIdeal.Hand.W8_main_arg0 m c),
        (h c _ (Cert.KernelIdeal.Hand.mem_uc Cert.KernelIdeal.main_arg1 (by decide))).trans (Cert.KernelIdeal.Hand.W8_main_arg1 m c),
        (h c _ (Cert.KernelIdeal.Hand.mem_uc Cert.KernelIdeal.main_arg2 (by decide))).trans (Cert.KernelIdeal.Hand.W8_main_arg2 m c),
        (h c _ (Cert.KernelIdeal.Hand.mem_uc Cert.KernelIdeal.main_arg3 (by decide))).trans (Cert.KernelIdeal.Hand.W8_main_arg3 m c),
        (h c _ (Cert.KernelIdeal.Hand.mem_uc Cert.KernelIdeal.main_arg4 (by decide))).trans (Cert.KernelIdeal.Hand.W8_main_arg4 m c),
        (h c _ (Cert.KernelIdeal.Hand.mem_uc Cert.KernelIdeal.main_arg5 (by decide))).trans (Cert.KernelIdeal.Hand.W8_main_arg5 m c),
        (h c _ (Cert.KernelIdeal.Hand.mem_uc Cert.KernelIdeal.main_arg6 (by decide))).trans (Cert.KernelIdeal.Hand.W8_main_arg6 m c),
        (h c _ (Cert.KernelIdeal.Hand.mem_uc Cert.KernelIdeal.main_arg7 (by decide))).trans (Cert.KernelIdeal.Hand.W8_main_arg7 m c),
        (h c _ (Cert.KernelIdeal.Hand.mem_uc Cert.KernelIdeal.main_arg8 (by decide))).trans (Cert.KernelIdeal.Hand.W8_main_arg8 m c),
        (h c _ (Cert.KernelIdeal.Hand.mem_uc Cert.KernelIdeal.main_arg9 (by decide))).trans (Cert.KernelIdeal.Hand.W8_main_arg9 m c),
        (h c _ (Cert.KernelIdeal.Hand.mem_uc Cert.KernelIdeal.main_arg10 (by decide))).trans (Cert.KernelIdeal.Hand.W8_main_arg10 m c),
        (h c _ (Cert.KernelIdeal.Hand.mem_uc Cert.KernelIdeal.main_arg11 (by decide))).trans (Cert.KernelIdeal.Hand.W8_main_arg11 m c),
        (h c _ (Cert.KernelIdeal.Hand.mem_uc Cert.KernelIdeal.main_arg12 (by decide))).trans (Cert.KernelIdeal.Hand.W8_main_arg12 m c),
        (h c _ (Cert.KernelIdeal.Hand.mem_uc Cert.KernelIdeal.main_arg13 (by decide))).trans (Cert.KernelIdeal.Hand.W8_main_arg13 m c)⟩
  · refine (θ_run Cert.ReferenceIdeal.defs _ _).mono (fun r h c => ⟨?_, ?_, (h c).2.2⟩)
      (Cert.ReferenceIdeal.Value.run (F := Ideal) m' ρ')
    · have he := Cert.KernelIdeal.Hand.embedded_eq m hpre c
      rw [(h c).1, Cert.ReferenceIdeal.Read.val_main_v75_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2.1, (hagree c).2.2.2.2.2.2.2.2.2.2.1,
        (hagree c).2.2.2.2.2.2.2.2.2.2.2.1, (hagree c).2.2.2.2.2.2.2.2.2.2.2.2.1, (hagree c).2.2.2.2.2.2.2.2.2.2.2.2.2]
      exact (Cert.ReferenceIdeal.Bridge.r_out0 _ _ _ _ _ _ _ _ _ _ _ _ _ _).trans (Cert.KernelIdeal.Hand.k_out0 m c he).symm
    · have he := Cert.KernelIdeal.Hand.embedded_eq m hpre c
      rw [(h c).2.1, Cert.ReferenceIdeal.Read.val_main_v76_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2.1, (hagree c).2.2.2.2.2.2.2.2.2.2.1,
        (hagree c).2.2.2.2.2.2.2.2.2.2.2.1]
      exact (Cert.ReferenceIdeal.Bridge.r_out1 _ _ _ _ _ _ _ _ _ _ _ _).trans (Cert.KernelIdeal.Hand.k_out1 m c he).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
